-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S65536x7x7 : Shape := ⟨3, ![65536, 7, 7]⟩
abbrev S16777216x8 : Shape := ⟨2, ![16777216, 8]⟩
abbrev S4x32 : Shape := ⟨2, ![4, 32]⟩
abbrev S200x16 : Shape := ⟨2, ![200, 16]⟩
abbrev S256x440 : Shape := ⟨2, ![256, 440]⟩
abbrev S256 : Shape := ⟨1, ![256]⟩
abbrev S64x256 : Shape := ⟨2, ![64, 256]⟩
abbrev S64 : Shape := ⟨1, ![64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S16777216x8 : S_.BroadcastsInDim S16777216x8 (![] : Fin 0 → Fin S16777216x8.rank)
  reducesTo_S16777216x8_S_d0_1 : S16777216x8.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S200x16 : S_.BroadcastsInDim S200x16 (![] : Fin 0 → Fin S200x16.rank)
  reducesTo_S200x16_S_d0_1 : S200x16.ReducesTo [0, 1] S_
  bcast_S_S256x440 : S_.BroadcastsInDim S256x440 (![] : Fin 0 → Fin S256x440.rank)
  reducesTo_S256x440_S_d0_1 : S256x440.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1x16 .f32) (main_arg15 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S1x16 .f32 := Host.absf main_arg14
  let main_cst_20 : FVec F S_ .f32 := constant S_ .f32 0x7F800000#32
  let main_v55 : FVec F S1x16 .f32 := broadcastInDim S1x16 ![] bcast_S_S1x16 main_cst_20
  let main_v56 : IVec S1x16 1 := cmpf .olt main_v54 main_v55
  let main_c_21 : IVec S_ 1 := constantI S_ 1 1#1
  let main_v57 : IVec S_ 1 := (fun x v => Host.reduce IntOp.andi x v reducesTo_S1x16_S_d0_1 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S64x256 .f32) (main_arg11 : FVec F S64 .f32) (main_arg12 : FVec F S16x64 .f32) (main_arg13 : FVec F S16 .f32) (main_arg14 : FVec F S1x16 .f32) (main_arg15 : FVec F S1 .f32) (main_v33 : IVec S_ 1) : IVec S_ 1 :=
  let main_v34 : FVec F S64x256 .f32 := Host.absf main_arg10
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S16x64 .f32 := Host.absf main_arg12
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S16 .f32 := Host.absf main_arg13
  let main_cst_18 : FVec F S_ .f32 := constant S_ .f32 0x7F800000#32
  let main_v50 : FVec F S16 .f32 := broadcastInDim S16 ![] bcast_S_S16 main_cst_18
  fn_part3 (F := F) main_arg14 main_arg15 main_v48 main_v49 main_v50

def fn_part1 {F : FTy → Type} [FloatOps F] (main_arg7 : FVec F S256 .f32) (main_arg8 : FVec F S256 .f32) (main_arg9 : FVec F S256 .f32) (main_arg10 : FVec F S64x256 .f32) (main_arg11 : FVec F S64 .f32) (main_arg12 : FVec F S16x64 .f32) (main_arg13 : FVec F S16 .f32) (main_arg14 : FVec F S1x16 .f32) (main_arg15 : FVec F S1 .f32) (main_v13 : IVec S_ 1) (main_v16 : IVec S256x440 1) : IVec S_ 1 :=
  let main_c_5 : IVec S_ 1 := constantI S_ 1 1#1
  let main_v17 : IVec S_ 1 := (fun x v => Host.reduce IntOp.andi x v reducesTo_S256x440_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : IVec S65536 32) (main_arg1 : IVec S65536 32) (main_arg2 : IVec S65536x7x7 32) (main_arg3 : FVec F S16777216x8 .f32) (main_arg4 : FVec F S4x32 .f32) (main_arg5 : FVec F S200x16 .f32) (main_arg6 : FVec F S256x440 .f32) (main_arg7 : FVec F S256 .f32) (main_arg8 : FVec F S256 .f32) (main_arg9 : FVec F S256 .f32) (main_arg10 : FVec F S64x256 .f32) (main_arg11 : FVec F S64 .f32) (main_arg12 : FVec F S16x64 .f32) (main_arg13 : FVec F S16 .f32) (main_arg14 : FVec F S1x16 .f32) (main_arg15 : FVec F S1 .f32) : IVec S_ 1 :=
  let main_v0 : FVec F S16777216x8 .f32 := Host.absf main_arg3
  let main_cst : FVec F S_ .f32 := constant S_ .f32 0x7F800000#32
  let main_v1 : FVec F S16777216x8 .f32 := broadcastInDim S16777216x8 ![] bcast_S_S16777216x8 main_cst
  let main_v2 : IVec S16777216x8 1 := cmpf .olt main_v0 main_v1
  let main_c : IVec S_ 1 := constantI S_ 1 1#1
  let main_v3 : IVec S_ 1 := (fun x v => Host.reduce IntOp.andi x v reducesTo_S16777216x8_S_d0_1 h_S_) main_v2 main_c
  let main_v4 : FVec F S4x32 .f32 := Host.absf main_arg4
  let main_cst_0 : FVec F S_ .f32 := constant S_ .f32 0x7F800000#32
  let main_v5 : FVec F S4x32 .f32 := broadcastInDim S4x32 ![] bcast_S_S4x32 main_cst_0
  let main_v6 : IVec S4x32 1 := cmpf .olt main_v4 main_v5
  let main_c_1 : IVec S_ 1 := constantI S_ 1 1#1
  let main_v7 : IVec S_ 1 := (fun x v => Host.reduce IntOp.andi x v reducesTo_S4x32_S_d0_1 h_S_) main_v6 main_c_1
  let main_v8 : IVec S_ 1 := andi main_v3 main_v7
  let main_v9 : FVec F S200x16 .f32 := Host.absf main_arg5
  let main_cst_2 : FVec F S_ .f32 := constant S_ .f32 0x7F800000#32
  let main_v10 : FVec F S200x16 .f32 := broadcastInDim S200x16 ![] bcast_S_S200x16 main_cst_2
  let main_v11 : IVec S200x16 1 := cmpf .olt main_v9 main_v10
  let main_c_3 : IVec S_ 1 := constantI S_ 1 1#1
  let main_v12 : IVec S_ 1 := (fun x v => Host.reduce IntOp.andi x v reducesTo_S200x16_S_d0_1 h_S_) main_v11 main_c_3
  let main_v13 : IVec S_ 1 := andi main_v8 main_v12
  let main_v14 : FVec F S256x440 .f32 := Host.absf main_arg6
  let main_cst_4 : FVec F S_ .f32 := constant S_ .f32 0x7F800000#32
  let main_v15 : FVec F S256x440 .f32 := broadcastInDim S256x440 ![] bcast_S_S256x440 main_cst_4
  let main_v16 : IVec S256x440 1 := cmpf .olt main_v14 main_v15
  fn_part1 (F := F) main_arg7 main_arg8 main_arg9 main_arg10 main_arg11 main_arg12 main_arg13 main_arg14 main_arg15 main_v13 main_v16
-- ==== Kernel.lean ====
abbrev S65536 : Shape := ⟨1, ![65536]⟩
abbrev S65536x7x7 : Shape := ⟨3, ![65536, 7, 7]⟩
abbrev S16777216x8 : Shape := ⟨2, ![16777216, 8]⟩
abbrev S4x32 : Shape := ⟨2, ![4, 32]⟩
abbrev S200x16 : Shape := ⟨2, ![200, 16]⟩
abbrev S256x440 : Shape := ⟨2, ![256, 440]⟩
abbrev S256 : Shape := ⟨1, ![256]⟩
abbrev S64x256 : Shape := ⟨2, ![64, 256]⟩
abbrev S64 : Shape := ⟨1, ![64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩
abbrev S65536x7x7x1 : Shape := ⟨4, ![65536, 7, 7, 1]⟩
abbrev S65536x7x7x8 : Shape := ⟨4, ![65536, 7, 7, 8]⟩
abbrev S65536x392 : Shape := ⟨2, ![65536, 392]⟩
abbrev S65536x1 : Shape := ⟨2, ![65536, 1]⟩
abbrev S65536x32 : Shape := ⟨2, ![65536, 32]⟩
abbrev S65536x16 : Shape := ⟨2, ![65536, 16]⟩
abbrev S440x256 : Shape := ⟨2, ![440, 256]⟩
abbrev S1x256 : Shape := ⟨2, ![1, 256]⟩
abbrev S256x64 : Shape := ⟨2, ![256, 64]⟩
abbrev S1x64 : Shape := ⟨2, ![1, 64]⟩
abbrev S64x16 : Shape := ⟨2, ![64, 16]⟩
abbrev S16x1 : Shape := ⟨2, ![16, 1]⟩
abbrev S1x1 : Shape := ⟨2, ![1, 1]⟩
abbrev S65536x256 : Shape := ⟨2, ![65536, 256]⟩
abbrev S4096x32 : Shape := ⟨2, ![4096, 32]⟩
abbrev S4096x16 : Shape := ⟨2, ![4096, 16]⟩
abbrev S4096x392 : Shape := ⟨2, ![4096, 392]⟩
abbrev S4096x256 : Shape := ⟨2, ![4096, 256]⟩
abbrev S4096x440 : Shape := ⟨2, ![4096, 440]⟩
abbrev S4096x1 : Shape := ⟨2, ![4096, 1]⟩
abbrev S4096x64 : Shape := ⟨2, ![4096, 64]⟩

abbrev nBuf : Space → Nat
  | .hbm => 89
  | .vmem => 26
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536x7x7, .i32⟩
  | .hbm, ⟨3, _⟩ => ⟨S16777216x8, .f32⟩
  | .hbm, ⟨4, _⟩ => ⟨S4x32, .f32⟩
  | .hbm, ⟨5, _⟩ => ⟨S200x16, .f32⟩
  | .hbm, ⟨6, _⟩ => ⟨S256x440, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S64x256, .f32⟩
  | .hbm, ⟨11, _⟩ => ⟨S64, .f32⟩
  | .hbm, ⟨12, _⟩ => ⟨S16x64, .f32⟩
  | .hbm, ⟨13, _⟩ => ⟨S16, .f32⟩
  | .hbm, ⟨14, _⟩ => ⟨S1x16, .f32⟩
  | .hbm, ⟨15, _⟩ => ⟨S1, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S65536x7x7, .i32⟩
  | .hbm, ⟨23, _⟩ => ⟨S65536x7x7, .i32⟩
  | .hbm, ⟨24, _⟩ => ⟨S_, .i32⟩
  | .hbm, ⟨25, _⟩ => ⟨S65536x7x7, .i32⟩
  | .hbm, ⟨26, _⟩ => ⟨S65536x7x7, .i1⟩
  | .hbm, ⟨27, _⟩ => ⟨S_, .i32⟩
  | .hbm, ⟨28, _⟩ => ⟨S65536x7x7, .i32⟩
  | .hbm, ⟨29, _⟩ => ⟨S65536x7x7, .i1⟩
  | .hbm, ⟨30, _⟩ => ⟨S_, .i32⟩
  | .hbm, ⟨31, _⟩ => ⟨S_, .i1⟩
  | .hbm, ⟨32, _⟩ => ⟨S65536x7x7, .i1⟩
  | .hbm, ⟨33, _⟩ => ⟨S65536x7x7, .i1⟩
  | .hbm, ⟨34, _⟩ => ⟨S65536x7x7, .i1⟩
  | .hbm, ⟨35, _⟩ => ⟨S65536x7x7, .i32⟩
  | .hbm, ⟨36, _⟩ => ⟨S65536x7x7, .i32⟩
  | .hbm, ⟨37, _⟩ => ⟨S65536x7x7, .i32⟩
  | .hbm, ⟨38, _⟩ => ⟨S_, .i32⟩
  | .hbm, ⟨39, _⟩ => ⟨S65536x7x7, .i32⟩
  | .hbm, ⟨40, _⟩ => ⟨S65536x7x7, .i1⟩
  | .hbm, ⟨41, _⟩ => ⟨S_, .i32⟩
  | .hbm, ⟨42, _⟩ => ⟨S65536x7x7, .i32⟩
  | .hbm, ⟨43, _⟩ => ⟨S65536x7x7, .i32⟩
  | .hbm, ⟨44, _⟩ => ⟨S65536x7x7, .i32⟩
  | .hbm, ⟨45, _⟩ => ⟨S65536x7x7x1, .i32⟩
  | .hbm, ⟨46, _⟩ => ⟨S65536x7x7x8, .f32⟩
  | .hbm, ⟨47, _⟩ => ⟨S65536x392, .f32⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S65536, .i32⟩
  | .hbm, ⟨53, _⟩ => ⟨S65536, .i32⟩
  | .hbm, ⟨54, _⟩ => ⟨S65536, .i32⟩
  | .hbm, ⟨55, _⟩ => ⟨S65536x1, .i32⟩
  | .hbm, ⟨56, _⟩ => ⟨S65536x32, .f32⟩
  | .hbm, ⟨57, _⟩ => ⟨S_, .i32⟩
  | .hbm, ⟨58, _⟩ => ⟨S65536, .i32⟩
  | .hbm, ⟨59, _⟩ => ⟨S65536, .i1⟩
  | .hbm, ⟨60, _⟩ => ⟨S_, .i32⟩
  | .hbm, ⟨61, _⟩ => ⟨S65536, .i32⟩
  | .hbm, ⟨62, _⟩ => ⟨S65536, .i32⟩
  | .hbm, ⟨63, _⟩ => ⟨S65536, .i32⟩
  | .hbm, ⟨64, _⟩ => ⟨S65536x1, .i32⟩
  | .hbm, ⟨65, _⟩ => ⟨S65536x16, .f32⟩
  | .hbm, ⟨66, _⟩ => ⟨S440x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S256x64, .f32⟩
  | .hbm, ⟨71, _⟩ => ⟨S1x64, .f32⟩
  | .hbm, ⟨72, _⟩ => ⟨S64x16, .f32⟩
  | .hbm, ⟨73, _⟩ => ⟨S1x16, .f32⟩
  | .hbm, ⟨74, _⟩ => ⟨S16x1, .f32⟩
  | .hbm, ⟨75, _⟩ => ⟨S1x1, .f32⟩
  | .hbm, ⟨76, _⟩ => ⟨S65536x256, .f32⟩
  | .hbm, ⟨77, _⟩ => ⟨S1x256, .f32⟩
  | .hbm, ⟨78, _⟩ => ⟨S1x256, .f32⟩
  | .hbm, ⟨79, _⟩ => ⟨S_, .f32⟩
  | .hbm, ⟨80, _⟩ => ⟨S1x256, .f32⟩
  | .hbm, ⟨81, _⟩ => ⟨S1x256, .f32⟩
  | .hbm, ⟨82, _⟩ => ⟨S_, .f32⟩
  | .hbm, ⟨83, _⟩ => ⟨S1x256, .f32⟩
  | .hbm, ⟨84, _⟩ => ⟨S1x256, .f32⟩
  | .hbm, ⟨85, _⟩ => ⟨S1x256, .f32⟩
  | .hbm, ⟨86, _⟩ => ⟨S1x256, .f32⟩
  | .hbm, ⟨87, _⟩ => ⟨S65536x1, .f32⟩
  | .hbm, ⟨88, _⟩ => ⟨S65536, .f32⟩
  | .local _ .vmem, ⟨0, _⟩ => ⟨S4096x32, .f32⟩
  | .local _ .vmem, ⟨1, _⟩ => ⟨S4096x32, .f32⟩
  | .local _ .vmem, ⟨2, _⟩ => ⟨S4096x16, .f32⟩
  | .local _ .vmem, ⟨3, _⟩ => ⟨S4096x16, .f32⟩
  | .local _ .vmem, ⟨4, _⟩ => ⟨S4096x392, .f32⟩
  | .local _ .vmem, ⟨5, _⟩ => ⟨S4096x392, .f32⟩
  | .local _ .vmem, ⟨6, _⟩ => ⟨S440x256, .f32⟩
  | .local _ .vmem, ⟨7, _⟩ => ⟨S1x256, .f32⟩
  | .local _ .vmem, ⟨8, _⟩ => ⟨S4096x256, .f32⟩
  | .local _ .vmem, ⟨9, _⟩ => ⟨S4096x256, .f32⟩
  | .local _ .vmem, ⟨10, _⟩ => ⟨S1x256, .f32⟩
  | .local _ .vmem, ⟨11, _⟩ => ⟨S1x256, .f32⟩
  | .local _ .vmem, ⟨12, _⟩ => ⟨S4096x256, .f32⟩
  | .local _ .vmem, ⟨13, _⟩ => ⟨S4096x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x64, .f32⟩
  | .local _ .vmem, ⟨19, _⟩ => ⟨S1x64, .f32⟩
  | .local _ .vmem, ⟨20, _⟩ => ⟨S64x16, .f32⟩
  | .local _ .vmem, ⟨21, _⟩ => ⟨S1x16, .f32⟩
  | .local _ .vmem, ⟨22, _⟩ => ⟨S16x1, .f32⟩
  | .local _ .vmem, ⟨23, _⟩ => ⟨S1x1, .f32⟩
  | .local _ .vmem, ⟨24, _⟩ => ⟨S4096x1, .f32⟩
  | .local _ .vmem, ⟨25, _⟩ => ⟨S4096x1, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v0 : Ref sig .tc := ⟨.hbm, 37, rfl⟩
abbrev main_c_0 : Ref sig .tc := ⟨.hbm, 38, rfl⟩
abbrev main_v1 : Ref sig .tc := ⟨.hbm, 39, rfl⟩
abbrev main_v2 : Ref sig .tc := ⟨.hbm, 40, rfl⟩
abbrev main_c_1 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_c_2 : Ref sig .tc := ⟨.hbm, 48, rfl⟩
abbrev main_v9 : Ref sig .tc := ⟨.hbm, 49, rfl⟩
abbrev main_v10 : Ref sig .tc := ⟨.hbm, 50, rfl⟩
abbrev main_c_3 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_4 : Ref sig .tc := ⟨.hbm, 57, rfl⟩
abbrev main_v16 : Ref sig .tc := ⟨.hbm, 58, rfl⟩
abbrev main_v17 : Ref sig .tc := ⟨.hbm, 59, rfl⟩
abbrev main_c_5 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33_0 : Ref sig .tc := ⟨.hbm, 76, rfl⟩
abbrev main_v33_1 : Ref sig .tc := ⟨.hbm, 77, rfl⟩
abbrev main_v33_2 : Ref sig .tc := ⟨.hbm, 78, rfl⟩
abbrev main_cst : Ref sig .tc := ⟨.hbm, 79, rfl⟩
abbrev main_v34 : Ref sig .tc := ⟨.hbm, 80, rfl⟩
abbrev main_v35 : Ref sig .tc := ⟨.hbm, 81, rfl⟩
abbrev main_cst_6 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S440x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4096x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S65536x7x7 : S_.BroadcastsInDim S65536x7x7 (![] : Fin 0 → Fin S65536x7x7.rank)
  bcast_S65536x7x7_S65536x7x7x1_0_1_2 : S65536x7x7.BroadcastsInDim S65536x7x7x1 (![0, 1, 2] : Fin 3 → Fin S65536x7x7x1.rank)
  shapeCasts_S65536x7x7x8_S65536x392 : S65536x7x7x8.ShapeCasts S65536x392
  bcast_S_S65536 : S_.BroadcastsInDim S65536 (![] : Fin 0 → Fin S65536.rank)
  bcast_S65536_S65536x1_0 : S65536.BroadcastsInDim S65536x1 (![0] : Fin 1 → Fin S65536x1.rank)
  transposes_S256x440_S440x256_1_0 : S256x440.Transposes [1, 0] S440x256
  shapeCasts_S256_S1x256 : S256.ShapeCasts S1x256
  transposes_S64x256_S256x64_1_0 : S64x256.Transposes [1, 0] S256x64
  shapeCasts_S64_S1x64 : S64.ShapeCasts S1x64
  transposes_S16x64_S64x16_1_0 : S16x64.Transposes [1, 0] S64x16
  shapeCasts_S16_S1x16 : S16.ShapeCasts S1x16
  transposes_S1x16_S16x1_1_0 : S1x16.Transposes [1, 0] S16x1
  shapeCasts_S1_S1x1 : S1.ShapeCasts S1x1
  inb_S1x256_S1x256_0_0 : ∀ a, (![0, 0] : Fin 2 → Nat) a + S1x256.size a ≤ S1x256.size a
  h_S1x256 : 0 < S1x256.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x392_S4096x392_0_0 : ∀ a, (![0, 0] : Fin 2 → Nat) a + S4096x392.size a ≤ S4096x392.size a
  h_S4096x392 : 0 < S4096x392.numel
  shapeCasts_S4096x392_S4096x392 : S4096x392.ShapeCasts S4096x392
  concatenates_S4096x32_S4096x16_S4096x392_S4096x440_d1 : Shape.Concatenates [S4096x32, S4096x16, S4096x392] S4096x440 1
  bitsLt_bf16_f32 : FTy.bits .bf16 < FTy.bits .f32
  inb_S440x256_S440x256_0_0 : ∀ a, (![0, 0] : Fin 2 → Nat) a + S440x256.size a ≤ S440x256.size a
  h_S440x256 : 0 < S440x256.numel
  shapeCasts_S440x256_S440x256 : S440x256.ShapeCasts S440x256
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  bcast_S_S1x256 : S_.BroadcastsInDim S1x256 (![] : Fin 0 → Fin S1x256.rank)
  shapeCasts_S4096x256_S4096x256 : S4096x256.ShapeCasts S4096x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S65536x1_S65536 : S65536x1.ShapeCasts S65536
  gather_S16777216x8_S65536x7x7x1_S65536x7x7x8_3_0_n_n_0_3_18_wf : GatherDims.WF S16777216x8 S65536x7x7x1 S65536x7x7x8 [3] [0] [] [0] [] 3 ![1, 8]
  gather_S4x32_S65536x1_S65536x32_1_0_n_n_0_1_132_wf : GatherDims.WF S4x32 S65536x1 S65536x32 [1] [0] [] [0] [] 1 ![1, 32]
  gather_S200x16_S65536x1_S65536x16_1_0_n_n_0_1_116_wf : GatherDims.WF S200x16 S65536x1 S65536x16 [1] [0] [] [0] [] 1 ![1, 16]
  dot_S4096x440_S440x256_S4096x256_1_0_0_1_n_n_wf : DotDims.WF S4096x440 S440x256 S4096x256 [1] [0] [0] [1] [] []
  dot_S4096x256_S256x64_S4096x64_1_0_0_1_n_n_wf : DotDims.WF S4096x256 S256x64 S4096x64 [1] [0] [0] [1] [] []
  dot_S4096x64_S64x16_S4096x16_1_0_0_1_n_n_wf : DotDims.WF S4096x64 S64x16 S4096x16 [1] [0] [0] [1] [] []
  dot_S4096x16_S16x1_S4096x1_1_0_0_1_n_n_wf : DotDims.WF S4096x16 S16x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S65536x32.size a
  hwx0_0 : ∀ i : grid0.Coords, EltTy.bits .f32 = 32 ∨ (Rect.block (s := S65536x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S65536x16.size a
  hwx0_1 : ∀ i : grid0.Coords, EltTy.bits .f32 = 32 ∨ (Rect.block (s := S65536x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x392.size a ≤ S65536x392.size a
  hwx0_2 : ∀ i : grid0.Coords, EltTy.bits .f32 = 32 ∨ (Rect.block (s := S65536x392) S4096x392.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S440x256.size a ≤ S440x256.size a
  hwx0_3 : ∀ i : grid0.Coords, EltTy.bits .f32 = 32 ∨ (Rect.block (s := S440x256) S440x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S65536x256.size a
  hwx0_5 : ∀ i : grid0.Coords, EltTy.bits .f32 = 32 ∨ (Rect.block (s := S65536x256) S4096x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S65536x256.size a
  hwx1_0 : ∀ i : grid1.Coords, EltTy.bits .f32 = 32 ∨ (Rect.block (s := S65536x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .f32 = 32 ∨ (Rect.block (s := S256x64) S256x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x16.size a ≤ S64x16.size a
  hwx1_7 : ∀ i : grid1.Coords, EltTy.bits .f32 = 32 ∨ (Rect.block (s := S64x16) S64x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S16x1.size a ≤ S16x1.size a
  hwx1_9 : ∀ i : grid1.Coords, EltTy.bits .f32 = 32 ∨ (Rect.block (s := S16x1) S16x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4096x1.size a ≤ S65536x1.size a
  hwx1_11 : ∀ i : grid1.Coords, EltTy.bits .f32 = 32 ∨ (Rect.block (s := S65536x1) S4096x1.size (cc1_transform_11 i) (hinb1_11 i)).WholeWords (EltTy.packing .f32)

variable [Facts₀]

def gather_S16777216x8_S65536x7x7x1_S65536x7x7x8_3_0_n_n_0_3_18 : GatherDims S16777216x8 S65536x7x7x1 S65536x7x7x8 where
  offsetDims := [3]
  collapsedSliceDims := [0]
  operandBatchingDims := []
  startIndicesBatchingDims := []
  startIndexMap := [0]
  indexVectorDim := 3
  sliceSizes := ![1, 8]
  wf := gather_S16777216x8_S65536x7x7x1_S65536x7x7x8_3_0_n_n_0_3_18_wf
def gather_S4x32_S65536x1_S65536x32_1_0_n_n_0_1_132 : GatherDims S4x32 S65536x1 S65536x32 where
  offsetDims := [1]
  collapsedSliceDims := [0]
  operandBatchingDims := []
  startIndicesBatchingDims := []
  startIndexMap := [0]
  indexVectorDim := 1
  sliceSizes := ![1, 32]
  wf := gather_S4x32_S65536x1_S65536x32_1_0_n_n_0_1_132_wf
def gather_S200x16_S65536x1_S65536x16_1_0_n_n_0_1_116 : GatherDims S200x16 S65536x1 S65536x16 where
  offsetDims := [1]
  collapsedSliceDims := [0]
  operandBatchingDims := []
  startIndicesBatchingDims := []
  startIndexMap := [0]
  indexVectorDim := 1
  sliceSizes := ![1, 16]
  wf := gather_S200x16_S65536x1_S65536x16_1_0_n_n_0_1_116_wf
def dot_S4096x440_S440x256_S4096x256_1_0_0_1_n_n : DotDims S4096x440 S440x256 S4096x256 where
  lhsContracting := [1]
  rhsContracting := [0]
  lhsNonContracting := [0]
  rhsNonContracting := [1]
  lhsBatch := []
  rhsBatch := []
  wf := dot_S4096x440_S440x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x16_S4096x16_1_0_0_1_n_n : DotDims S4096x64 S64x16 S4096x16 where
  lhsContracting := [1]
  rhsContracting := [0]
  lhsNonContracting := [0]
  rhsNonContracting := [1]
  lhsBatch := []
  rhsBatch := []
  wf := dot_S4096x64_S64x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_v15) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x392.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S440x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33_0) S4096x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v33_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v33_0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S64x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S16x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v32) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v40) S4096x1.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S65536 : Shape := ⟨1, ![65536]⟩
abbrev S65536x7x7 : Shape := ⟨3, ![65536, 7, 7]⟩
abbrev S16777216x8 : Shape := ⟨2, ![16777216, 8]⟩
abbrev S4x32 : Shape := ⟨2, ![4, 32]⟩
abbrev S200x16 : Shape := ⟨2, ![200, 16]⟩
abbrev S256x440 : Shape := ⟨2, ![256, 440]⟩
abbrev S256 : Shape := ⟨1, ![256]⟩
abbrev S64x256 : Shape := ⟨2, ![64, 256]⟩
abbrev S64 : Shape := ⟨1, ![64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩
abbrev S65536x7x7x1 : Shape := ⟨4, ![65536, 7, 7, 1]⟩
abbrev S65536x7x7x8 : Shape := ⟨4, ![65536, 7, 7, 8]⟩
abbrev S65536x392 : Shape := ⟨2, ![65536, 392]⟩
abbrev S65536x1 : Shape := ⟨2, ![65536, 1]⟩
abbrev S65536x32 : Shape := ⟨2, ![65536, 32]⟩
abbrev S65536x16 : Shape := ⟨2, ![65536, 16]⟩
abbrev S65536x440 : Shape := ⟨2, ![65536, 440]⟩
abbrev S440x256 : Shape := ⟨2, ![440, 256]⟩
abbrev S65536x256 : Shape := ⟨2, ![65536, 256]⟩
abbrev S1x256 : Shape := ⟨2, ![1, 256]⟩
abbrev S256x64 : Shape := ⟨2, ![256, 64]⟩
abbrev S65536x64 : Shape := ⟨2, ![65536, 64]⟩
abbrev S1x64 : Shape := ⟨2, ![1, 64]⟩
abbrev S64x16 : Shape := ⟨2, ![64, 16]⟩
abbrev S16x1 : Shape := ⟨2, ![16, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536x7x7, .i32⟩
  | .hbm, ⟨3, _⟩ => ⟨S16777216x8, .f32⟩
  | .hbm, ⟨4, _⟩ => ⟨S4x32, .f32⟩
  | .hbm, ⟨5, _⟩ => ⟨S200x16, .f32⟩
  | .hbm, ⟨6, _⟩ => ⟨S256x440, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S64x256, .f32⟩
  | .hbm, ⟨11, _⟩ => ⟨S64, .f32⟩
  | .hbm, ⟨12, _⟩ => ⟨S16x64, .f32⟩
  | .hbm, ⟨13, _⟩ => ⟨S16, .f32⟩
  | .hbm, ⟨14, _⟩ => ⟨S1x16, .f32⟩
  | .hbm, ⟨15, _⟩ => ⟨S1, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S65536x7x7, .i32⟩
  | .hbm, ⟨23, _⟩ => ⟨S65536x7x7, .i32⟩
  | .hbm, ⟨24, _⟩ => ⟨S_, .i32⟩
  | .hbm, ⟨25, _⟩ => ⟨S65536x7x7, .i32⟩
  | .hbm, ⟨26, _⟩ => ⟨S65536x7x7, .i1⟩
  | .hbm, ⟨27, _⟩ => ⟨S_, .i32⟩
  | .hbm, ⟨28, _⟩ => ⟨S65536x7x7, .i32⟩
  | .hbm, ⟨29, _⟩ => ⟨S65536x7x7, .i1⟩
  | .hbm, ⟨30, _⟩ => ⟨S_, .i32⟩
  | .hbm, ⟨31, _⟩ => ⟨S_, .i1⟩
  | .hbm, ⟨32, _⟩ => ⟨S65536x7x7, .i1⟩
  | .hbm, ⟨33, _⟩ => ⟨S65536x7x7, .i1⟩
  | .hbm, ⟨34, _⟩ => ⟨S65536x7x7, .i1⟩
  | .hbm, ⟨35, _⟩ => ⟨S65536x7x7, .i32⟩
  | .hbm, ⟨36, _⟩ => ⟨S65536x7x7, .i32⟩
  | .hbm, ⟨37, _⟩ => ⟨S65536x7x7, .i32⟩
  | .hbm, ⟨38, _⟩ => ⟨S_, .i32⟩
  | .hbm, ⟨39, _⟩ => ⟨S65536x7x7, .i32⟩
  | .hbm, ⟨40, _⟩ => ⟨S65536x7x7, .i1⟩
  | .hbm, ⟨41, _⟩ => ⟨S_, .i32⟩
  | .hbm, ⟨42, _⟩ => ⟨S65536x7x7, .i32⟩
  | .hbm, ⟨43, _⟩ => ⟨S65536x7x7, .i32⟩
  | .hbm, ⟨44, _⟩ => ⟨S65536x7x7, .i32⟩
  | .hbm, ⟨45, _⟩ => ⟨S65536x7x7x1, .i32⟩
  | .hbm, ⟨46, _⟩ => ⟨S65536x7x7x8, .f32⟩
  | .hbm, ⟨47, _⟩ => ⟨S65536x392, .f32⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S65536, .i32⟩
  | .hbm, ⟨53, _⟩ => ⟨S65536, .i32⟩
  | .hbm, ⟨54, _⟩ => ⟨S65536, .i32⟩
  | .hbm, ⟨55, _⟩ => ⟨S65536x1, .i32⟩
  | .hbm, ⟨56, _⟩ => ⟨S65536x32, .f32⟩
  | .hbm, ⟨57, _⟩ => ⟨S_, .i32⟩
  | .hbm, ⟨58, _⟩ => ⟨S65536, .i32⟩
  | .hbm, ⟨59, _⟩ => ⟨S65536, .i1⟩
  | .hbm, ⟨60, _⟩ => ⟨S_, .i32⟩
  | .hbm, ⟨61, _⟩ => ⟨S65536, .i32⟩
  | .hbm, ⟨62, _⟩ => ⟨S65536, .i32⟩
  | .hbm, ⟨63, _⟩ => ⟨S65536, .i32⟩
  | .hbm, ⟨64, _⟩ => ⟨S65536x1, .i32⟩
  | .hbm, ⟨65, _⟩ => ⟨S65536x16, .f32⟩
  | .hbm, ⟨66, _⟩ => ⟨S65536x440, .f32⟩
  | .hbm, ⟨67, _⟩ => ⟨S440x256, .f32⟩
  | .hbm, ⟨68, _⟩ => ⟨S65536x256, .f32⟩
  | .hbm, ⟨69, _⟩ => ⟨S1x256, .f32⟩
  | .hbm, ⟨70, _⟩ => ⟨S65536x256, .f32⟩
  | .hbm, ⟨71, _⟩ => ⟨S65536x256, .f32⟩
  | .hbm, ⟨72, _⟩ => ⟨S_, .f32⟩
  | .hbm, ⟨73, _⟩ => ⟨S256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S1x256, .f32⟩
  | .hbm, ⟨78, _⟩ => ⟨S65536x256, .f32⟩
  | .hbm, ⟨79, _⟩ => ⟨S65536x256, .f32⟩
  | .hbm, ⟨80, _⟩ => ⟨S65536x256, .f32⟩
  | .hbm, ⟨81, _⟩ => ⟨S_, .f32⟩
  | .hbm, ⟨82, _⟩ => ⟨S256, .f32⟩
  | .hbm, ⟨83, _⟩ => ⟨S_, .f32⟩
  | .hbm, ⟨84, _⟩ => ⟨S256, .f32⟩
  | .hbm, ⟨85, _⟩ => ⟨S256, .f32⟩
  | .hbm, ⟨86, _⟩ => ⟨S1x256, .f32⟩
  | .hbm, ⟨87, _⟩ => ⟨S65536x256, .f32⟩
  | .hbm, ⟨88, _⟩ => ⟨S65536x256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S256, .f32⟩
  | .hbm, ⟨93, _⟩ => ⟨S1x256, .f32⟩
  | .hbm, ⟨94, _⟩ => ⟨S65536x256, .f32⟩
  | .hbm, ⟨95, _⟩ => ⟨S65536x256, .f32⟩
  | .hbm, ⟨96, _⟩ => ⟨S1x256, .f32⟩
  | .hbm, ⟨97, _⟩ => ⟨S65536x256, .f32⟩
  | .hbm, ⟨98, _⟩ => ⟨S65536x256, .f32⟩
  | .hbm, ⟨99, _⟩ => ⟨S1x256, .f32⟩
  | .hbm, ⟨100, _⟩ => ⟨S65536x256, .f32⟩
  | .hbm, ⟨101, _⟩ => ⟨S65536x256, .f32⟩
  | .hbm, ⟨102, _⟩ => ⟨S256x64, .f32⟩
  | .hbm, ⟨103, _⟩ => ⟨S65536x64, .f32⟩
  | .hbm, ⟨104, _⟩ => ⟨S1x64, .f32⟩
  | .hbm, ⟨105, _⟩ => ⟨S65536x64, .f32⟩
  | .hbm, ⟨106, _⟩ => ⟨S65536x64, .f32⟩
  | .hbm, ⟨107, _⟩ => ⟨S_, .f32⟩
  | .hbm, ⟨108, _⟩ => ⟨S65536x64, .f32⟩
  | .hbm, ⟨109, _⟩ => ⟨S65536x64, .f32⟩
  | .hbm, ⟨110, _⟩ => ⟨S64x16, .f32⟩
  | .hbm, ⟨111, _⟩ => ⟨S65536x16, .f32⟩
  | .hbm, ⟨112, _⟩ => ⟨S1x16, .f32⟩
  | .hbm, ⟨113, _⟩ => ⟨S65536x16, .f32⟩
  | .hbm, ⟨114, _⟩ => ⟨S65536x16, .f32⟩
  | .hbm, ⟨115, _⟩ => ⟨S_, .f32⟩
  | .hbm, ⟨116, _⟩ => ⟨S65536x16, .f32⟩
  | .hbm, ⟨117, _⟩ => ⟨S65536x16, .f32⟩
  | .hbm, ⟨118, _⟩ => ⟨S16x1, .f32⟩
  | .hbm, ⟨119, _⟩ => ⟨S65536x1, .f32⟩
  | .hbm, ⟨120, _⟩ => ⟨S1x1, .f32⟩
  | .hbm, ⟨121, _⟩ => ⟨S65536x1, .f32⟩
  | .hbm, ⟨122, _⟩ => ⟨S65536x1, .f32⟩
  | .hbm, ⟨123, _⟩ => ⟨S65536, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v0 : Ref sig .tc := ⟨.hbm, 37, rfl⟩
abbrev main_c_0 : Ref sig .tc := ⟨.hbm, 38, rfl⟩
abbrev main_v1 : Ref sig .tc := ⟨.hbm, 39, rfl⟩
abbrev main_v2 : Ref sig .tc := ⟨.hbm, 40, rfl⟩
abbrev main_c_1 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_c_2 : Ref sig .tc := ⟨.hbm, 48, rfl⟩
abbrev main_v9 : Ref sig .tc := ⟨.hbm, 49, rfl⟩
abbrev main_v10 : Ref sig .tc := ⟨.hbm, 50, rfl⟩
abbrev main_c_3 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_c_4 : Ref sig .tc := ⟨.hbm, 57, rfl⟩
abbrev main_v16 : Ref sig .tc := ⟨.hbm, 58, rfl⟩
abbrev main_v17 : Ref sig .tc := ⟨.hbm, 59, rfl⟩
abbrev main_c_5 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst : Ref sig .tc := ⟨.hbm, 72, rfl⟩
abbrev main_v29 : Ref sig .tc := ⟨.hbm, 73, rfl⟩
abbrev main_cst_6 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_cst_8 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_9 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_call1_cst : Ref sig .tc := ⟨.hbm, 107, rfl⟩
abbrev main_call1_v0 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_call2_cst : Ref sig .tc := ⟨.hbm, 115, rfl⟩
abbrev main_call2_v0 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩

abbrev nD : Nat := 1
abbrev τ : Topo := Topo.v7x

variable {F : FTy → Type} [FloatOps F]

class Facts₀ : Prop where
  bcast_S_S65536x7x7 : S_.BroadcastsInDim S65536x7x7 (![] : Fin 0 → Fin S65536x7x7.rank)
  bcast_S65536x7x7_S65536x7x7x1_0_1_2 : S65536x7x7.BroadcastsInDim S65536x7x7x1 (![0, 1, 2] : Fin 3 → Fin S65536x7x7x1.rank)
  shapeCasts_S65536x7x7x8_S65536x392 : S65536x7x7x8.ShapeCasts S65536x392
  bcast_S_S65536 : S_.BroadcastsInDim S65536 (![] : Fin 0 → Fin S65536.rank)
  bcast_S65536_S65536x1_0 : S65536.BroadcastsInDim S65536x1 (![0] : Fin 1 → Fin S65536x1.rank)
  concatenates_S65536x32_S65536x16_S65536x392_S65536x440_d1 : Shape.Concatenates [S65536x32, S65536x16, S65536x392] S65536x440 1
  transposes_S256x440_S440x256_1_0 : S256x440.Transposes [1, 0] S440x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S256_d0 : S65536x256.ReducesTo [0] S256
  h_S_ : 0 < S_.numel
  bcast_S_S256 : S_.BroadcastsInDim S256 (![] : Fin 0 → Fin S256.rank)
  transposes_S64x256_S256x64_1_0 : S64x256.Transposes [1, 0] S256x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  transposes_S16x64_S64x16_1_0 : S16x64.Transposes [1, 0] S64x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S65536x16 : S_.BroadcastsInDim S65536x16 (![] : Fin 0 → Fin S65536x16.rank)
  transposes_S1x16_S16x1_1_0 : S1x16.Transposes [1, 0] S16x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  gather_S16777216x8_S65536x7x7x1_S65536x7x7x8_3_0_n_n_0_3_18_wf : GatherDims.WF S16777216x8 S65536x7x7x1 S65536x7x7x8 [3] [0] [] [0] [] 3 ![1, 8]
  gather_S4x32_S65536x1_S65536x32_1_0_n_n_0_1_132_wf : GatherDims.WF S4x32 S65536x1 S65536x32 [1] [0] [] [0] [] 1 ![1, 32]
  gather_S200x16_S65536x1_S65536x16_1_0_n_n_0_1_116_wf : GatherDims.WF S200x16 S65536x1 S65536x16 [1] [0] [] [0] [] 1 ![1, 16]
  dot_S65536x440_S440x256_S65536x256_1_0_0_1_n_n_wf : DotDims.WF S65536x440 S440x256 S65536x256 [1] [0] [0] [1] [] []
  dot_S65536x256_S256x64_S65536x64_1_0_0_1_n_n_wf : DotDims.WF S65536x256 S256x64 S65536x64 [1] [0] [0] [1] [] []
  dot_S65536x64_S64x16_S65536x16_1_0_0_1_n_n_wf : DotDims.WF S65536x64 S64x16 S65536x16 [1] [0] [0] [1] [] []
  dot_S65536x16_S16x1_S65536x1_1_0_0_1_n_n_wf : DotDims.WF S65536x16 S16x1 S65536x1 [1] [0] [0] [1] [] []

variable [Facts₀]

def gather_S16777216x8_S65536x7x7x1_S65536x7x7x8_3_0_n_n_0_3_18 : GatherDims S16777216x8 S65536x7x7x1 S65536x7x7x8 where
  offsetDims := [3]
  collapsedSliceDims := [0]
  operandBatchingDims := []
  startIndicesBatchingDims := []
  startIndexMap := [0]
  indexVectorDim := 3
  sliceSizes := ![1, 8]
  wf := gather_S16777216x8_S65536x7x7x1_S65536x7x7x8_3_0_n_n_0_3_18_wf
def gather_S4x32_S65536x1_S65536x32_1_0_n_n_0_1_132 : GatherDims S4x32 S65536x1 S65536x32 where
  offsetDims := [1]
  collapsedSliceDims := [0]
  operandBatchingDims := []
  startIndicesBatchingDims := []
  startIndexMap := [0]
  indexVectorDim := 1
  sliceSizes := ![1, 32]
  wf := gather_S4x32_S65536x1_S65536x32_1_0_n_n_0_1_132_wf
def gather_S200x16_S65536x1_S65536x16_1_0_n_n_0_1_116 : GatherDims S200x16 S65536x1 S65536x16 where
  offsetDims := [1]
  collapsedSliceDims := [0]
  operandBatchingDims := []
  startIndicesBatchingDims := []
  startIndexMap := [0]
  indexVectorDim := 1
  sliceSizes := ![1, 16]
  wf := gather_S200x16_S65536x1_S65536x16_1_0_n_n_0_1_116_wf
def dot_S65536x440_S440x256_S65536x256_1_0_0_1_n_n : DotDims S65536x440 S440x256 S65536x256 where
  lhsContracting := [1]
  rhsContracting := [0]
  lhsNonContracting := [0]
  rhsNonContracting := [1]
  lhsBatch := []
  rhsBatch := []
  wf := dot_S65536x440_S440x256_S65536x256_1_0_0_1_n_n_wf
def dot_S65536x256_S256x64_S65536x64_1_0_0_1_n_n : DotDims S65536x256 S256x64 S65536x64 where
  lhsContracting := [1]
  rhsContracting := [0]
  lhsNonContracting := [0]
  rhsNonContracting := [1]
  lhsBatch := []
  rhsBatch := []
  wf := dot_S65536x256_S256x64_S65536x64_1_0_0_1_n_n_wf
def dot_S65536x64_S64x16_S65536x16_1_0_0_1_n_n : DotDims S65536x64 S64x16 S65536x16 where
  lhsContracting := [1]
  rhsContracting := [0]
  lhsNonContracting := [0]
  rhsNonContracting := [1]
  lhsBatch := []
  rhsBatch := []
  wf := dot_S65536x64_S64x16_S65536x16_1_0_0_1_n_n_wf
def dot_S65536x16_S16x1_S65536x1_1_0_0_1_n_n : DotDims S65536x16 S16x1 S65536x1 where
  lhsContracting := [1]
  rhsContracting := [0]
  lhsNonContracting := [0]
  rhsNonContracting := [1]
  lhsBatch := []
  rhsBatch := []
  wf := dot_S65536x16_S16x1_S65536x1_1_0_0_1_n_n_wf

class Facts : Prop extends Facts₀ where

variable [Facts]
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.LibRealArr.lean ====
/-
  Arrays of extended reals every entry of which is a REAL number, and the closure of that property under the array
  operations of the two programs at the ideal reading: entrywise arithmetic, quotients by entrywise nonzero
  divisors, square roots of entrywise signed arguments, constants, re-indexings (every entry of the result is an
  entry of an operand), and the finite sums (reductions, matrix products, accumulating scatters). With the sign
  facts carried alongside (entrywise positive, nonnegative, nonzero), a whole computation on real inputs stays
  real, and its values can be moved into ℝ entry by entry.
-/
import Idealize.ShloMosaic.PureOps.Ideal
import Idealize.ShloMosaic.PureOps.Ideal.Laws
import Idealize.ShloMosaic.Lib.ValueIdx
import proofs.«162343_j80882824118683_1_alg».proof.Proof.LibERealArith

noncomputable section

namespace Cert.Val

open Idealize.ShloMosaic
open Cert.Lib.ERealArith
open scoped BigOperators

/-! ### Real scalars -/

/-- An extended real that is (the coercion of) a real number. -/
def IsReal (x : EReal) : Prop := ∃ r : ℝ, x = (r : EReal)

/-- An array of extended reals every entry of which is a real number. -/
def IsRealArr {S : Shape} (x : S.Idx → EReal) : Prop := ∀ i, ∃ r : ℝ, x i = (r : EReal)

/-- A coercion is real. -/
theorem isReal_coe (r : ℝ) : IsReal (r : EReal) := ⟨r, rfl⟩

/-- Zero is real. -/
theorem isReal_zero : IsReal 0 := ⟨0, zero_eq_coe⟩

/-- One is real. -/
theorem isReal_one : IsReal 1 := ⟨1, one_eq_coe⟩

/-- A real extended real is the coercion of its real part. -/
theorem IsReal.coe_toReal {x : EReal} (hx : IsReal x) : x = ((x.toReal : ℝ) : EReal) := by
  obtain ⟨r, rfl⟩ := hx
  rw [EReal.toReal_coe]

/-- The sum of two reals is real. -/
theorem IsReal.add {x y : EReal} (hx : IsReal x) (hy : IsReal y) : IsReal (x + y) := by
  obtain ⟨a, rfl⟩ := hx; obtain ⟨b, rfl⟩ := hy; exact ⟨a + b, add_coe a b⟩

/-- The difference of two reals is real. -/
theorem IsReal.sub {x y : EReal} (hx : IsReal x) (hy : IsReal y) : IsReal (x - y) := by
  obtain ⟨a, rfl⟩ := hx; obtain ⟨b, rfl⟩ := hy; exact ⟨a - b, sub_coe a b⟩

/-- The product of two reals is real. -/
theorem IsReal.mul {x y : EReal} (hx : IsReal x) (hy : IsReal y) : IsReal (x * y) := by
  obtain ⟨a, rfl⟩ := hx; obtain ⟨b, rfl⟩ := hy; exact ⟨a * b, mul_coe a b⟩

/-- The negative of a real is real. -/
theorem IsReal.neg {x : EReal} (hx : IsReal x) : IsReal (-x) := by
  obtain ⟨a, rfl⟩ := hx; exact ⟨-a, neg_coe a⟩

/-- The maximum of two reals is real. -/
theorem IsReal.max {x y : EReal} (hx : IsReal x) (hy : IsReal y) : IsReal (max x y) := by
  obtain ⟨a, rfl⟩ := hx; obtain ⟨b, rfl⟩ := hy; exact ⟨Max.max a b, max_coe a b⟩

/-- A finite sum of reals is real. -/
theorem IsReal.sum {ι : Type*} (s : Finset ι) (g : ι → EReal) (h : ∀ i ∈ s, IsReal (g i)) : IsReal (∑ i ∈ s, g i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The quotient of a real by a nonzero real is real. -/
theorem IsReal.div {x y : EReal} (hx : IsReal x) (hy : ∃ r : ℝ, y = (r : EReal) ∧ r ≠ 0) : IsReal (Ideal.div x y) := by
  obtain ⟨a, rfl⟩ := hx; obtain ⟨b, rfl, hb⟩ := hy; exact ⟨a / b, div_coe hb a⟩

/-- The reciprocal square root of a positive real is a positive real. -/
theorem rsqrt_pos_real {x : EReal} (hx : ∃ r : ℝ, x = (r : EReal) ∧ 0 < r) :
    ∃ r : ℝ, Ideal.rsqrt x = (r : EReal) ∧ 0 < r := by
  obtain ⟨a, rfl, ha⟩ := hx
  exact ⟨(Real.sqrt a)⁻¹, rsqrt_coe ha, inv_pos.mpr (sqrt_pos' ha)⟩

/-- The square root of a nonnegative real is a nonnegative real. -/
theorem sqrt_nonneg_real {x : EReal} (hx : ∃ r : ℝ, x = (r : EReal) ∧ 0 ≤ r) :
    ∃ r : ℝ, Ideal.sqrt x = (r : EReal) ∧ 0 ≤ r := by
  obtain ⟨a, rfl, ha⟩ := hx
  exact ⟨Real.sqrt a, sqrt_coe ha, Real.sqrt_nonneg a⟩

/-- A positive real is a nonzero real. -/
theorem ne_zero_of_pos_real {x : EReal} (hx : ∃ r : ℝ, x = (r : EReal) ∧ 0 < r) : ∃ r : ℝ, x = (r : EReal) ∧ r ≠ 0 := by
  obtain ⟨a, h, ha⟩ := hx; exact ⟨a, h, ha.ne'⟩

/-- A positive real is a nonnegative real. -/
theorem nonneg_of_pos_real {x : EReal} (hx : ∃ r : ℝ, x = (r : EReal) ∧ 0 < r) : ∃ r : ℝ, x = (r : EReal) ∧ 0 ≤ r := by
  obtain ⟨a, h, ha⟩ := hx; exact ⟨a, h, ha.le⟩

/-- A real with a sign condition is real. -/
theorem isReal_of_pos_real {x : EReal} (hx : ∃ r : ℝ, x = (r : EReal) ∧ 0 < r) : IsReal x := by
  obtain ⟨a, h, _⟩ := hx; exact ⟨a, h⟩

/-- A nonnegative real is real. -/
theorem isReal_of_nonneg_real {x : EReal} (hx : ∃ r : ℝ, x = (r : EReal) ∧ 0 ≤ r) : IsReal x := by
  obtain ⟨a, h, _⟩ := hx; exact ⟨a, h⟩

/-- A nonzero real is real. -/
theorem isReal_of_ne_zero_real {x : EReal} (hx : ∃ r : ℝ, x = (r : EReal) ∧ r ≠ 0) : IsReal x := by
  obtain ⟨a, h, _⟩ := hx; exact ⟨a, h⟩

/-- The maximum of a real and a positive real is a positive real. -/
theorem max_pos_real_right {x c : EReal} (hx : IsReal x) (hc : ∃ r : ℝ, c = (r : EReal) ∧ 0 < r) :
    ∃ r : ℝ, max x c = (r : EReal) ∧ 0 < r := by
  obtain ⟨a, rfl⟩ := hx; obtain ⟨e, rfl, he⟩ := hc
  exact ⟨Max.max a e, max_coe a e, lt_of_lt_of_le he (le_max_right a e)⟩

/-- The maximum of a real and zero is a nonnegative real. -/
theorem max_zero_nonneg_real {x : EReal} (hx : IsReal x) : ∃ r : ℝ, max x 0 = (r : EReal) ∧ 0 ≤ r := by
  obtain ⟨a, rfl⟩ := hx
  exact ⟨Max.max a 0, by rw [zero_eq_coe, max_coe], le_max_right a 0⟩

/-- The sum of a nonnegative real and a positive real is a positive real. -/
theorem add_pos_real {x e : EReal} (hx : ∃ r : ℝ, x = (r : EReal) ∧ 0 ≤ r) (he : ∃ r : ℝ, e = (r : EReal) ∧ 0 < r) :
    ∃ r : ℝ, x + e = (r : EReal) ∧ 0 < r := by
  obtain ⟨a, rfl, ha⟩ := hx; obtain ⟨b, rfl, hb⟩ := he
  exact ⟨a + b, add_coe a b, add_pos_of_nonneg_of_pos ha hb⟩

/-- The product of a real with itself is a nonnegative real. -/
theorem mul_self_nonneg_real {x : EReal} (hx : IsReal x) : ∃ r : ℝ, x * x = (r : EReal) ∧ 0 ≤ r := by
  obtain ⟨a, rfl⟩ := hx; exact ⟨a * a, mul_coe a a, mul_self_nonneg a⟩

/-- A finite sum of nonnegative reals is a nonnegative real. -/
theorem sum_nonneg_real {ι : Type*} (s : Finset ι) (g : ι → EReal) (h : ∀ i ∈ s, ∃ r : ℝ, g i = (r : EReal) ∧ 0 ≤ r) :
    ∃ r : ℝ, (∑ i ∈ s, g i) = (r : EReal) ∧ 0 ≤ r := by
  classical
  induction s using Finset.induction_on with
  | empty => exact ⟨0, by simp, le_refl 0⟩
  | insert a s ha ih =>
    rw [Finset.sum_insert ha]
    obtain ⟨p, hp, hp0⟩ := h a (Finset.mem_insert_self a s)
    obtain ⟨q, hq, hq0⟩ := ih fun i hi => h i (Finset.mem_insert_of_mem hi)
    exact ⟨p + q, by rw [hp, hq, add_coe], add_nonneg hp0 hq0⟩

/-! ### The literals -/

/-- The literal 0.0 is real. -/
theorem isReal_ofBits_zero : IsReal (Ideal.ofBits .f32 0x00000000#32) := ⟨0, ofBits_zero⟩
/-- The literal 1.0 is a positive real. -/
theorem ofBits_one_pos : ∃ r : ℝ, Ideal.ofBits .f32 0x3F800000#32 = (r : EReal) ∧ 0 < r := ⟨1, ofBits_one, one_pos⟩
/-- The literal 100000.0 is a positive real. -/
theorem ofBits_100000_pos : ∃ r : ℝ, Ideal.ofBits .f32 0x47C35000#32 = (r : EReal) ∧ 0 < r :=
  ⟨100000, ofBits_100000, by norm_num⟩
/-- The literal 2000.0 is a positive real. -/
theorem ofBits_2000_pos : ∃ r : ℝ, Ideal.ofBits .f32 0x44FA0000#32 = (r : EReal) ∧ 0 < r := ⟨2000, ofBits_2000, by norm_num⟩
/-- The literal 5000.0 is a positive real. -/
theorem ofBits_5000_pos : ∃ r : ℝ, Ideal.ofBits .f32 0x459C4000#32 = (r : EReal) ∧ 0 < r := ⟨5000, ofBits_5000, by norm_num⟩
/-- The literal 3000.0 is a positive real. -/
theorem ofBits_3000_pos : ∃ r : ℝ, Ideal.ofBits .f32 0x453B8000#32 = (r : EReal) ∧ 0 < r := ⟨3000, ofBits_3000, by norm_num⟩
/-- The literal 1e-5 is a positive real. -/
theorem ofBits_eps5_pos : ∃ r : ℝ, Ideal.ofBits .f32 0x3727C5AC#32 = (r : EReal) ∧ 0 < r := ⟨eps5, ofBits_eps5, eps5_pos⟩
/-- The literal 1e-12 is a positive real. -/
theorem ofBits_eps12_pos : ∃ r : ℝ, Ideal.ofBits .f32 0x2B8CBCCC#32 = (r : EReal) ∧ 0 < r := ⟨eps12, ofBits_eps12, eps12_pos⟩

/-! ### Arrays: entrywise facts -/

section Arrays
variable {s t : Shape} {φ : FTy}

/-- A real array is entrywise the coercion of its real parts. -/
theorem IsRealArr.coe_toReal {x : s.Idx → EReal} (hx : IsRealArr x) (i : s.Idx) : x i = (((x i).toReal : ℝ) : EReal) :=
  IsReal.coe_toReal (hx i)

/-- The array of coercions of a real array is real. -/
theorem isRealArr_coe (f : s.Idx → ℝ) : IsRealArr (fun i => ((f i : ℝ) : EReal)) := fun i => ⟨f i, rfl⟩

/-- An array equal entrywise to coercions is real. -/
theorem isRealArr_of_eq {x : s.Idx → EReal} (f : s.Idx → ℝ) (h : ∀ i, x i = ((f i : ℝ) : EReal)) : IsRealArr x :=
  fun i => ⟨f i, h i⟩

/-- Entrywise positive reals are real. -/
theorem isRealArr_of_pos {x : s.Idx → EReal} (h : ∀ i, ∃ r : ℝ, x i = (r : EReal) ∧ 0 < r) : IsRealArr x :=
  fun i => isReal_of_pos_real (h i)

/-- Entrywise nonnegative reals are real. -/
theorem isRealArr_of_nonneg {x : s.Idx → EReal} (h : ∀ i, ∃ r : ℝ, x i = (r : EReal) ∧ 0 ≤ r) : IsRealArr x :=
  fun i => isReal_of_nonneg_real (h i)

/-- Entrywise positive reals are entrywise nonzero reals. -/
theorem ne_zero_of_pos_arr {x : s.Idx → EReal} (h : ∀ i, ∃ r : ℝ, x i = (r : EReal) ∧ 0 < r) :
    ∀ i, ∃ r : ℝ, x i = (r : EReal) ∧ r ≠ 0 := fun i => ne_zero_of_pos_real (h i)

/-! ### Entrywise arithmetic -/

/-- `addf` of real arrays is real. -/
theorem isRealArr_addf {x y : FVec Ideal s φ} (hx : IsRealArr x) (hy : IsRealArr y) : IsRealArr (addf x y) :=
  fun i => IsReal.add (hx i) (hy i)

/-- `subf` of real arrays is real. -/
theorem isRealArr_subf {x y : FVec Ideal s φ} (hx : IsRealArr x) (hy : IsRealArr y) : IsRealArr (subf x y) :=
  fun i => IsReal.sub (hx i) (hy i)

/-- `mulf` of real arrays is real. -/
theorem isRealArr_mulf {x y : FVec Ideal s φ} (hx : IsRealArr x) (hy : IsRealArr y) : IsRealArr (mulf x y) :=
  fun i => IsReal.mul (hx i) (hy i)

/-- `mulf` of a real array with itself (a square) is entrywise a nonnegative real. -/
theorem mulf_self_nonneg {x : FVec Ideal s φ} (hx : IsRealArr x) : ∀ i, ∃ r : ℝ, mulf x x i = (r : EReal) ∧ 0 ≤ r :=
  fun i => mul_self_nonneg_real (hx i)

/-- `maximumf` of real arrays is real. -/
theorem isRealArr_maximumf {x y : FVec Ideal s φ} (hx : IsRealArr x) (hy : IsRealArr y) : IsRealArr (maximumf x y) :=
  fun i => IsReal.max (hx i) (hy i)

/-- `maximumf` of a real array against an entrywise positive real array is entrywise a positive real. -/
theorem maximumf_pos_right {x c : FVec Ideal s φ} (hx : IsRealArr x) (hc : ∀ i, ∃ r : ℝ, c i = (r : EReal) ∧ 0 < r) :
    ∀ i, ∃ r : ℝ, maximumf x c i = (r : EReal) ∧ 0 < r := fun i => max_pos_real_right (hx i) (hc i)

/-- The kernel's `divf` of a real array by an entrywise nonzero real array is real. -/
theorem isRealArr_divf {x y : FVec Ideal s φ} (hx : IsRealArr x) (hy : ∀ i, ∃ r : ℝ, y i = (r : EReal) ∧ r ≠ 0) :
    IsRealArr (divf x y) := fun i => IsReal.div (hx i) (hy i)

/-- The host's quotient of a real array by an entrywise nonzero real array is real. -/
theorem isRealArr_hostDivf {x y : FVec Ideal s φ} (hx : IsRealArr x) (hy : ∀ i, ∃ r : ℝ, y i = (r : EReal) ∧ r ≠ 0) :
    IsRealArr (Host.divf x y) := fun i => IsReal.div (hx i) (hy i)

/-- The kernel's `divf` by the maximum of a real array with an entrywise positive real array is real. -/
theorem isRealArr_divf_max {x y c : FVec Ideal s φ} (hx : IsRealArr x) (hy : IsRealArr y)
    (hc : ∀ i, ∃ r : ℝ, c i = (r : EReal) ∧ 0 < r) : IsRealArr (divf x (maximumf y c)) :=
  isRealArr_divf hx (ne_zero_of_pos_arr (maximumf_pos_right hy hc))

/-- The host's quotient by the maximum of a real array with an entrywise positive real array is real. -/
theorem isRealArr_hostDivf_max {x y c : FVec Ideal s φ} (hx : IsRealArr x) (hy : IsRealArr y)
    (hc : ∀ i, ∃ r : ℝ, c i = (r : EReal) ∧ 0 < r) : IsRealArr (Host.divf x (maximumf y c)) :=
  isRealArr_hostDivf hx (ne_zero_of_pos_arr (maximumf_pos_right hy hc))

/-- The kernel's reciprocal square root of an entrywise positive real array is entrywise a positive real. -/
theorem rsqrt_pos_arr {x : FVec Ideal s φ} (hx : ∀ i, ∃ r : ℝ, x i = (r : EReal) ∧ 0 < r) :
    ∀ i, ∃ r : ℝ, rsqrt x i = (r : EReal) ∧ 0 < r := fun i => rsqrt_pos_real (hx i)

/-- The kernel's reciprocal square root of an entrywise positive real array is real. -/
theorem isRealArr_rsqrt {x : FVec Ideal s φ} (hx : ∀ i, ∃ r : ℝ, x i = (r : EReal) ∧ 0 < r) : IsRealArr (rsqrt x) :=
  isRealArr_of_pos (rsqrt_pos_arr hx)

/-- The host's reciprocal square root of an entrywise positive real array is entrywise a positive real. -/
theorem hostRsqrt_pos_arr {x : FVec Ideal s φ} (hx : ∀ i, ∃ r : ℝ, x i = (r : EReal) ∧ 0 < r) :
    ∀ i, ∃ r : ℝ, Host.rsqrt x i = (r : EReal) ∧ 0 < r := fun i => rsqrt_pos_real (hx i)

/-- The host's reciprocal square root of an entrywise positive real array is real. -/
theorem isRealArr_hostRsqrt {x : FVec Ideal s φ} (hx : ∀ i, ∃ r : ℝ, x i = (r : EReal) ∧ 0 < r) : IsRealArr (Host.rsqrt x) :=
  isRealArr_of_pos (hostRsqrt_pos_arr hx)

/-- The kernel's square root of an entrywise nonnegative real array is entrywise a nonnegative real. -/
theorem sqrt_nonneg_arr {x : FVec Ideal s φ} (hx : ∀ i, ∃ r : ℝ, x i = (r : EReal) ∧ 0 ≤ r) :
    ∀ i, ∃ r : ℝ, sqrt x i = (r : EReal) ∧ 0 ≤ r := fun i => sqrt_nonneg_real (hx i)

/-- The kernel's square root of an entrywise nonnegative real array is real. -/
theorem isRealArr_sqrt {x : FVec Ideal s φ} (hx : ∀ i, ∃ r : ℝ, x i = (r : EReal) ∧ 0 ≤ r) : IsRealArr (sqrt x) :=
  isRealArr_of_nonneg (sqrt_nonneg_arr hx)

/-- The host's square root of an entrywise nonnegative real array is entrywise a nonnegative real. -/
theorem hostSqrt_nonneg_arr {x : FVec Ideal s φ} (hx : ∀ i, ∃ r : ℝ, x i = (r : EReal) ∧ 0 ≤ r) :
    ∀ i, ∃ r : ℝ, Host.sqrt x i = (r : EReal) ∧ 0 ≤ r := fun i => sqrt_nonneg_real (hx i)

/-- The host's square root of an entrywise nonnegative real array is real. -/
theorem isRealArr_hostSqrt {x : FVec Ideal s φ} (hx : ∀ i, ∃ r : ℝ, x i = (r : EReal) ∧ 0 ≤ r) : IsRealArr (Host.sqrt x) :=
  isRealArr_of_nonneg (hostSqrt_nonneg_arr hx)

/-- A change of format is the identity: `truncf` of a real array is real. -/
theorem isRealArr_truncf {ψ : FTy} {a : FVec Ideal s φ} (h : ψ.bits < φ.bits) (ha : IsRealArr a) :
    IsRealArr (truncf ψ a h : FVec Ideal s ψ) := fun i => ha i

/-- A change of format is the identity: `extf` of a real array is real. -/
theorem isRealArr_extf {ψ : FTy} {a : FVec Ideal s φ} (h : φ.bits < ψ.bits) (ha : IsRealArr a) :
    IsRealArr (extf ψ a h : FVec Ideal s ψ) := fun i => ha i

/-- A signed integer array read as floats is real. -/
theorem isRealArr_sitofp {w : Nat} (x : IVec s w) : IsRealArr (sitofp (F := Ideal) φ x) :=
  fun i => ⟨((x i).toInt : ℝ), rfl⟩

/-- Where every condition bit is set, `select` is its first branch. -/
theorem select_of_one {α : Type} {c : IVec s 1} (a b : s.Idx → α) (hc : ∀ i, c i = 1#1) : select c a b = a := by
  funext i
  show Scalar.select (c i) (a i) (b i) = a i
  rw [hc i]; exact if_pos rfl

/-- `select` between two real arrays is real. -/
theorem isRealArr_select {c : IVec s 1} {a b : s.Idx → EReal} (ha : IsRealArr a) (hb : IsRealArr b) :
    IsRealArr (select c a b) := by
  intro i
  show ∃ r : ℝ, Scalar.select (c i) (a i) (b i) = (r : EReal)
  unfold Scalar.select
  split
  · exact ha i
  · exact hb i

/-- "Greater than" between entries that are reals in that order sets the bit. -/
theorem cmpf_ogt_one {a b : FVec Ideal s φ} {ra rb : ℝ} (i : s.Idx) (ha : a i = (ra : EReal)) (hb : b i = (rb : EReal))
    (h : rb < ra) : cmpf .ogt a b i = 1#1 := by
  show Ideal.cmp .ogt (a i) (b i) = 1#1
  rw [ha, hb]; exact cmp_ogt_coe_of_lt h

/-! ### Constants and broadcasts -/

/-- A broadcast scalar that is real is a real array. -/
theorem isRealArr_broadcast {x : EReal} (hx : IsReal x) : IsRealArr (broadcast t x) := fun _ => hx

/-- A broadcast positive real is entrywise a positive real. -/
theorem broadcast_pos {x : EReal} (hx : ∃ r : ℝ, x = (r : EReal) ∧ 0 < r) :
    ∀ i, ∃ r : ℝ, broadcast t x i = (r : EReal) ∧ 0 < r := fun _ => hx

/-- The constant array of 0.0 is real. -/
theorem isRealArr_constant_zero : IsRealArr (constant (F := Ideal) s .f32 0x00000000#32) := fun _ => isReal_ofBits_zero

/-- The constant array of 0.0 is entrywise the real zero. -/
theorem constant_zero_apply (i : s.Idx) : constant (F := Ideal) s .f32 0x00000000#32 i = ((0 : ℝ) : EReal) := ofBits_zero

/-- The constant array of 1.0 is entrywise a positive real. -/
theorem constant_one_pos : ∀ i, ∃ r : ℝ, constant (F := Ideal) s .f32 0x3F800000#32 i = (r : EReal) ∧ 0 < r :=
  fun _ => ofBits_one_pos

/-- The constant array of 100000.0 is entrywise a positive real. -/
theorem constant_100000_pos : ∀ i, ∃ r : ℝ, constant (F := Ideal) s .f32 0x47C35000#32 i = (r : EReal) ∧ 0 < r :=
  fun _ => ofBits_100000_pos

/-- The constant array of 2000.0 is entrywise a positive real. -/
theorem constant_2000_pos : ∀ i, ∃ r : ℝ, constant (F := Ideal) s .f32 0x44FA0000#32 i = (r : EReal) ∧ 0 < r :=
  fun _ => ofBits_2000_pos

/-- The constant array of 5000.0 is entrywise a positive real. -/
theorem constant_5000_pos : ∀ i, ∃ r : ℝ, constant (F := Ideal) s .f32 0x459C4000#32 i = (r : EReal) ∧ 0 < r :=
  fun _ => ofBits_5000_pos

/-- The constant array of 3000.0 is entrywise a positive real. -/
theorem constant_3000_pos : ∀ i, ∃ r : ℝ, constant (F := Ideal) s .f32 0x453B8000#32 i = (r : EReal) ∧ 0 < r :=
  fun _ => ofBits_3000_pos

/-- The constant array of 1e-5 is entrywise a positive real. -/
theorem constant_eps5_pos : ∀ i, ∃ r : ℝ, constant (F := Ideal) s .f32 0x3727C5AC#32 i = (r : EReal) ∧ 0 < r :=
  fun _ => ofBits_eps5_pos

/-- The constant array of 1e-12 is entrywise a positive real. -/
theorem constant_eps12_pos : ∀ i, ∃ r : ℝ, constant (F := Ideal) s .f32 0x2B8CBCCC#32 i = (r : EReal) ∧ 0 < r :=
  fun _ => ofBits_eps12_pos

/-- A constant array of a positive real literal is real. -/
theorem isRealArr_constant_of_pos {b : BitVec (FTy.f32).bits} (h : ∃ r : ℝ, Ideal.ofBits .f32 b = (r : EReal) ∧ 0 < r) :
    IsRealArr (constant (F := Ideal) s .f32 b) := fun _ => isReal_of_pos_real h

/-! ### Re-indexings: every entry of the result is an entry of an operand -/

/-- Reading a real array through any map of indices gives a real array. -/
theorem isRealArr_comp {x : s.Idx → EReal} (hx : IsRealArr x) (f : t.Idx → s.Idx) : IsRealArr (fun j => x (f j)) :=
  fun j => hx (f j)

/-- `broadcastInDim` of a real array is real. -/
theorem isRealArr_broadcastInDim {x : s.Idx → EReal} (dims : Fin s.rank → Fin t.rank) (h : s.BroadcastsInDim t dims)
    (hx : IsRealArr x) : IsRealArr (broadcastInDim t dims h x) := fun _ => hx _

/-- `broadcastInDim` of an entrywise positive real array is entrywise a positive real. -/
theorem broadcastInDim_pos {x : s.Idx → EReal} (dims : Fin s.rank → Fin t.rank) (h : s.BroadcastsInDim t dims)
    (hx : ∀ i, ∃ r : ℝ, x i = (r : EReal) ∧ 0 < r) : ∀ j, ∃ r : ℝ, broadcastInDim t dims h x j = (r : EReal) ∧ 0 < r :=
  fun _ => hx _

/-- `broadcastInDim` of an entrywise nonzero real array is entrywise a nonzero real. -/
theorem broadcastInDim_ne_zero {x : s.Idx → EReal} (dims : Fin s.rank → Fin t.rank) (h : s.BroadcastsInDim t dims)
    (hx : ∀ i, ∃ r : ℝ, x i = (r : EReal) ∧ r ≠ 0) : ∀ j, ∃ r : ℝ, broadcastInDim t dims h x j = (r : EReal) ∧ r ≠ 0 :=
  fun _ => hx _

/-- `broadcastTo` of a real array is real. -/
theorem isRealArr_broadcastTo {x : s.Idx → EReal} (h : s.Broadcasts t) (hx : IsRealArr x) : IsRealArr (broadcastTo t x h) :=
  fun _ => hx _

/-- `shapeCast` of a real array is real. -/
theorem isRealArr_shapeCast {x : s.Idx → EReal} (h : s.ShapeCasts t) (hx : IsRealArr x) : IsRealArr (shapeCast t x h) :=
  fun _ => hx _

/-- `extractStridedSlice` of a real array is real. -/
theorem isRealArr_extractStridedSlice {x : s.Idx → EReal} (off : Fin s.rank → Nat) (h : s.Slices off t) (hx : IsRealArr x) :
    IsRealArr (extractStridedSlice t off x h) := fun _ => hx _

/-- `transpose` of a real array is real. -/
theorem isRealArr_transpose {x : s.Idx → EReal} (perm : List (Fin s.rank)) (h : s.Transposes perm t) (hx : IsRealArr x) :
    IsRealArr (transpose t perm x h) := fun _ => hx _

/-- A gather from a real array is real: each result entry is an operand entry. -/
theorem isRealArr_gather {si : Shape} {w : Nat} (d : GatherDims s si t) {x : s.Idx → EReal} (idx : IVec si w) (hx : IsRealArr x) :
    IsRealArr (Host.gather d x idx) := fun _ => hx _

/-- A concatenation of real arrays is real. -/
theorem isRealArr_concatenate (a : Fin t.rank) (xs : List ((s : Shape) × (s.Idx → EReal)))
    (hc : Shape.Concatenates (xs.map (·.1)) t a) (h : ∀ p ∈ xs, IsRealArr p.2) : IsRealArr (concatenate t a xs hc) := by
  intro j
  unfold concatenate
  exact h _ (List.getElem_mem _) _

/-! ### Sums -/

/-- The host's sum of a real array from a real initial value is real. -/
theorem isRealArr_hostReduceAdd {axes : List (Fin s.rank)} {u : Shape} {x : FVec Ideal s φ} {init : u.Idx → Ideal φ}
    (h : s.ReducesTo axes t) (hu : 0 < u.numel) (hx : IsRealArr x) (hi : IsRealArr init) :
    IsRealArr (Host.reduceAdd x init h hu) := by
  intro j
  show IsReal (Ideal.hostReduceAdd h x (init (Shape.Idx.first hu)) j)
  unfold Ideal.hostReduceAdd
  exact IsReal.add (hi _) (IsReal.sum _ _ fun i _ => hx i)

/-- The host's sum of an entrywise nonnegative real array from a nonnegative real initial value is entrywise a nonnegative
    real. -/
theorem hostReduceAdd_nonneg {axes : List (Fin s.rank)} {u : Shape} {x : FVec Ideal s φ} {init : u.Idx → Ideal φ}
    (h : s.ReducesTo axes t) (hu : 0 < u.numel) (hx : ∀ i, ∃ r : ℝ, x i = (r : EReal) ∧ 0 ≤ r)
    (hi : ∀ i, ∃ r : ℝ, init i = (r : EReal) ∧ 0 ≤ r) :
    ∀ j, ∃ r : ℝ, Host.reduceAdd x init h hu j = (r : EReal) ∧ 0 ≤ r := by
  intro j
  show ∃ r : ℝ, Ideal.hostReduceAdd h x (init (Shape.Idx.first hu)) j = (r : EReal) ∧ 0 ≤ r
  unfold Ideal.hostReduceAdd
  obtain ⟨p, hp, hp0⟩ := hi (Shape.Idx.first hu)
  obtain ⟨q, hq, hq0⟩ := sum_nonneg_real (Finset.univ.filter (fun i => h.drop i = j)) x fun i _ => hx i
  exact ⟨p + q, by rw [hp, hq, add_coe], add_nonneg hp0 hq0⟩

/-- The kernel's sum (`vector.multi_reduction <add>`) of a real array is real. -/
theorem isRealArr_multiReduction_add {axes : List (Fin s.rank)} {src : FVec Ideal s φ} (acc : BitVec φ.bits)
    (h : s.Reduces axes t) (hφ : FKind.Formats φ) (hacc : acc = FKind.add.neutral φ hφ) (hx : IsRealArr src) :
    IsRealArr (multiReduction .add axes t src acc h hφ hacc) := by
  intro j
  show IsReal (Ideal.reduceAdd h src j)
  unfold Ideal.reduceAdd
  exact IsReal.sum _ _ fun i _ => hx i

/-- The kernel's matrix product of real operands onto a real accumulator is real. -/
theorem isRealArr_matmul {sl sr so : Shape} {φ₁ φ₂ : FTy} (d : DotDims sl sr so) (prec : Option ContractPrecision)
    {lhs : FVec Ideal sl φ₁} {rhs : FVec Ideal sr φ₂} {acc : FVec Ideal so .f32}
    (hl : IsRealArr lhs) (hr : IsRealArr rhs) (ha : IsRealArr acc) : IsRealArr (matmul d prec lhs rhs acc) := by
  intro j
  show IsReal (Ideal.matmul d lhs rhs acc j)
  unfold Ideal.matmul
  exact IsReal.add (ha j) (IsReal.sum _ _ fun k _ => IsReal.mul (hl _) (hr _))

/-- The host's matrix product of real operands is real. -/
theorem isRealArr_dotGeneral {sl sr so : Shape} {φ₁ φ₂ : FTy} (d : DotDims sl sr so) (prec : Option ContractPrecision)
    {lhs : FVec Ideal sl φ₁} {rhs : FVec Ideal sr φ₂} (hl : IsRealArr lhs) (hr : IsRealArr rhs) :
    IsRealArr (Host.dotGeneral d prec lhs rhs) := by
  intro j
  show IsReal (Ideal.matmul d lhs rhs (fun _ => 0) j)
  unfold Ideal.matmul
  exact IsReal.add isReal_zero (IsReal.sum _ _ fun k _ => IsReal.mul (hl _) (hr _))

/-- The host's accumulating scatter of real updates into a real operand is real. -/
theorem isRealArr_scatterAdd {si u : Shape} {w : Nat} (d : ScatterDims s si u) {x : FVec Ideal s φ} (idx : IVec si w)
    {upd : FVec Ideal u φ} (hx : IsRealArr x) (hu : IsRealArr upd) : IsRealArr (Host.scatterAdd d x idx upd) := by
  intro i
  show IsReal (Ideal.hostScatterAdd d x idx upd i)
  unfold Ideal.hostScatterAdd
  exact IsReal.add (hx i) (IsReal.sum _ _ fun j _ => hu j)

/-- The host's accumulating scatter of entrywise nonnegative real updates into an entrywise nonnegative real operand is
    entrywise a nonnegative real (a count of ones, for one). -/
theorem scatterAdd_nonneg {si u : Shape} {w : Nat} (d : ScatterDims s si u) {x : FVec Ideal s φ} (idx : IVec si w)
    {upd : FVec Ideal u φ} (hx : ∀ i, ∃ r : ℝ, x i = (r : EReal) ∧ 0 ≤ r) (hu : ∀ i, ∃ r : ℝ, upd i = (r : EReal) ∧ 0 ≤ r) :
    ∀ i, ∃ r : ℝ, Host.scatterAdd d x idx upd i = (r : EReal) ∧ 0 ≤ r := by
  intro i
  show ∃ r : ℝ, Ideal.hostScatterAdd d x idx upd i = (r : EReal) ∧ 0 ≤ r
  unfold Ideal.hostScatterAdd
  obtain ⟨p, hp, hp0⟩ := hx i
  obtain ⟨q, hq, hq0⟩ := sum_nonneg_real (Finset.univ.filter (fun j => d.resultIdx? j idx = some i)) upd fun j _ => hu j
  exact ⟨p + q, by rw [hp, hq, add_coe], add_nonneg hp0 hq0⟩

end Arrays

end Cert.Val

end
-- ==== Proof.Spec.lean ====
/-
  The mathematics both programs compute, over the extended reals, one row of the batch at a time.

  A row's 440 features are three gathered pieces side by side (32 + 16 + 392).  The first layer is an affine map
  440 -> 256; its 256 outputs are normalised over the whole batch of 65536 rows (batch mean, batch variance,
  reciprocal root, per-column scale and shift); three more affine layers 256 -> 64 -> 16 -> 1 follow, the first two
  clipped below at zero.  The two programs differ in ONE place: one takes the batch variance as the mean of squares
  minus the square of the mean (`varK`), the other as the mean of squared deviations (`varR`).  Over real entries
  the two are one number (`varK_eq_varR`); over infinite entries they need not be, which is where finiteness of the
  inputs is used.
-/
import proofs.«162343_j80882824118683_1_alg».proof.Proof.LibERealArith
import proofs.«162343_j80882824118683_1_alg».proof.Proof.LibRealArr
import Idealize.ShloMosaic.PureOps.Ideal
import Mathlib.Algebra.BigOperators.Fin

noncomputable section

open scoped BigOperators

namespace Cert.Spec

open Idealize.ShloMosaic Cert.Val

/-- The batch size as the float the programs divide by. -/
def cN : EReal := Ideal.ofBits .f32 0x47800000#32
/-- The offset under the reciprocal root. -/
def eps : EReal := Ideal.ofBits .f32 0x3727C5AC#32
/-- The clip level of the two middle layers. -/
def z0 : EReal := Ideal.ofBits .f32 0x00000000#32

/-- Three pieces of widths 32, 16 and 392 side by side: column `k` of row `r`. -/
def feat {n : ℕ} (s : Fin n → Fin 32 → EReal) (c : Fin n → Fin 16 → EReal) (x : Fin n → Fin 392 → EReal)
    (r : Fin n) (k : Fin 440) : EReal :=
  if h : k.val < 32 then s r ⟨k.val, h⟩
  else if h' : k.val < 48 then c r ⟨k.val - 32, by omega⟩
  else x r ⟨k.val - 48, by omega⟩

/-- The first layer on one row: `f · W1ᵀ + b1` at output column `j`. -/
def lin1Row (f : Fin 440 → EReal) (W1 : Fin 256 → Fin 440 → EReal) (b1 : Fin 256 → EReal) (j : Fin 256) : EReal :=
  (∑ k, f k * W1 j k) + b1 j

/-- The first layer on every row. -/
def lin1 {n : ℕ} (f : Fin n → Fin 440 → EReal) (W1 : Fin 256 → Fin 440 → EReal) (b1 : Fin 256 → EReal)
    (r : Fin n) (j : Fin 256) : EReal := lin1Row (f r) W1 b1 j

/-- The batch mean of column `j`. -/
def mean (h : Fin 65536 → Fin 256 → EReal) (j : Fin 256) : EReal := Ideal.div (∑ r, h r j) cN
/-- The batch variance as mean of squares minus squared mean. -/
def varK (h : Fin 65536 → Fin 256 → EReal) (j : Fin 256) : EReal :=
  Ideal.div (∑ r, h r j * h r j) cN - mean h j * mean h j
/-- The batch variance as mean of squared deviations. -/
def varR (h : Fin 65536 → Fin 256 → EReal) (j : Fin 256) : EReal :=
  Ideal.div (∑ r, (h r j - mean h j) * (h r j - mean h j)) cN

/-- Everything after the batch statistics, on one row `h` of the first layer's output: normalise, scale and shift,
    then 256 -> 64 (clipped) -> 16 (clipped) -> 1.  The weights are in their stored orientation `[out, in]`. -/
def tailRow (h mu var gamma beta : Fin 256 → EReal) (W2 : Fin 64 → Fin 256 → EReal) (b2 : Fin 64 → EReal)
    (W3 : Fin 16 → Fin 64 → EReal) (b3 : Fin 16 → EReal) (W4 : Fin 16 → EReal) (b4 : EReal) : EReal :=
  let a1 : Fin 256 → EReal := fun j => (h j - mu j) * Ideal.rsqrt (var j + eps) * gamma j + beta j
  let a2 : Fin 64 → EReal := fun q => max ((∑ j, a1 j * W2 q j) + b2 q) z0
  let a3 : Fin 16 → EReal := fun q => max ((∑ j, a2 j * W3 q j) + b3 q) z0
  (∑ j, a3 j * W4 j) + b4

/-- The result at row `r`, the variance taken as mean of squares minus squared mean. -/
def outK (f : Fin 65536 → Fin 440 → EReal) (W1 : Fin 256 → Fin 440 → EReal) (b1 gamma beta : Fin 256 → EReal)
    (W2 : Fin 64 → Fin 256 → EReal) (b2 : Fin 64 → EReal) (W3 : Fin 16 → Fin 64 → EReal) (b3 : Fin 16 → EReal)
    (W4 : Fin 16 → EReal) (b4 : EReal) (r : Fin 65536) : EReal :=
  tailRow (lin1 f W1 b1 r) (mean (lin1 f W1 b1)) (varK (lin1 f W1 b1)) gamma beta W2 b2 W3 b3 W4 b4

/-- The result at row `r`, the variance taken as mean of squared deviations. -/
def outR (f : Fin 65536 → Fin 440 → EReal) (W1 : Fin 256 → Fin 440 → EReal) (b1 gamma beta : Fin 256 → EReal)
    (W2 : Fin 64 → Fin 256 → EReal) (b2 : Fin 64 → EReal) (W3 : Fin 16 → Fin 64 → EReal) (b3 : Fin 16 → EReal)
    (W4 : Fin 16 → EReal) (b4 : EReal) (r : Fin 65536) : EReal :=
  tailRow (lin1 f W1 b1 r) (mean (lin1 f W1 b1)) (varR (lin1 f W1 b1)) gamma beta W2 b2 W3 b3 W4 b4

/-- The batch size is the real number `65536 = 2¹⁶` (sign 0, biased exponent 143, fraction 0). -/
theorem cN_eq : cN = ((65536 : ℝ) : EReal) := by
  unfold cN
  simp [Ideal.ofBits, Ideal.ieee, -EReal.coe_mul]; norm_num

/-- The sum of squared deviations from any level `m`, expanded: `Σ (a - m)² = Σ a² - 2 m Σ a + N m²`, the last
    term because the constant `m²` is summed over all `N = 65536` rows. -/
theorem sum_sq_dev (a : Fin 65536 → ℝ) (m : ℝ) :
    (∑ r, (a r - m) * (a r - m)) = (∑ r, a r * a r) - 2 * m * (∑ r, a r) + 65536 * (m * m) := by
  have h1 : ∀ r, (a r - m) * (a r - m) = a r * a r - 2 * m * a r + m * m := fun r => by ring
  rw [Finset.sum_congr rfl (fun r _ => h1 r), Finset.sum_add_distrib, Finset.sum_sub_distrib, ← Finset.mul_sum,
    Finset.sum_const, Finset.card_univ, Fintype.card_fin, nsmul_eq_mul, Nat.cast_ofNat]

/-- The same identity with the two sums named (`Q = Σ a²`, `S = Σ a`) and the level the mean `S / N`:
    `Q/N - (S/N)² = (Q - 2 (S/N) S + N (S/N)²) / N`, since `-2 S²/N + S²/N = -S²/N`. -/
theorem var_algebra (Q S : ℝ) :
    Q / 65536 - S / 65536 * (S / 65536) = (Q - 2 * (S / 65536) * S + 65536 * (S / 65536 * (S / 65536))) / 65536 := by
  field_simp
  ring

/-- Over the reals: the mean of squares minus the squared mean is the mean of squared deviations from the mean. -/
theorem real_var (a : Fin 65536 → ℝ) :
    (∑ r, a r * a r) / 65536 - (∑ r, a r) / 65536 * ((∑ r, a r) / 65536)
      = (∑ r, (a r - (∑ r, a r) / 65536) * (a r - (∑ r, a r) / 65536)) / 65536 := by
  rw [sum_sq_dev a ((∑ r, a r) / 65536)]
  exact var_algebra _ _

/-- Over real entries the two variances are one number: `E[h²] - E[h]² = E[(h - E h)²]`. -/
theorem varK_eq_varR (h : Fin 65536 → Fin 256 → EReal) (hreal : ∀ r j, IsReal (h r j)) : varK h = varR h := by
  funext j
  -- Column `j` is the coercion of a real column `a`.
  obtain ⟨a, ha⟩ : ∃ a : Fin 65536 → ℝ, ∀ r, h r j = ((a r : ℝ) : EReal) :=
    ⟨fun r => (h r j).toReal, fun r => (hreal r j).coe_toReal⟩
  have hN : (65536 : ℝ) ≠ 0 := by norm_num
  unfold varK varR mean
  -- Every sum, product, difference and quotient of coerced reals is the coercion of the real one, so both sides
  -- are coercions of real numbers, and those are equal by the real identity.
  simp only [ha, cN_eq, Cert.Lib.ERealArith.mul_coe, Cert.Lib.ERealArith.univ_sum_coe,
    Cert.Lib.ERealArith.div_coe hN, Cert.Lib.ERealArith.sub_coe]
  exact congrArg _ (real_var a)

/-- A first-layer output over real features, weights and bias is real. -/
theorem lin1_real {n : ℕ} (f : Fin n → Fin 440 → EReal) (W1 : Fin 256 → Fin 440 → EReal) (b1 : Fin 256 → EReal)
    (hf : ∀ r k, IsReal (f r k)) (hW : ∀ j k, IsReal (W1 j k)) (hb : ∀ j, IsReal (b1 j)) (r : Fin n) (j : Fin 256) :
    IsReal (lin1 f W1 b1 r j) := by
  unfold lin1 lin1Row
  exact IsReal.add (IsReal.sum _ _ fun k _ => IsReal.mul (hf r k) (hW j k)) (hb j)

/-- So over real features, first-layer weights and bias the two results agree. -/
theorem outK_eq_outR (f : Fin 65536 → Fin 440 → EReal) (W1 : Fin 256 → Fin 440 → EReal) (b1 gamma beta : Fin 256 → EReal)
    (W2 : Fin 64 → Fin 256 → EReal) (b2 : Fin 64 → EReal) (W3 : Fin 16 → Fin 64 → EReal) (b3 : Fin 16 → EReal)
    (W4 : Fin 16 → EReal) (b4 : EReal)
    (hf : ∀ r k, IsReal (f r k)) (hW : ∀ j k, IsReal (W1 j k)) (hb : ∀ j, IsReal (b1 j)) (r : Fin 65536) :
    outK f W1 b1 gamma beta W2 b2 W3 b3 W4 b4 r = outR f W1 b1 gamma beta W2 b2 W3 b3 W4 b4 r := by
  unfold outK outR
  rw [varK_eq_varR _ (fun r j => lin1_real f W1 b1 hf hW hb r j)]

/-- A feature row over real pieces is real. -/
theorem feat_real {n : ℕ} (s : Fin n → Fin 32 → EReal) (c : Fin n → Fin 16 → EReal) (x : Fin n → Fin 392 → EReal)
    (hs : ∀ r k, IsReal (s r k)) (hc : ∀ r k, IsReal (c r k)) (hx : ∀ r k, IsReal (x r k)) (r : Fin n) (k : Fin 440) :
    IsReal (feat s c x r k) := by
  unfold feat; split_ifs <;> first | exact hs _ _ | exact hc _ _ | exact hx _ _

end Cert.Spec

end
-- ==== Proof.KNames.lean ====
/-
  Names for the arrays and blocks of the idealized kernel program, each at its literal type: the arrays the first
  launch finds (the three gathered pieces, the transposed first-layer weight, the bias row), its blocks at a grid
  point, what it leaves (the first layer's output, the column sums and the column sums of squares), and the same
  for the second launch (the first layer's output again, the batch mean and variance rows, the remaining weights
  and bias rows, the result column).
-/
import proofs.«162343_j80882824118683_1_alg».proof.Proof.Gen.KernelIdeal.Frame

noncomputable section

namespace Cert.KernelIdeal.Val

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## The argument arrays -/
abbrev ka0 (c : Dev nD) : IVec S65536 32 := m ((c.tc : Thread nD τ).loc main_arg0)
abbrev ka1 (c : Dev nD) : IVec S65536 32 := m ((c.tc : Thread nD τ).loc main_arg1)
abbrev ka2 (c : Dev nD) : IVec S65536x7x7 32 := m ((c.tc : Thread nD τ).loc main_arg2)
abbrev ka3 (c : Dev nD) : FVec F S16777216x8 .f32 := m ((c.tc : Thread nD τ).loc main_arg3)
abbrev ka4 (c : Dev nD) : FVec F S4x32 .f32 := m ((c.tc : Thread nD τ).loc main_arg4)
abbrev ka5 (c : Dev nD) : FVec F S200x16 .f32 := m ((c.tc : Thread nD τ).loc main_arg5)
abbrev ka6 (c : Dev nD) : FVec F S256x440 .f32 := m ((c.tc : Thread nD τ).loc main_arg6)
abbrev ka7 (c : Dev nD) : FVec F S256 .f32 := m ((c.tc : Thread nD τ).loc main_arg7)
abbrev ka8 (c : Dev nD) : FVec F S256 .f32 := m ((c.tc : Thread nD τ).loc main_arg8)
abbrev ka9 (c : Dev nD) : FVec F S256 .f32 := m ((c.tc : Thread nD τ).loc main_arg9)
abbrev ka10 (c : Dev nD) : FVec F S64x256 .f32 := m ((c.tc : Thread nD τ).loc main_arg10)
abbrev ka11 (c : Dev nD) : FVec F S64 .f32 := m ((c.tc : Thread nD τ).loc main_arg11)
abbrev ka12 (c : Dev nD) : FVec F S16x64 .f32 := m ((c.tc : Thread nD τ).loc main_arg12)
abbrev ka13 (c : Dev nD) : FVec F S16 .f32 := m ((c.tc : Thread nD τ).loc main_arg13)
abbrev ka14 (c : Dev nD) : FVec F S1x16 .f32 := m ((c.tc : Thread nD τ).loc main_arg14)
abbrev ka15 (c : Dev nD) : FVec F S1 .f32 := m ((c.tc : Thread nD τ).loc main_arg15)

/-! ## What the first launch finds -/
abbrev sArr (c : Dev nD) : Vec F S65536x32 .f32 := V3 m ρ c main_v15
abbrev cArr (c : Dev nD) : Vec F S65536x16 .f32 := V3 m ρ c main_v22
abbrev xArr (c : Dev nD) : Vec F S65536x392 .f32 := V3 m ρ c main_v8
abbrev w1tArr (c : Dev nD) : Vec F S440x256 .f32 := V3 m ρ c main_v23
abbrev b1rArr (c : Dev nD) : Vec F S1x256 .f32 := V3 m ρ c main_v24

/-! ## Its blocks at a grid point -/
abbrev sBlk (c : Dev nD) (t : Fin cfg0.N) : Vec F S4096x32 .f32 := iblk0 (V3 m ρ) c 0 t
abbrev cBlk (c : Dev nD) (t : Fin cfg0.N) : Vec F S4096x16 .f32 := iblk0 (V3 m ρ) c 1 t
abbrev xBlk (c : Dev nD) (t : Fin cfg0.N) : Vec F S4096x392 .f32 := iblk0 (V3 m ρ) c 2 t
abbrev w1tBlk (c : Dev nD) (t : Fin cfg0.N) : Vec F S440x256 .f32 := iblk0 (V3 m ρ) c 3 t
abbrev b1rBlk (c : Dev nD) (t : Fin cfg0.N) : Vec F S1x256 .f32 := iblk0 (V3 m ρ) c 4 t
/-- The first layer's output on the rows of point `t`. -/
abbrev h1Blk (c : Dev nD) (t : Fin cfg0.N) : Vec F S4096x256 .f32 :=
  k0_pay3 (sBlk m ρ c t) (cBlk m ρ c t) (xBlk m ρ c t) (w1tBlk m ρ c t) (b1rBlk m ρ c t)

/-! ## What the first launch leaves -/
abbrev h1Arr (c : Dev nD) : Vec F S65536x256 .f32 := (dat0 (V3 m ρ) c).arrAt 5 cfg0.N
abbrev sumArr (c : Dev nD) : Vec F S1x256 .f32 := (dat0 (V3 m ρ) c).arrAt 6 cfg0.N
abbrev sqArr (c : Dev nD) : Vec F S1x256 .f32 := (dat0 (V3 m ρ) c).arrAt 7 cfg0.N

/-! ## What the second launch finds -/
abbrev h1In (c : Dev nD) : Vec F S65536x256 .f32 := V5 m ρ c main_v33_0
abbrev meanArr (c : Dev nD) : Vec F S1x256 .f32 := V5 m ρ c main_v35
abbrev varArr (c : Dev nD) : Vec F S1x256 .f32 := V5 m ρ c main_v39
abbrev gamArr (c : Dev nD) : Vec F S1x256 .f32 := V5 m ρ c main_v25
abbrev betArr (c : Dev nD) : Vec F S1x256 .f32 := V5 m ρ c main_v26
abbrev w2tArr (c : Dev nD) : Vec F S256x64 .f32 := V5 m ρ c main_v27
abbrev b2rArr (c : Dev nD) : Vec F S1x64 .f32 := V5 m ρ c main_v28
abbrev w3tArr (c : Dev nD) : Vec F S64x16 .f32 := V5 m ρ c main_v29
abbrev b3rArr (c : Dev nD) : Vec F S1x16 .f32 := V5 m ρ c main_v30
abbrev w4tArr (c : Dev nD) : Vec F S16x1 .f32 := V5 m ρ c main_v31
abbrev b4rArr (c : Dev nD) : Vec F S1x1 .f32 := V5 m ρ c main_v32

/-! ## Its blocks at a grid point -/
abbrev h1InBlk (c : Dev nD) (t : Fin cfg1.N) : Vec F S4096x256 .f32 := iblk1 (V5 m ρ) c 0 t
abbrev meanBlk (c : Dev nD) (t : Fin cfg1.N) : Vec F S1x256 .f32 := iblk1 (V5 m ρ) c 1 t
abbrev varBlk (c : Dev nD) (t : Fin cfg1.N) : Vec F S1x256 .f32 := iblk1 (V5 m ρ) c 2 t
abbrev gamBlk (c : Dev nD) (t : Fin cfg1.N) : Vec F S1x256 .f32 := iblk1 (V5 m ρ) c 3 t
abbrev betBlk (c : Dev nD) (t : Fin cfg1.N) : Vec F S1x256 .f32 := iblk1 (V5 m ρ) c 4 t
abbrev w2tBlk (c : Dev nD) (t : Fin cfg1.N) : Vec F S256x64 .f32 := iblk1 (V5 m ρ) c 5 t
abbrev b2rBlk (c : Dev nD) (t : Fin cfg1.N) : Vec F S1x64 .f32 := iblk1 (V5 m ρ) c 6 t
abbrev w3tBlk (c : Dev nD) (t : Fin cfg1.N) : Vec F S64x16 .f32 := iblk1 (V5 m ρ) c 7 t
abbrev b3rBlk (c : Dev nD) (t : Fin cfg1.N) : Vec F S1x16 .f32 := iblk1 (V5 m ρ) c 8 t
abbrev w4tBlk (c : Dev nD) (t : Fin cfg1.N) : Vec F S16x1 .f32 := iblk1 (V5 m ρ) c 9 t
abbrev b4rBlk (c : Dev nD) (t : Fin cfg1.N) : Vec F S1x1 .f32 := iblk1 (V5 m ρ) c 10 t

/-! ## What the second launch leaves, and the program's result -/
abbrev outArr (c : Dev nD) : Vec F S65536x1 .f32 := (dat1 (V5 m ρ) c).arrAt 11 cfg1.N
abbrev resArr (c : Dev nD) : Vec F S65536 .f32 := W7 m ρ c (Proc.devRef .tc main_v41)

end Cert.KernelIdeal.Val

end
-- ==== Proof.Stages.lean ====
/-
  The three gathered feature pieces as functions of the index arrays and the tables, written once for both
  programs (each program has its own copy of the dimension-number records and shape facts, so these take them as
  arguments).  An index is first brought into range the way array indexing does it: a negative index has the axis
  length added; for the large table the index is first reduced modulo the table's length (a remainder with the
  divisor's sign).  The gathers clamp what is still out of range.
-/
import Idealize.ShloMosaic.PureOps

noncomputable section

namespace Cert.Stages

open Idealize.ShloMosaic

abbrev T_ : Shape := ⟨0, ![]⟩
abbrev T65536 : Shape := ⟨1, ![65536]⟩
abbrev T65536x1 : Shape := ⟨2, ![65536, 1]⟩
abbrev T65536x7x7 : Shape := ⟨3, ![65536, 7, 7]⟩
abbrev T65536x7x7x1 : Shape := ⟨4, ![65536, 7, 7, 1]⟩
abbrev T65536x7x7x8 : Shape := ⟨4, ![65536, 7, 7, 8]⟩
abbrev T65536x392 : Shape := ⟨2, ![65536, 392]⟩
abbrev T65536x32 : Shape := ⟨2, ![65536, 32]⟩
abbrev T65536x16 : Shape := ⟨2, ![65536, 16]⟩
abbrev T16777216x8 : Shape := ⟨2, ![16777216, 8]⟩
abbrev T4x32 : Shape := ⟨2, ![4, 32]⟩
abbrev T200x16 : Shape := ⟨2, ![200, 16]⟩

variable {F : FTy → Type} [FloatOps F]

/-- A negative index has the axis length `n` added (one-axis index arrays). -/
def wrap1 (hb : T_.BroadcastsInDim T65536 (![] : Fin 0 → Fin T65536.rank)) (n : BitVec 32) (i : IVec T65536 32) : IVec T65536 32 :=
  select (cmpi .slt i (broadcastInDim T65536 ![] hb (constantI T_ 32 0#32)))
    (addi i (broadcastInDim T65536 ![] hb (constantI T_ 32 n))) i

/-- The index reduced modulo 2^24 with the divisor's sign, then a negative result has 2^24 added. -/
def idx3 (hb : T_.BroadcastsInDim T65536x7x7 (![] : Fin 0 → Fin T65536x7x7.rank)) (mp : IVec T65536x7x7 32) : IVec T65536x7x7 32 :=
  let v0 : IVec T_ 32 := id (constantI T_ 32 16777216#32)
  let v2 : IVec T_ 32 := select (cmpi .eq v0 (constantI T_ 32 0#32)) (constantI T_ 32 1#32) v0
  let v4 : IVec T65536x7x7 32 := Host.remsi mp (broadcastInDim T65536x7x7 ![] hb v2)
  let v6 : IVec T65536x7x7 1 := cmpi .ne v4 (broadcastInDim T65536x7x7 ![] hb (constantI T_ 32 0#32))
  let v8 : IVec T65536x7x7 1 := cmpi .slt v4 (broadcastInDim T65536x7x7 ![] hb (constantI T_ 32 0#32))
  let v9 : IVec T_ 1 := cmpi .slt v2 (constantI T_ 32 0#32)
  let v11 : IVec T65536x7x7 1 := cmpi .ne v8 (broadcastInDim T65536x7x7 ![] hb v9)
  let v12 : IVec T65536x7x7 1 := andi v11 v6
  let v14 : IVec T65536x7x7 32 := addi v4 (broadcastInDim T65536x7x7 ![] hb v2)
  let r : IVec T65536x7x7 32 := select v12 v14 v4
  select (cmpi .slt r (broadcastInDim T65536x7x7 ![] hb (constantI T_ 32 0#32)))
    (addi r (broadcastInDim T65536x7x7 ![] hb (constantI T_ 32 16777216#32))) r

/-- The 32-wide piece: rows of the small table at the (wrapped) first index array. -/
def gS (d : GatherDims T4x32 T65536x1 T65536x32)
    (hb : T_.BroadcastsInDim T65536 (![] : Fin 0 → Fin T65536.rank))
    (hc : T65536.BroadcastsInDim T65536x1 (![0] : Fin 1 → Fin T65536x1.rank))
    (st : IVec T65536 32) (tbl : FVec F T4x32 .f32) : FVec F T65536x32 .f32 :=
  Host.gather d tbl (broadcastInDim T65536x1 ![0] hc (wrap1 hb 4#32 st))

/-- The 16-wide piece: rows of the 200-row table at the (wrapped) second index array. -/
def gC (d : GatherDims T200x16 T65536x1 T65536x16)
    (hb : T_.BroadcastsInDim T65536 (![] : Fin 0 → Fin T65536.rank))
    (hc : T65536.BroadcastsInDim T65536x1 (![0] : Fin 1 → Fin T65536x1.rank))
    (ct : IVec T65536 32) (tbl : FVec F T200x16 .f32) : FVec F T65536x16 .f32 :=
  Host.gather d tbl (broadcastInDim T65536x1 ![0] hc (wrap1 hb 200#32 ct))

/-- The 392-wide piece: 49 rows of the large table per batch row, laid side by side. -/
def gX (d : GatherDims T16777216x8 T65536x7x7x1 T65536x7x7x8)
    (hb : T_.BroadcastsInDim T65536x7x7 (![] : Fin 0 → Fin T65536x7x7.rank))
    (hc : T65536x7x7.BroadcastsInDim T65536x7x7x1 (![0, 1, 2] : Fin 3 → Fin T65536x7x7x1.rank))
    (hs : T65536x7x7x8.ShapeCasts T65536x392)
    (mp : IVec T65536x7x7 32) (tbl : FVec F T16777216x8 .f32) : FVec F T65536x392 .f32 :=
  shapeCast T65536x392 (Host.gather d tbl (broadcastInDim T65536x7x7x1 ![0, 1, 2] hc (idx3 hb mp))) hs

end Cert.Stages

end
-- ==== Proof.KEntry.lean ====
/-
  The arrays the two launches find, and the program's result, as terms of the argument arrays and of what the
  launches leave: the host operations before, between and after the launches, read back through the run's fold.
-/
import proofs.«162343_j80882824118683_1_alg».proof.Proof.KNames
import proofs.«162343_j80882824118683_1_alg».proof.Proof.Stages
import Idealize.ShloMosaic.Lib.StableHlo.Run

noncomputable section

namespace Cert.KernelIdeal.Val

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## What the first launch finds

Each array is the value of one host operation; its operands are read back through the operations before it, down
to the argument arrays, which no operation writes. -/

theorem sArr_eq (c : Dev nD) : sArr m ρ c
    = Cert.Stages.gS gather_S4x32_S65536x1_S65536x32_1_0_n_n_0_1_132 Facts₀.bcast_S_S65536 Facts₀.bcast_S65536_S65536x1_0
        (ka0 m c) (ka4 m c) := by
  show StableHlo.after hostOps0_2 (StableHlo.after hostOps0_1 (StableHlo.after hostOps0 (W0 m ρ c))) (Proc.devRef .tc main_v15) = _
  after_results_simp
  unfold Cert.Stages.gS Cert.Stages.wrap1
  rfl
theorem cArr_eq (c : Dev nD) : cArr m ρ c
    = Cert.Stages.gC gather_S200x16_S65536x1_S65536x16_1_0_n_n_0_1_116 Facts₀.bcast_S_S65536 Facts₀.bcast_S65536_S65536x1_0
        (ka1 m c) (ka5 m c) := by
  show StableHlo.after hostOps0_2 (StableHlo.after hostOps0_1 (StableHlo.after hostOps0 (W0 m ρ c))) (Proc.devRef .tc main_v22) = _
  after_results_simp
  unfold Cert.Stages.gC Cert.Stages.wrap1
  rfl
/-- The third piece's index array is the outlined remainder's result (the index modulo 2^24, with the divisor's
    sign), wrapped once more; the operations of the outlined function carry their values along the identity
    transport of their typed references. -/
theorem xArr_eq (c : Dev nD) : xArr m ρ c
    = Cert.Stages.gX gather_S16777216x8_S65536x7x7x1_S65536x7x7x8_3_0_n_n_0_3_18 Facts₀.bcast_S_S65536x7x7
        Facts₀.bcast_S65536x7x7_S65536x7x7x1_0_1_2 Facts₀.shapeCasts_S65536x7x7x8_S65536x392
        (ka2 m c) (ka3 m c) := by
  show StableHlo.after hostOps0_2 (StableHlo.after hostOps0_1 (StableHlo.after hostOps0 (W0 m ρ c))) (Proc.devRef .tc main_v8) = _
  after_results_simp
  simp only [StableHlo.TRef.ofBuf, StableHlo.TRef.toBuf, cast_eq]
  unfold Cert.Stages.gX Cert.Stages.idx3
  rfl
theorem w1tArr_eq (c : Dev nD) : w1tArr m ρ c
    = transpose S440x256 [1, 0] (ka6 m c) Facts₀.transposes_S256x440_S440x256_1_0 := by
  show StableHlo.after hostOps0_2 (StableHlo.after hostOps0_1 (StableHlo.after hostOps0 (W0 m ρ c))) (Proc.devRef .tc main_v23) = _
  after_results_simp <;> rfl

theorem b1rArr_eq (c : Dev nD) : b1rArr m ρ c
    = shapeCast S1x256 (ka7 m c) Facts₀.shapeCasts_S256_S1x256 := by
  show StableHlo.after hostOps0_2 (StableHlo.after hostOps0_1 (StableHlo.after hostOps0 (W0 m ρ c))) (Proc.devRef .tc main_v24) = _
  after_results_simp <;> rfl

/-! ## What the second launch finds

The remaining weights and bias rows are written before the first launch, are no array of it, and are not written
between the launches: the second launch finds them as the first did. -/

theorem gamArr_eq (c : Dev nD) : gamArr m ρ c
    = shapeCast S1x256 (ka8 m c) Facts₀.shapeCasts_S256_S1x256 := by
  show StableHlo.after hostOps1 (W4 m ρ c) (Proc.devRef .tc main_v25) = _
  after_results_simp
  rw [W4_of_ne m ρ c main_v25 (by decide)]
  show StableHlo.after hostOps0_2 (StableHlo.after hostOps0_1 (StableHlo.after hostOps0 (W0 m ρ c))) (Proc.devRef .tc main_v25) = _
  after_results_simp <;> rfl

theorem betArr_eq (c : Dev nD) : betArr m ρ c
    = shapeCast S1x256 (ka9 m c) Facts₀.shapeCasts_S256_S1x256 := by
  show StableHlo.after hostOps1 (W4 m ρ c) (Proc.devRef .tc main_v26) = _
  after_results_simp
  rw [W4_of_ne m ρ c main_v26 (by decide)]
  show StableHlo.after hostOps0_2 (StableHlo.after hostOps0_1 (StableHlo.after hostOps0 (W0 m ρ c))) (Proc.devRef .tc main_v26) = _
  after_results_simp <;> rfl

theorem w2tArr_eq (c : Dev nD) : w2tArr m ρ c
    = transpose S256x64 [1, 0] (ka10 m c) Facts₀.transposes_S64x256_S256x64_1_0 := by
  show StableHlo.after hostOps1 (W4 m ρ c) (Proc.devRef .tc main_v27) = _
  after_results_simp
  rw [W4_of_ne m ρ c main_v27 (by decide)]
  show StableHlo.after hostOps0_2 (StableHlo.after hostOps0_1 (StableHlo.after hostOps0 (W0 m ρ c))) (Proc.devRef .tc main_v27) = _
  after_results_simp <;> rfl

theorem b2rArr_eq (c : Dev nD) : b2rArr m ρ c
    = shapeCast S1x64 (ka11 m c) Facts₀.shapeCasts_S64_S1x64 := by
  show StableHlo.after hostOps1 (W4 m ρ c) (Proc.devRef .tc main_v28) = _
  after_results_simp
  rw [W4_of_ne m ρ c main_v28 (by decide)]
  show StableHlo.after hostOps0_2 (StableHlo.after hostOps0_1 (StableHlo.after hostOps0 (W0 m ρ c))) (Proc.devRef .tc main_v28) = _
  after_results_simp <;> rfl

theorem w3tArr_eq (c : Dev nD) : w3tArr m ρ c
    = transpose S64x16 [1, 0] (ka12 m c) Facts₀.transposes_S16x64_S64x16_1_0 := by
  show StableHlo.after hostOps1 (W4 m ρ c) (Proc.devRef .tc main_v29) = _
  after_results_simp
  rw [W4_of_ne m ρ c main_v29 (by decide)]
  show StableHlo.after hostOps0_2 (StableHlo.after hostOps0_1 (StableHlo.after hostOps0 (W0 m ρ c))) (Proc.devRef .tc main_v29) = _
  after_results_simp <;> rfl

theorem b3rArr_eq (c : Dev nD) : b3rArr m ρ c
    = shapeCast S1x16 (ka13 m c) Facts₀.shapeCasts_S16_S1x16 := by
  show StableHlo.after hostOps1 (W4 m ρ c) (Proc.devRef .tc main_v30) = _
  after_results_simp
  rw [W4_of_ne m ρ c main_v30 (by decide)]
  show StableHlo.after hostOps0_2 (StableHlo.after hostOps0_1 (StableHlo.after hostOps0 (W0 m ρ c))) (Proc.devRef .tc main_v30) = _
  after_results_simp <;> rfl

theorem w4tArr_eq (c : Dev nD) : w4tArr m ρ c
    = transpose S16x1 [1, 0] (ka14 m c) Facts₀.transposes_S1x16_S16x1_1_0 := by
  show StableHlo.after hostOps1 (W4 m ρ c) (Proc.devRef .tc main_v31) = _
  after_results_simp
  rw [W4_of_ne m ρ c main_v31 (by decide)]
  show StableHlo.after hostOps0_2 (StableHlo.after hostOps0_1 (StableHlo.after hostOps0 (W0 m ρ c))) (Proc.devRef .tc main_v31) = _
  after_results_simp <;> rfl

theorem b4rArr_eq (c : Dev nD) : b4rArr m ρ c
    = shapeCast S1x1 (ka15 m c) Facts₀.shapeCasts_S1_S1x1 := by
  show StableHlo.after hostOps1 (W4 m ρ c) (Proc.devRef .tc main_v32) = _
  after_results_simp
  rw [W4_of_ne m ρ c main_v32 (by decide)]
  show StableHlo.after hostOps0_2 (StableHlo.after hostOps0_1 (StableHlo.after hostOps0 (W0 m ρ c))) (Proc.devRef .tc main_v32) = _
  after_results_simp <;> rfl

/-- The second launch reads the first layer's output where the first launch left it. -/
theorem h1In_eq (c : Dev nD) : h1In m ρ c = h1Arr m ρ c := by
  show StableHlo.after hostOps1 (W4 m ρ c) (Proc.devRef .tc main_v33_0) = _
  after_results_simp
  exact W4_arr m ρ c 5
/-- The mean row: the column sums over the batch size. -/
theorem meanArr_eq (c : Dev nD) : meanArr m ρ c
    = Host.divf (sumArr m ρ c) (broadcastInDim S1x256 ![] Facts₀.bcast_S_S1x256 (constant S_ .f32 0x47800000#32)) := by
  have e6 : W4 m ρ c (Proc.devRef .tc main_v33_1) = sumArr m ρ c := W4_arr m ρ c 6
  show StableHlo.after hostOps1 (W4 m ρ c) (Proc.devRef .tc main_v35) = _
  after_results_simp
  rw [e6]
/-- The variance row: the column sums of squares over the batch size, minus the squared mean. -/
theorem varArr_eq (c : Dev nD) : varArr m ρ c
    = subf (Host.divf (sqArr m ρ c) (broadcastInDim S1x256 ![] Facts₀.bcast_S_S1x256 (constant S_ .f32 0x47800000#32)))
        (mulf (meanArr m ρ c) (meanArr m ρ c)) := by
  have e6 : W4 m ρ c (Proc.devRef .tc main_v33_1) = sumArr m ρ c := W4_arr m ρ c 6
  have e7 : W4 m ρ c (Proc.devRef .tc main_v33_2) = sqArr m ρ c := W4_arr m ρ c 7
  rw [meanArr_eq m ρ c]
  show StableHlo.after hostOps1 (W4 m ρ c) (Proc.devRef .tc main_v39) = _
  after_results_simp
  rw [e6, e7]
/-- The program's result: the second launch's one-column array recast to a vector. -/
theorem resArr_eq (c : Dev nD) : resArr m ρ c = shapeCast S65536 (outArr m ρ c) Facts₀.shapeCasts_S65536x1_S65536 := by
  have e11 : W6 m ρ c (Proc.devRef .tc main_v40) = outArr m ρ c := W6_arr m ρ c 11
  show StableHlo.after hostOps2 (W6 m ρ c) (Proc.devRef .tc main_v41) = _
  after_results_simp
  rw [e11]
  rfl

end Cert.KernelIdeal.Val

end
-- ==== Proof.KPieces.lean ====
/-
  What each control case of the first launch's body leaves in its three output buffers, as values: the block of
  the first layer's output is the same expression in both cases; the two accumulator rows are the running row plus
  this block's column sums (of the entries, of their squares), the running row being the zero row at the first
  point and what the point before left otherwise.  The second launch's body leaves one expression of its blocks.
-/
import proofs.«162343_j80882824118683_1_alg».proof.Proof.Gen.KernelIdeal.Frame
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen

variable {F : FTy → Type} [FloatOps F]

/-- The offset of a store or load that spans its whole buffer: zero along both axes. -/
theorem kpieces_hz : (![0, 0] : Fin 2 → Nat) = fun _ => 0 := funext fun a => by fin_cases a <;> rfl

theorem out0_A_5_eq (c : Dev nD) (i : grid0.Coords) (a1 : Memref sig .tc .vmem S4096x32 .f32) (h1 : a1.IsWhole) (a2 : Memref sig .tc .vmem S4096x16 .f32) (h2 : a2.IsWhole) (a3 : Memref sig .tc .vmem S4096x392 .f32) (h3 : a3.IsWhole) (a4 : Memref sig .tc .vmem S440x256 .f32) (h4 : a4.IsWhole) (a5 : Memref sig .tc .vmem S1x256 .f32) (h5 : a5.IsWhole) (a6 : Memref sig .tc .vmem S4096x256 .f32) (h6 : a6.IsWhole) (a7 : Memref sig .tc .vmem S1x256 .f32) (h7 : a7.IsWhole) (a8 : Memref sig .tc .vmem S1x256 .f32) (h8 : a8.IsWhole) (hc : cond0_0 i) (x0 : Vec F S4096x32 .f32) (x1 : Vec F S4096x16 .f32) (x2 : Vec F S4096x392 .f32) (x3 : Vec F S440x256 .f32) (x4 : Vec F S1x256 .f32) :
    out0_A_5 c i a1 h1 a2 h2 a3 h3 a4 h4 a5 h5 a6 h6 a7 h7 a8 h8 hc x0 x1 x2 x3 x4 = k0_pay3 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S4096x256) kpieces_hz]
  simp only [View.readAt_eq_ld, h1.read_unread, h2.read_unread, h3.read_unread, h4.read_unread, h5.read_unread, View.ld_unit_zero (S := S4096x32) kpieces_hz, View.ld_unit_zero (S := S4096x16) kpieces_hz, View.ld_unit_zero (S := S4096x392) kpieces_hz, View.ld_unit_zero (S := S440x256) kpieces_hz, View.ld_unit_zero (S := S1x256) kpieces_hz]

theorem out0_A_6_eq (c : Dev nD) (i : grid0.Coords) (a1 : Memref sig .tc .vmem S4096x32 .f32) (h1 : a1.IsWhole) (a2 : Memref sig .tc .vmem S4096x16 .f32) (h2 : a2.IsWhole) (a3 : Memref sig .tc .vmem S4096x392 .f32) (h3 : a3.IsWhole) (a4 : Memref sig .tc .vmem S440x256 .f32) (h4 : a4.IsWhole) (a5 : Memref sig .tc .vmem S1x256 .f32) (h5 : a5.IsWhole) (a6 : Memref sig .tc .vmem S4096x256 .f32) (h6 : a6.IsWhole) (a7 : Memref sig .tc .vmem S1x256 .f32) (h7 : a7.IsWhole) (a8 : Memref sig .tc .vmem S1x256 .f32) (h8 : a8.IsWhole) (hc : cond0_0 i) (x0 : Vec F S4096x32 .f32) (x1 : Vec F S4096x16 .f32) (x2 : Vec F S4096x392 .f32) (x3 : Vec F S440x256 .f32) (x4 : Vec F S1x256 .f32) :
    out0_A_6 c i a1 h1 a2 h2 a3 h3 a4 h4 a5 h5 a6 h6 a7 h7 a8 h8 hc x0 x1 x2 x3 x4 = k0_pay4 x0 x1 x2 x3 x4 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) kpieces_hz]
  simp only [View.readAt_eq_ld, h1.read_unread, h2.read_unread, h3.read_unread, h4.read_unread, h5.read_unread, View.ld_unit_zero (S := S4096x32) kpieces_hz, View.ld_unit_zero (S := S4096x16) kpieces_hz, View.ld_unit_zero (S := S4096x392) kpieces_hz, View.ld_unit_zero (S := S440x256) kpieces_hz, View.ld_unit_zero (S := S1x256) kpieces_hz, View.readCov_unit_zero (S := S1x256) _ kpieces_hz]

theorem out0_A_7_eq (c : Dev nD) (i : grid0.Coords) (a1 : Memref sig .tc .vmem S4096x32 .f32) (h1 : a1.IsWhole) (a2 : Memref sig .tc .vmem S4096x16 .f32) (h2 : a2.IsWhole) (a3 : Memref sig .tc .vmem S4096x392 .f32) (h3 : a3.IsWhole) (a4 : Memref sig .tc .vmem S440x256 .f32) (h4 : a4.IsWhole) (a5 : Memref sig .tc .vmem S1x256 .f32) (h5 : a5.IsWhole) (a6 : Memref sig .tc .vmem S4096x256 .f32) (h6 : a6.IsWhole) (a7 : Memref sig .tc .vmem S1x256 .f32) (h7 : a7.IsWhole) (a8 : Memref sig .tc .vmem S1x256 .f32) (h8 : a8.IsWhole) (hc : cond0_0 i) (x0 : Vec F S4096x32 .f32) (x1 : Vec F S4096x16 .f32) (x2 : Vec F S4096x392 .f32) (x3 : Vec F S440x256 .f32) (x4 : Vec F S1x256 .f32) :
    out0_A_7 c i a1 h1 a2 h2 a3 h3 a4 h4 a5 h5 a6 h6 a7 h7 a8 h8 hc x0 x1 x2 x3 x4 = k0_pay5 x0 x1 x2 x3 x4 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) kpieces_hz]
  simp only [View.readAt_eq_ld, h1.read_unread, h2.read_unread, h3.read_unread, h4.read_unread, h5.read_unread, View.ld_unit_zero (S := S4096x32) kpieces_hz, View.ld_unit_zero (S := S4096x16) kpieces_hz, View.ld_unit_zero (S := S4096x392) kpieces_hz, View.ld_unit_zero (S := S440x256) kpieces_hz, View.ld_unit_zero (S := S1x256) kpieces_hz, View.readCov_unit_zero (S := S1x256) _ kpieces_hz]

theorem out0_B_5_eq (c : Dev nD) (i : grid0.Coords) (a1 : Memref sig .tc .vmem S4096x32 .f32) (h1 : a1.IsWhole) (a2 : Memref sig .tc .vmem S4096x16 .f32) (h2 : a2.IsWhole) (a3 : Memref sig .tc .vmem S4096x392 .f32) (h3 : a3.IsWhole) (a4 : Memref sig .tc .vmem S440x256 .f32) (h4 : a4.IsWhole) (a5 : Memref sig .tc .vmem S1x256 .f32) (h5 : a5.IsWhole) (a6 : Memref sig .tc .vmem S4096x256 .f32) (h6 : a6.IsWhole) (a7 : Memref sig .tc .vmem S1x256 .f32) (h7 : a7.IsWhole) (a8 : Memref sig .tc .vmem S1x256 .f32) (h8 : a8.IsWhole) (hc : ¬cond0_0 i) (x0 : Vec F S4096x32 .f32) (x1 : Vec F S4096x16 .f32) (x2 : Vec F S4096x392 .f32) (x3 : Vec F S440x256 .f32) (x4 : Vec F S1x256 .f32) (xo6 xo7 : Vec F S1x256 .f32) :
    out0_B_5 c i a1 h1 a2 h2 a3 h3 a4 h4 a5 h5 a6 h6 a7 h7 a8 h8 hc x0 x1 x2 x3 x4 xo6 xo7 = k0_pay3 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S4096x256) kpieces_hz]
  simp only [View.readAt_eq_ld, h1.read_unread, h2.read_unread, h3.read_unread, h4.read_unread, h5.read_unread, View.ld_unit_zero (S := S4096x32) kpieces_hz, View.ld_unit_zero (S := S4096x16) kpieces_hz, View.ld_unit_zero (S := S4096x392) kpieces_hz, View.ld_unit_zero (S := S440x256) kpieces_hz, View.ld_unit_zero (S := S1x256) kpieces_hz]

theorem out0_B_6_eq (c : Dev nD) (i : grid0.Coords) (a1 : Memref sig .tc .vmem S4096x32 .f32) (h1 : a1.IsWhole) (a2 : Memref sig .tc .vmem S4096x16 .f32) (h2 : a2.IsWhole) (a3 : Memref sig .tc .vmem S4096x392 .f32) (h3 : a3.IsWhole) (a4 : Memref sig .tc .vmem S440x256 .f32) (h4 : a4.IsWhole) (a5 : Memref sig .tc .vmem S1x256 .f32) (h5 : a5.IsWhole) (a6 : Memref sig .tc .vmem S4096x256 .f32) (h6 : a6.IsWhole) (a7 : Memref sig .tc .vmem S1x256 .f32) (h7 : a7.IsWhole) (a8 : Memref sig .tc .vmem S1x256 .f32) (h8 : a8.IsWhole) (hc : ¬cond0_0 i) (x0 : Vec F S4096x32 .f32) (x1 : Vec F S4096x16 .f32) (x2 : Vec F S4096x392 .f32) (x3 : Vec F S440x256 .f32) (x4 : Vec F S1x256 .f32) (xo6 xo7 : Vec F S1x256 .f32) :
    out0_B_6 c i a1 h1 a2 h2 a3 h3 a4 h4 a5 h5 a6 h6 a7 h7 a8 h8 hc x0 x1 x2 x3 x4 xo6 xo7 = k0_pay4 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S1x256) kpieces_hz]
  simp only [View.readAt_eq_ld, h1.read_unread, h2.read_unread, h3.read_unread, h4.read_unread, h5.read_unread, h7.read_unread, View.ld_unit_zero (S := S4096x32) kpieces_hz, View.ld_unit_zero (S := S4096x16) kpieces_hz, View.ld_unit_zero (S := S4096x392) kpieces_hz, View.ld_unit_zero (S := S440x256) kpieces_hz, View.ld_unit_zero (S := S1x256) kpieces_hz]

theorem out0_B_7_eq (c : Dev nD) (i : grid0.Coords) (a1 : Memref sig .tc .vmem S4096x32 .f32) (h1 : a1.IsWhole) (a2 : Memref sig .tc .vmem S4096x16 .f32) (h2 : a2.IsWhole) (a3 : Memref sig .tc .vmem S4096x392 .f32) (h3 : a3.IsWhole) (a4 : Memref sig .tc .vmem S440x256 .f32) (h4 : a4.IsWhole) (a5 : Memref sig .tc .vmem S1x256 .f32) (h5 : a5.IsWhole) (a6 : Memref sig .tc .vmem S4096x256 .f32) (h6 : a6.IsWhole) (a7 : Memref sig .tc .vmem S1x256 .f32) (h7 : a7.IsWhole) (a8 : Memref sig .tc .vmem S1x256 .f32) (h8 : a8.IsWhole) (hc : ¬cond0_0 i) (x0 : Vec F S4096x32 .f32) (x1 : Vec F S4096x16 .f32) (x2 : Vec F S4096x392 .f32) (x3 : Vec F S440x256 .f32) (x4 : Vec F S1x256 .f32) (xo6 xo7 : Vec F S1x256 .f32) :
    out0_B_7 c i a1 h1 a2 h2 a3 h3 a4 h4 a5 h5 a6 h6 a7 h7 a8 h8 hc x0 x1 x2 x3 x4 xo6 xo7 = k0_pay5 x0 x1 x2 x3 x4 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S1x256) kpieces_hz]
  simp only [View.readAt_eq_ld, h1.read_unread, h2.read_unread, h3.read_unread, h4.read_unread, h5.read_unread, h8.read_unread, View.ld_unit_zero (S := S4096x32) kpieces_hz, View.ld_unit_zero (S := S4096x16) kpieces_hz, View.ld_unit_zero (S := S4096x392) kpieces_hz, View.ld_unit_zero (S := S440x256) kpieces_hz, View.ld_unit_zero (S := S1x256) kpieces_hz]

theorem out1_11_eq (x0 : Vec F S4096x256 .f32) (x1 x2 x3 x4 : Vec F S1x256 .f32) (x5 : Vec F S256x64 .f32)
    (x6 : Vec F S1x64 .f32) (x7 : Vec F S64x16 .f32) (x8 : Vec F S1x16 .f32) (x9 : Vec F S16x1 .f32) (x10 : Vec F S1x1 .f32) :
    out1_11 x0 x1 x2 x3 x4 x5 x6 x7 x8 x9 x10 = k1_pay1 (k1_pay2 x0 x1 x2 x3 x4 x5 x6 x7) x8 x9 x10 := by
  unfold out1_11
  rw [View.canon_unit_zero (S := S4096x1) kpieces_hz]
  simp only [View.ld_unit_zero (S := S4096x256) kpieces_hz, View.ld_unit_zero (S := S1x256) kpieces_hz, View.ld_unit_zero (S := S256x64) kpieces_hz, View.ld_unit_zero (S := S1x64) kpieces_hz, View.ld_unit_zero (S := S64x16) kpieces_hz, View.ld_unit_zero (S := S1x16) kpieces_hz, View.ld_unit_zero (S := S16x1) kpieces_hz, View.ld_unit_zero (S := S1x1) kpieces_hz]

end Cert.KernelIdeal.Val

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.KPay0.lean ====
/-
  The first launch's payloads read at an entry, over the extended reals: a row of the first layer's output is the
  row's features (three blocks side by side) against the weight's columns plus the bias; the two accumulator rows add,
  per column, the block's column sum (of the entries, of their squares) to the running row.
-/
import proofs.«162343_j80882824118683_1_alg».proof.Proof.Gen.KernelIdeal.Skeleton
import proofs.«162343_j80882824118683_1_alg».proof.Proof.Spec
import proofs.«162343_j80882824118683_1_alg».proof.Proof.LibPlainDot
import proofs.«162343_j80882824118683_1_alg».proof.Proof.LibRowSpread
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.ValueIdx
open Cert.KernelIdeal Cert.KernelIdeal.Gen

/-- The first layer's product contracts the features' columns against the weight's rows, with no batch axis. -/
theorem dot1_plain : PlainDot.IsPlain dot_S4096x440_S440x256_S4096x256_1_0_0_1_n_n :=
  ⟨rfl, rfl, rfl, rfl, rfl, rfl⟩

/-- The three pieces side by side, read at row `p` and column `k`: the piece whose span of columns holds `k`. -/
theorem featBlock_apply (x0 : Vec Ideal S4096x32 .f32) (x1 : Vec Ideal S4096x16 .f32) (x2 : Vec Ideal S4096x392 .f32)
    (p : Fin 4096) (k : Fin 440) :
    concatenate S4096x440 1 [⟨S4096x32, x0⟩, ⟨S4096x16, x1⟩, ⟨S4096x392, x2⟩]
        concatenates_S4096x32_S4096x16_S4096x392_S4096x440_d1 (ix2 p k)
      = Cert.Spec.feat (fun p k => x0 (ix2 p k)) (fun p k => x1 (ix2 p k)) (fun p k => x2 (ix2 p k)) p k := by
  unfold Cert.Spec.feat
  split_ifs with h h'
  · -- columns 0 … 31: the first piece, nothing before it
    refine concatenate_apply_piece (1 : Fin 2) [⟨S4096x32, x0⟩, ⟨S4096x16, x1⟩, ⟨S4096x392, x2⟩] _ (ix2 p k) 0 (by show (0 : ℕ) < 3; omega) S4096x32 x0 rfl rfl 0 rfl
      (ix2 p ⟨k.val, h⟩) (fun b hb => ?_) ?_
    · match b with
      | ⟨0, _⟩ => rfl
      | ⟨1, _⟩ => exact absurd rfl hb
    · exact Nat.zero_add _
  · -- columns 32 … 47: the second piece, 32 columns before it
    refine concatenate_apply_piece (1 : Fin 2) [⟨S4096x32, x0⟩, ⟨S4096x16, x1⟩, ⟨S4096x392, x2⟩] _ (ix2 p k) 1 (by show (1 : ℕ) < 3; omega) S4096x16 x1 rfl rfl 32 rfl
      (ix2 p ⟨k.val - 32, by omega⟩) (fun b hb => ?_) ?_
    · match b with
      | ⟨0, _⟩ => rfl
      | ⟨1, _⟩ => exact absurd rfl hb
    · show 32 + (k.val - 32) = k.val
      omega
  · -- columns 48 … 439: the third piece, 48 columns before it
    refine concatenate_apply_piece (1 : Fin 2) [⟨S4096x32, x0⟩, ⟨S4096x16, x1⟩, ⟨S4096x392, x2⟩] _ (ix2 p k) 2 (by show (2 : ℕ) < 3; omega) S4096x392 x2 rfl rfl 48 rfl
      (ix2 p ⟨k.val - 48, by omega⟩) (fun b hb => ?_) ?_
    · match b with
      | ⟨0, _⟩ => rfl
      | ⟨1, _⟩ => exact absurd rfl hb
    · show 48 + (k.val - 48) = k.val
      omega

/-- The sum over the rows of a block, read at column `j`: the sum over the 4096 rows of the block's entry there. -/
theorem colSum_apply (v : FVec Ideal S4096x256 .f32) (j : Fin 256) :
    multiReduction .add [0] S256 v 0x00000000#32 reduces_S4096x256_S256 (.inl rfl) rfl (ix1 j)
      = ∑ p : Fin 4096, v (ix2 p j) := by
  refine (Ideal.multiReduction_add_single v _ reduces_S4096x256_S256 _ _ (ix1 j)).trans ?_
  refine Finset.sum_congr rfl fun p _ => congrArg v ?_
  funext a
  match a with
  | ⟨0, _⟩ => exact Fin.ext rfl
  | ⟨1, _⟩ => exact Fin.ext rfl

theorem pay3_apply (x0 : Vec Ideal S4096x32 .f32) (x1 : Vec Ideal S4096x16 .f32) (x2 : Vec Ideal S4096x392 .f32)
    (x3 : Vec Ideal S440x256 .f32) (x4 : Vec Ideal S1x256 .f32) (p : Fin 4096) (j : Fin 256) :
    k0_pay3 x0 x1 x2 x3 x4 (ix2 p j)
      = Cert.Spec.lin1Row (Cert.Spec.feat (fun p k => x0 (ix2 p k)) (fun p k => x1 (ix2 p k)) (fun p k => x2 (ix2 p k)) p)
          (fun j k => x3 (ix2 k j)) (fun j => x4 (ix2 0 j)) j := by
  unfold k0_pay3 Cert.Spec.lin1Row
  have e0 : shapeCast S4096x32 x0 shapeCasts_S4096x32_S4096x32 = x0 := shapeCast_self _ _
  have e1 : shapeCast S4096x16 x1 shapeCasts_S4096x16_S4096x16 = x1 := shapeCast_self _ _
  have e2 : shapeCast S4096x392 x2 shapeCasts_S4096x392_S4096x392 = x2 := shapeCast_self _ _
  have e3 : shapeCast S440x256 x3 shapeCasts_S440x256_S440x256 = x3 := shapeCast_self _ _
  have e4 : shapeCast S1x256 x4 shapeCasts_S1x256_S1x256 = x4 := shapeCast_self _ _
  simp only [e3, e4]
  refine (addf_apply _ _ _).trans ?_
  refine congrArg₂ (· + ·) ?_ ?_
  · -- the product into the zero accumulator: the sum over the 440 columns
    refine (PlainDot.matmul_zero_apply dot1_plain none _ _ p j).trans ?_
    refine Finset.sum_congr rfl fun k _ => ?_
    refine congrArg₂ (· * ·) ?_ rfl
    refine (truncf_apply (φ := .f32) (ψ := .bf16) _ bitsLt_bf16_f32 (ix2 p k)).trans ?_
    refine (featBlock_apply _ _ _ p k).trans ?_
    rw [e0, e1, e2]
  · -- the bias row spread over the rows
    exact Cert.Lib.RowSpread.spreadRows_apply x4 _ p j

theorem pay4_apply (x0 : Vec Ideal S4096x32 .f32) (x1 : Vec Ideal S4096x16 .f32) (x2 : Vec Ideal S4096x392 .f32)
    (x3 : Vec Ideal S440x256 .f32) (x4 : Vec Ideal S1x256 .f32) (acc : Vec Ideal S1x256 .f32) (j : Fin 256) :
    k0_pay4 x0 x1 x2 x3 x4 acc (ix2 0 j) = acc (ix2 0 j) + ∑ p : Fin 4096, k0_pay3 x0 x1 x2 x3 x4 (ix2 p j) := by
  unfold k0_pay4
  refine (addf_apply _ _ _).trans ?_
  refine congrArg₂ (· + ·) ?_ ?_
  · -- the running row, recast to its own shape
    rw [shapeCast_self]
  · -- the block's column sums as a one-row matrix
    refine (Cert.Lib.RowSpread.asRow_apply _ _ 0 j).trans ?_
    exact colSum_apply _ j

theorem pay5_apply (x0 : Vec Ideal S4096x32 .f32) (x1 : Vec Ideal S4096x16 .f32) (x2 : Vec Ideal S4096x392 .f32)
    (x3 : Vec Ideal S440x256 .f32) (x4 : Vec Ideal S1x256 .f32) (acc : Vec Ideal S1x256 .f32) (j : Fin 256) :
    k0_pay5 x0 x1 x2 x3 x4 acc (ix2 0 j)
      = acc (ix2 0 j) + ∑ p : Fin 4096, k0_pay3 x0 x1 x2 x3 x4 (ix2 p j) * k0_pay3 x0 x1 x2 x3 x4 (ix2 p j) := by
  unfold k0_pay5
  refine (addf_apply _ _ _).trans ?_
  refine congrArg₂ (· + ·) ?_ ?_
  · -- the running row, recast to its own shape
    rw [shapeCast_self]
  · -- the column sums of the block's squared entries as a one-row matrix
    refine (Cert.Lib.RowSpread.asRow_apply _ _ 0 j).trans ?_
    refine (colSum_apply _ j).trans ?_
    exact Finset.sum_congr rfl fun p _ => mulf_apply _ _ _

theorem pay1_apply (j : Fin 256) : (k0_pay1 (F := Ideal)) (ix2 0 j) = (0 : EReal) := by
  unfold k0_pay1
  exact Ideal.ofBits_zero_f32

theorem pay2_apply (j : Fin 256) : (k0_pay2 (F := Ideal)) (ix2 0 j) = (0 : EReal) := by
  unfold k0_pay2
  exact Ideal.ofBits_zero_f32

end Cert.KernelIdeal.Val

end
-- ==== Proof.LibPartialSum.lean ====
/-
  Partial sums over the first positions of a finite range.

  `upto n k` is the set of positions `b : Fin n` with `b ≤ k`. In any commutative additive monoid the sum over
  `upto n 0` is the summand at position `0`, passing from `k` to `k + 1` adds the summand at position `k + 1`, and
  once `k` reaches the last position the sum is the sum over all positions. This is what an accumulator that adds one
  term per step holds after each step, stated without reference to any order of evaluation.
-/
import Mathlib.Algebra.BigOperators.Fin

open scoped BigOperators

namespace Cert.Lib.PartialSum

variable {M : Type*} [AddCommMonoid M] {n : ℕ}

/-- The positions up to and including `k`. -/
def upto (n k : ℕ) : Finset (Fin n) := Finset.univ.filter fun b => b.val ≤ k

theorem mem_upto {k : ℕ} {b : Fin n} : b ∈ upto n k ↔ b.val ≤ k := by
  simp [upto]

/-- Up to position `0` there is one summand. -/
theorem sum_upto_zero (hn : 0 < n) (g : Fin n → M) : ∑ b ∈ upto n 0, g b = g ⟨0, hn⟩ := by
  have : upto n 0 = {⟨0, hn⟩} := by
    ext b
    rw [mem_upto, Finset.mem_singleton]
    exact ⟨fun h => Fin.ext (Nat.le_zero.mp h), fun h => by rw [h]⟩
  rw [this, Finset.sum_singleton]

/-- One more position adds its summand. -/
theorem sum_upto_succ (k : ℕ) (hk : k + 1 < n) (g : Fin n → M) :
    ∑ b ∈ upto n (k + 1), g b = ∑ b ∈ upto n k, g b + g ⟨k + 1, hk⟩ := by
  have hins : upto n (k + 1) = insert ⟨k + 1, hk⟩ (upto n k) := by
    ext b
    rw [Finset.mem_insert, mem_upto, mem_upto]
    constructor
    · intro h
      rcases Nat.lt_or_ge b.val (k + 1) with h' | h'
      · exact Or.inr (Nat.lt_succ_iff.mp h')
      · exact Or.inl (Fin.ext (Nat.le_antisymm h h'))
    · rintro (h | h)
      · rw [h]
      · exact Nat.le_succ_of_le h
  have hnot : (⟨k + 1, hk⟩ : Fin n) ∉ upto n k := by
    rw [mem_upto]; exact Nat.not_succ_le_self k
  rw [hins, Finset.sum_insert hnot, add_comm]

/-- Up to the last position the sum is the whole sum. -/
theorem sum_upto_last (k : ℕ) (hk : n ≤ k + 1) (g : Fin n → M) : ∑ b ∈ upto n k, g b = ∑ b, g b := by
  have : upto n k = Finset.univ := by
    ext b
    rw [mem_upto]
    exact ⟨fun _ => Finset.mem_univ _, fun _ => Nat.lt_succ_iff.mp (Nat.lt_of_lt_of_le b.isLt hk)⟩
  rw [this]

end Cert.Lib.PartialSum
-- ==== Proof.LibRunningSum.lean ====
/-
  An accumulator that adds one term per step holds, after each step, the sum of the terms so far.

  Let `a n` be the contents after step `n` of a run of `N` steps, and `g b` the term step `b` adds. If the first step
  leaves `g 0` and every later step leaves what was there plus its own term, then `a n` is the sum of `g` over the
  steps up to `n`: by induction on `n`. Stated over any commutative additive monoid and any length `N`, so that it is
  used at a grid's size without that size ever being computed.
-/
import proofs.«162343_j80882824118683_1_alg».proof.Proof.LibPartialSum

open scoped BigOperators

namespace Cert.Lib.RunningSum

open Cert.Lib.PartialSum

variable {M : Type*} [AddCommMonoid M] {N : ℕ}

theorem eq_sum_upto (a : (n : ℕ) → n < N → M) (g : Fin N → M) (h0 : ∀ h : 0 < N, a 0 h = g ⟨0, h⟩)
    (hs : ∀ (n : ℕ) (h : n + 1 < N), a (n + 1) h = a n (Nat.lt_of_succ_lt h) + g ⟨n + 1, h⟩) :
    ∀ (n : ℕ) (h : n < N), a n h = ∑ b ∈ upto N n, g b
  | 0, h => by rw [sum_upto_zero h, h0 h]
  | n + 1, h => by rw [sum_upto_succ n h, hs n h, eq_sum_upto a g h0 hs n (Nat.lt_of_succ_lt h)]

end Cert.Lib.RunningSum
-- ==== Proof.KRegion0.lean ====
/-
  What the first launch's output buffers hold after each grid point: the block of the first layer's output at that
  point, and in the two accumulator rows the column sums (of the entries, of their squares) over all the rows of the
  points so far — by induction on the point.
-/
import proofs.«162343_j80882824118683_1_alg».proof.Proof.KNames
import proofs.«162343_j80882824118683_1_alg».proof.Proof.KPieces
import proofs.«162343_j80882824118683_1_alg».proof.Proof.KPay0
import proofs.«162343_j80882824118683_1_alg».proof.Proof.LibRunningSum

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- After point `t` the first output's buffer holds the first layer's output on that point's rows. -/
theorem outs5 (c : Dev nD) (t : Fin cfg0.N) : (outsAt0 (V3 m ρ) c t.val t.isLt).1 = h1Blk m ρ c t := by
  by_cases h0 : t.val % 16 = 0
  · rw [outsAt0_A (V3 m ρ) c t h0]
    dsimp only
    exact out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (sBlk m ρ c t) (cBlk m ρ c t) (xBlk m ρ c t) (w1tBlk m ρ c t) (b1rBlk m ρ c t)
  · rw [outsAt0_B (V3 m ρ) c t h0]
    dsimp only
    exact out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (sBlk m ρ c t) (cBlk m ρ c t) (xBlk m ρ c t) (w1tBlk m ρ c t) (b1rBlk m ρ c t) (outsAt0 (V3 m ρ) c (t.val - 1) (Nat.lt_of_le_of_lt (Nat.sub_le _ _) t.isLt)).2.1 (outsAt0 (V3 m ρ) c (t.val - 1) (Nat.lt_of_le_of_lt (Nat.sub_le _ _) t.isLt)).2.2

/-- At the first point the second output's row is, per column, this block's column sum: the zero row plus it. -/
theorem row6_first (c : Dev nD) (t : Fin cfg0.N) (h0 : t.val % 16 = 0) (j : Fin 256) :
    (outsAt0 (V3 m ρ) c t.val t.isLt).2.1 (ix2 0 j) = ∑ p : Fin 4096, h1Blk m ρ c t (ix2 p j) := by
  rw [outsAt0_A (V3 m ρ) c t h0]
  dsimp only
  refine (congrFun (out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (sBlk m ρ c t) (cBlk m ρ c t) (xBlk m ρ c t) (w1tBlk m ρ c t) (b1rBlk m ρ c t)) (ix2 0 j)).trans ?_
  refine (pay4_apply (sBlk m ρ c t) (cBlk m ρ c t) (xBlk m ρ c t) (w1tBlk m ρ c t) (b1rBlk m ρ c t) (k0_pay1 (F := Ideal)) j).trans ?_
  rw [pay1_apply, zero_add]

/-- At a later point it is what the point before left plus this block's column sum. -/
theorem row6_next (c : Dev nD) (t : Fin cfg0.N) (h0 : ¬t.val % 16 = 0) (j : Fin 256) :
    (outsAt0 (V3 m ρ) c t.val t.isLt).2.1 (ix2 0 j)
      = (outsAt0 (V3 m ρ) c (t.val - 1) (Nat.lt_of_le_of_lt (Nat.sub_le _ _) t.isLt)).2.1 (ix2 0 j) + ∑ p : Fin 4096, h1Blk m ρ c t (ix2 p j) := by
  rw [outsAt0_B (V3 m ρ) c t h0]
  dsimp only
  refine (congrFun (out0_B_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (sBlk m ρ c t) (cBlk m ρ c t) (xBlk m ρ c t) (w1tBlk m ρ c t) (b1rBlk m ρ c t) (outsAt0 (V3 m ρ) c (t.val - 1) (Nat.lt_of_le_of_lt (Nat.sub_le _ _) t.isLt)).2.1 (outsAt0 (V3 m ρ) c (t.val - 1) (Nat.lt_of_le_of_lt (Nat.sub_le _ _) t.isLt)).2.2) (ix2 0 j)).trans ?_
  exact pay4_apply (sBlk m ρ c t) (cBlk m ρ c t) (xBlk m ρ c t) (w1tBlk m ρ c t) (b1rBlk m ρ c t) (outsAt0 (V3 m ρ) c (t.val - 1) (Nat.lt_of_le_of_lt (Nat.sub_le _ _) t.isLt)).2.1 j

/-- At the first point the third output's row is, per column, this block's column sum of squares. -/
theorem row7_first (c : Dev nD) (t : Fin cfg0.N) (h0 : t.val % 16 = 0) (j : Fin 256) :
    (outsAt0 (V3 m ρ) c t.val t.isLt).2.2 (ix2 0 j)
      = ∑ p : Fin 4096, h1Blk m ρ c t (ix2 p j) * h1Blk m ρ c t (ix2 p j) := by
  rw [outsAt0_A (V3 m ρ) c t h0]
  dsimp only
  refine (congrFun (out0_A_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (sBlk m ρ c t) (cBlk m ρ c t) (xBlk m ρ c t) (w1tBlk m ρ c t) (b1rBlk m ρ c t)) (ix2 0 j)).trans ?_
  refine (pay5_apply (sBlk m ρ c t) (cBlk m ρ c t) (xBlk m ρ c t) (w1tBlk m ρ c t) (b1rBlk m ρ c t) (k0_pay2 (F := Ideal)) j).trans ?_
  rw [pay2_apply, zero_add]

/-- At a later point it is what the point before left plus this block's column sum of squares. -/
theorem row7_next (c : Dev nD) (t : Fin cfg0.N) (h0 : ¬t.val % 16 = 0) (j : Fin 256) :
    (outsAt0 (V3 m ρ) c t.val t.isLt).2.2 (ix2 0 j)
      = (outsAt0 (V3 m ρ) c (t.val - 1) (Nat.lt_of_le_of_lt (Nat.sub_le _ _) t.isLt)).2.2 (ix2 0 j) + ∑ p : Fin 4096, h1Blk m ρ c t (ix2 p j) * h1Blk m ρ c t (ix2 p j) := by
  rw [outsAt0_B (V3 m ρ) c t h0]
  dsimp only
  refine (congrFun (out0_B_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (sBlk m ρ c t) (cBlk m ρ c t) (xBlk m ρ c t) (w1tBlk m ρ c t) (b1rBlk m ρ c t) (outsAt0 (V3 m ρ) c (t.val - 1) (Nat.lt_of_le_of_lt (Nat.sub_le _ _) t.isLt)).2.1 (outsAt0 (V3 m ρ) c (t.val - 1) (Nat.lt_of_le_of_lt (Nat.sub_le _ _) t.isLt)).2.2) (ix2 0 j)).trans ?_
  exact pay5_apply (sBlk m ρ c t) (cBlk m ρ c t) (xBlk m ρ c t) (w1tBlk m ρ c t) (b1rBlk m ρ c t) (outsAt0 (V3 m ρ) c (t.val - 1) (Nat.lt_of_le_of_lt (Nat.sub_le _ _) t.isLt)).2.2 j

/-- Only the first of the sixteen points resets the rows: a later point's number is not a multiple of 16. -/
theorem later_point (n : ℕ) (h : n + 1 < cfg0.N) : ¬(⟨n + 1, h⟩ : Fin cfg0.N).val % 16 = 0 := by
  have hN : cfg0.N = 16 := N_0
  dsimp only
  omega

/-- After point `t` the second output's row holds, per column, the sum over the rows of the points up to `t`. -/
theorem outs6 (c : Dev nD) (t : Fin cfg0.N) (j : Fin 256) :
    (outsAt0 (V3 m ρ) c t.val t.isLt).2.1 (ix2 0 j)
      = ∑ t' ∈ Finset.univ.filter (fun t' : Fin cfg0.N => t'.val ≤ t.val), ∑ p : Fin 4096, h1Blk m ρ c t' (ix2 p j) := by
  exact Cert.Lib.RunningSum.eq_sum_upto (N := cfg0.N)
    (fun n h => (outsAt0 (V3 m ρ) c n h).2.1 (ix2 0 j))
    (fun t' => ∑ p : Fin 4096, h1Blk m ρ c t' (ix2 p j))
    (fun h => row6_first m ρ c ⟨0, h⟩ (Nat.zero_mod 16) j)
    (fun n h => row6_next m ρ c ⟨n + 1, h⟩ (later_point n h) j) t.val t.isLt

/-- After point `t` the third output's row holds, per column, the sum of squares over the rows of the points up to `t`. -/
theorem outs7 (c : Dev nD) (t : Fin cfg0.N) (j : Fin 256) :
    (outsAt0 (V3 m ρ) c t.val t.isLt).2.2 (ix2 0 j)
      = ∑ t' ∈ Finset.univ.filter (fun t' : Fin cfg0.N => t'.val ≤ t.val),
          ∑ p : Fin 4096, h1Blk m ρ c t' (ix2 p j) * h1Blk m ρ c t' (ix2 p j) := by
  exact Cert.Lib.RunningSum.eq_sum_upto (N := cfg0.N)
    (fun n h => (outsAt0 (V3 m ρ) c n h).2.2 (ix2 0 j))
    (fun t' => ∑ p : Fin 4096, h1Blk m ρ c t' (ix2 p j) * h1Blk m ρ c t' (ix2 p j))
    (fun h => row7_first m ρ c ⟨0, h⟩ (Nat.zero_mod 16) j)
    (fun n h => row7_next m ρ c ⟨n + 1, h⟩ (later_point n h) j) t.val t.isLt

end Cert.KernelIdeal.Val

end
-- ==== Proof.LibBlockSum.lean ====
/-
  A finite sum taken block by block.

  `N = a * b` positions are cut into `a` consecutive blocks of `b` positions each: position `q` of block `t` is
  position `t * b + q` (`blockRow`). In any commutative additive monoid the sum of a function over all `N` positions is
  the sum, over the blocks, of its sums over each block's positions (`sum_fin_blocks`): the bijection
  `Fin a × Fin b ≃ Fin (a * b)`, `(t, q) ↦ q + b * t`. Applied twice it cuts the rows of a row-major matrix into row
  blocks and each row into its entries. Nothing is asked of the summands: on the extended reals, whose addition is
  commutative and associative at the infinities too, this re-groups a sum of any values. Generic in the sizes and in the
  monoid. Last, a reshape re-arranges a vector's entries bijectively, so it does not change their sum (`sum_shapeCast`).
-/
import Idealize.ShloMosaic.Lib.ValueIdx
import Mathlib.Algebra.BigOperators.Fin
import Mathlib.Logic.Equiv.Fin.Basic

open scoped BigOperators

namespace Cert.Lib.BlockSum

open Idealize.ShloMosaic Idealize.ShloMosaic.ValueIdx

/-- Row `q` of row block `t`, among the `N = a * b` rows: row `t * b + q`. -/
def blockRow {N a b : ℕ} (hN : N = a * b) (t : Fin a) (q : Fin b) : Fin N :=
  ⟨t.val * b + q.val, by
    subst hN
    calc t.val * b + q.val < t.val * b + b := Nat.add_lt_add_left q.isLt _
      _ = (t.val + 1) * b := (Nat.succ_mul _ _).symm
      _ ≤ a * b := Nat.mul_le_mul_right _ t.isLt⟩

@[simp] theorem blockRow_val {N a b : ℕ} (hN : N = a * b) (t : Fin a) (q : Fin b) :
    (blockRow hN t q).val = t.val * b + q.val := rfl

/-- A sum over `a * b` positions is the sum over the `a` blocks of the sums over each block's `b` positions. -/
theorem sum_fin_blocks {M : Type*} [AddCommMonoid M] {N a b : ℕ} (hN : N = a * b) (f : Fin N → M) :
    ∑ r, f r = ∑ t : Fin a, ∑ q : Fin b, f (blockRow hN t q) := by
  subst hN
  rw [← Equiv.sum_comp finProdFinEquiv f, Fintype.sum_prod_type]
  refine Finset.sum_congr rfl fun t _ => Finset.sum_congr rfl fun q _ => congrArg f (Fin.ext ?_)
  show q.val + b * t.val = t.val * b + q.val
  rw [Nat.mul_comm, Nat.add_comm]

/-- A reshape only re-arranges: the sum over a reshaped vector's entries is the sum over the vector's entries (each entry of
    the result is the operand's entry at the same row-major position, a bijection of the two index sets). -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

end Cert.Lib.BlockSum
-- ==== Proof.KBlocks.lean ====
/-
  The block reads of both launches of the idealized kernel program: a window's block at grid point `t`, read at an
  entry, is the window's array at the entry's place in the array. The row windows (the three gathered pieces and the
  first layer's output) cut the 65536 rows into 16 consecutive blocks of 4096 rows: entry `(p, k)` of block `t` is
  entry `(4096 t + p, k)` of the array. Every other window is the whole array at every point. A block's coordinate
  on an axis is the window's block index there times the block's size plus the coordinate inside the block; the block
  indices are decided once over the sixteen grid points.
-/
import proofs.«162343_j80882824118683_1_alg».proof.Proof.KNames
import proofs.«162343_j80882824118683_1_alg».proof.Proof.LibBlockSum
import Idealize.ShloMosaic.Lib.Pipeline.Value
import Idealize.ShloMosaic.Lib.ValueIdx

noncomputable section

namespace Cert.KernelIdeal.Val

open Idealize.ShloMosaic Idealize.ShloMosaic.ValueIdx Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## Grid points and rows -/

/-- A grid point of the first launch as a number below 16. -/
def tOf0 (t : Fin cfg0.N) : Fin 16 := ⟨t.val, Nat.lt_of_lt_of_eq t.isLt N_0⟩
/-- A grid point of the second launch as a number below 16. -/
def tOf1 (t : Fin cfg1.N) : Fin 16 := ⟨t.val, Nat.lt_of_lt_of_eq t.isLt N_1⟩

/-- Row `p` of the row block of point `t` of the first launch: row `4096 t + p` of the 65536. -/
def row0 (t : Fin cfg0.N) (p : Fin 4096) : Fin 65536 :=
  Cert.Lib.BlockSum.blockRow (N := 65536) (a := 16) (b := 4096) (by norm_num) (tOf0 t) p
theorem row0_val (t : Fin cfg0.N) (p : Fin 4096) : (row0 t p).val = t.val * 4096 + p.val := rfl
/-- Row `p` of the row block of point `t` of the second launch: row `4096 t + p` of the 65536. -/
def row1 (t : Fin cfg1.N) (p : Fin 4096) : Fin 65536 :=
  Cert.Lib.BlockSum.blockRow (N := 65536) (a := 16) (b := 4096) (by norm_num) (tOf1 t) p
theorem row1_val (t : Fin cfg1.N) (p : Fin 4096) : (row1 t p).val = t.val * 4096 + p.val := rfl

/-! ## The windows' block indices, decided over the sixteen points -/

/-! The row windows: block `t` on the rows, block 0 on the columns. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx1_0 : ∀ t : Fin cfg1.N, win1_0.index t 0 = t.val ∧ win1_0.index t 1 = 0 :=
  (by decide +kernel : ∀ t : Fin grid1.N, win1_0.index t 0 = t.val ∧ win1_0.index t 1 = 0)

/-! The whole-array windows: block 0 on both axes. -/
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = 0 ∧ win1_6.index t 1 = 0 :=
  (by decide +kernel : ∀ t : Fin grid1.N, win1_6.index t 0 = 0 ∧ win1_6.index t 1 = 0)
theorem idx1_7 : ∀ t : Fin cfg1.N, win1_7.index t 0 = 0 ∧ win1_7.index t 1 = 0 :=
  (by decide +kernel : ∀ t : Fin grid1.N, win1_7.index t 0 = 0 ∧ win1_7.index t 1 = 0)
theorem idx1_8 : ∀ t : Fin cfg1.N, win1_8.index t 0 = 0 ∧ win1_8.index t 1 = 0 :=
  (by decide +kernel : ∀ t : Fin grid1.N, win1_8.index t 0 = 0 ∧ win1_8.index t 1 = 0)
theorem idx1_9 : ∀ t : Fin cfg1.N, win1_9.index t 0 = 0 ∧ win1_9.index t 1 = 0 :=
  (by decide +kernel : ∀ t : Fin grid1.N, win1_9.index t 0 = 0 ∧ win1_9.index t 1 = 0)
theorem idx1_10 : ∀ t : Fin cfg1.N, win1_10.index t 0 = 0 ∧ win1_10.index t 1 = 0 :=
  (by decide +kernel : ∀ t : Fin grid1.N, win1_10.index t 0 = 0 ∧ win1_10.index t 1 = 0)

/-! ## The first launch -/

theorem sBlk_apply (c : Dev nD) (t : Fin cfg0.N) (p : Fin 4096) (k : Fin 32) :
    sBlk m ρ c t (ix2 p k) = sArr m ρ c (ix2 (row0 t p) k) := by
  show iblk0 (V3 m ρ) c 0 t (ix2 p k) = _
  unfold iblk0
  rw [View.read_apply]
  show V3 m ρ c main_v15 _ = V3 m ρ c main_v15 _
  congr 1
  funext a
  apply Fin.ext
  match a with
  | ⟨0, _⟩ => show win0_0.index t 0 * 4096 + 1 * p.val = t.val * 4096 + p.val; rw [(idx0_0 t).1]; omega
  | ⟨1, _⟩ => show win0_0.index t 1 * 32 + 1 * k.val = k.val; rw [(idx0_0 t).2]; omega

theorem cBlk_apply (c : Dev nD) (t : Fin cfg0.N) (p : Fin 4096) (k : Fin 16) :
    cBlk m ρ c t (ix2 p k) = cArr m ρ c (ix2 (row0 t p) k) := by
  show iblk0 (V3 m ρ) c 1 t (ix2 p k) = _
  unfold iblk0
  rw [View.read_apply]
  show V3 m ρ c main_v22 _ = V3 m ρ c main_v22 _
  congr 1
  funext a
  apply Fin.ext
  match a with
  | ⟨0, _⟩ => show win0_1.index t 0 * 4096 + 1 * p.val = t.val * 4096 + p.val; rw [(idx0_1 t).1]; omega
  | ⟨1, _⟩ => show win0_1.index t 1 * 16 + 1 * k.val = k.val; rw [(idx0_1 t).2]; omega

theorem xBlk_apply (c : Dev nD) (t : Fin cfg0.N) (p : Fin 4096) (k : Fin 392) :
    xBlk m ρ c t (ix2 p k) = xArr m ρ c (ix2 (row0 t p) k) := by
  show iblk0 (V3 m ρ) c 2 t (ix2 p k) = _
  unfold iblk0
  rw [View.read_apply]
  show V3 m ρ c main_v8 _ = V3 m ρ c main_v8 _
  congr 1
  funext a
  apply Fin.ext
  match a with
  | ⟨0, _⟩ => show win0_2.index t 0 * 4096 + 1 * p.val = t.val * 4096 + p.val; rw [(idx0_2 t).1]; omega
  | ⟨1, _⟩ => show win0_2.index t 1 * 392 + 1 * k.val = k.val; rw [(idx0_2 t).2]; omega

theorem w1tBlk_eq (c : Dev nD) (t : Fin cfg0.N) : w1tBlk m ρ c t = w1tArr m ρ c := by
  funext y
  obtain ⟨p, k, rfl⟩ : ∃ (p : Fin 440) (k : Fin 256), y = ix2 p k := ⟨y 0, y 1, eq_ix2 y⟩
  show iblk0 (V3 m ρ) c 3 t (ix2 p k) = _
  unfold iblk0
  rw [View.read_apply]
  show V3 m ρ c main_v23 _ = V3 m ρ c main_v23 _
  congr 1
  funext a
  apply Fin.ext
  match a with
  | ⟨0, _⟩ => show win0_3.index t 0 * 440 + 1 * p.val = p.val; rw [(idx0_3 t).1]; omega
  | ⟨1, _⟩ => show win0_3.index t 1 * 256 + 1 * k.val = k.val; rw [(idx0_3 t).2]; omega

theorem b1rBlk_eq (c : Dev nD) (t : Fin cfg0.N) : b1rBlk m ρ c t = b1rArr m ρ c := by
  funext y
  obtain ⟨p, k, rfl⟩ : ∃ (p : Fin 1) (k : Fin 256), y = ix2 p k := ⟨y 0, y 1, eq_ix2 y⟩
  show iblk0 (V3 m ρ) c 4 t (ix2 p k) = _
  unfold iblk0
  rw [View.read_apply]
  show V3 m ρ c main_v24 _ = V3 m ρ c main_v24 _
  congr 1
  funext a
  apply Fin.ext
  match a with
  | ⟨0, _⟩ => show win0_4.index t 0 * 1 + 1 * p.val = p.val; rw [(idx0_4 t).1]; omega
  | ⟨1, _⟩ => show win0_4.index t 1 * 256 + 1 * k.val = k.val; rw [(idx0_4 t).2]; omega

/-! ## The second launch -/

theorem h1InBlk_apply (c : Dev nD) (t : Fin cfg1.N) (p : Fin 4096) (j : Fin 256) :
    h1InBlk m ρ c t (ix2 p j) = h1In m ρ c (ix2 (row1 t p) j) := by
  show iblk1 (V5 m ρ) c 0 t (ix2 p j) = _
  unfold iblk1
  rw [View.read_apply]
  show V5 m ρ c main_v33_0 _ = V5 m ρ c main_v33_0 _
  congr 1
  funext a
  apply Fin.ext
  match a with
  | ⟨0, _⟩ => show win1_0.index t 0 * 4096 + 1 * p.val = t.val * 4096 + p.val; rw [(idx1_0 t).1]; omega
  | ⟨1, _⟩ => show win1_0.index t 1 * 256 + 1 * j.val = j.val; rw [(idx1_0 t).2]; omega

theorem meanBlk_eq (c : Dev nD) (t : Fin cfg1.N) : meanBlk m ρ c t = meanArr m ρ c := by
  funext y
  obtain ⟨p, k, rfl⟩ : ∃ (p : Fin 1) (k : Fin 256), y = ix2 p k := ⟨y 0, y 1, eq_ix2 y⟩
  show iblk1 (V5 m ρ) c 1 t (ix2 p k) = _
  unfold iblk1
  rw [View.read_apply]
  show V5 m ρ c main_v35 _ = V5 m ρ c main_v35 _
  congr 1
  funext a
  apply Fin.ext
  match a with
  | ⟨0, _⟩ => show win1_1.index t 0 * 1 + 1 * p.val = p.val; rw [(idx1_1 t).1]; omega
  | ⟨1, _⟩ => show win1_1.index t 1 * 256 + 1 * k.val = k.val; rw [(idx1_1 t).2]; omega

theorem varBlk_eq (c : Dev nD) (t : Fin cfg1.N) : varBlk m ρ c t = varArr m ρ c := by
  funext y
  obtain ⟨p, k, rfl⟩ : ∃ (p : Fin 1) (k : Fin 256), y = ix2 p k := ⟨y 0, y 1, eq_ix2 y⟩
  show iblk1 (V5 m ρ) c 2 t (ix2 p k) = _
  unfold iblk1
  rw [View.read_apply]
  show V5 m ρ c main_v39 _ = V5 m ρ c main_v39 _
  congr 1
  funext a
  apply Fin.ext
  match a with
  | ⟨0, _⟩ => show win1_2.index t 0 * 1 + 1 * p.val = p.val; rw [(idx1_2 t).1]; omega
  | ⟨1, _⟩ => show win1_2.index t 1 * 256 + 1 * k.val = k.val; rw [(idx1_2 t).2]; omega

theorem gamBlk_eq (c : Dev nD) (t : Fin cfg1.N) : gamBlk m ρ c t = gamArr m ρ c := by
  funext y
  obtain ⟨p, k, rfl⟩ : ∃ (p : Fin 1) (k : Fin 256), y = ix2 p k := ⟨y 0, y 1, eq_ix2 y⟩
  show iblk1 (V5 m ρ) c 3 t (ix2 p k) = _
  unfold iblk1
  rw [View.read_apply]
  show V5 m ρ c main_v25 _ = V5 m ρ c main_v25 _
  congr 1
  funext a
  apply Fin.ext
  match a with
  | ⟨0, _⟩ => show win1_3.index t 0 * 1 + 1 * p.val = p.val; rw [(idx1_3 t).1]; omega
  | ⟨1, _⟩ => show win1_3.index t 1 * 256 + 1 * k.val = k.val; rw [(idx1_3 t).2]; omega

theorem betBlk_eq (c : Dev nD) (t : Fin cfg1.N) : betBlk m ρ c t = betArr m ρ c := by
  funext y
  obtain ⟨p, k, rfl⟩ : ∃ (p : Fin 1) (k : Fin 256), y = ix2 p k := ⟨y 0, y 1, eq_ix2 y⟩
  show iblk1 (V5 m ρ) c 4 t (ix2 p k) = _
  unfold iblk1
  rw [View.read_apply]
  show V5 m ρ c main_v26 _ = V5 m ρ c main_v26 _
  congr 1
  funext a
  apply Fin.ext
  match a with
  | ⟨0, _⟩ => show win1_4.index t 0 * 1 + 1 * p.val = p.val; rw [(idx1_4 t).1]; omega
  | ⟨1, _⟩ => show win1_4.index t 1 * 256 + 1 * k.val = k.val; rw [(idx1_4 t).2]; omega

theorem w2tBlk_eq (c : Dev nD) (t : Fin cfg1.N) : w2tBlk m ρ c t = w2tArr m ρ c := by
  funext y
  obtain ⟨p, k, rfl⟩ : ∃ (p : Fin 256) (k : Fin 64), y = ix2 p k := ⟨y 0, y 1, eq_ix2 y⟩
  show iblk1 (V5 m ρ) c 5 t (ix2 p k) = _
  unfold iblk1
  rw [View.read_apply]
  show V5 m ρ c main_v27 _ = V5 m ρ c main_v27 _
  congr 1
  funext a
  apply Fin.ext
  match a with
  | ⟨0, _⟩ => show win1_5.index t 0 * 256 + 1 * p.val = p.val; rw [(idx1_5 t).1]; omega
  | ⟨1, _⟩ => show win1_5.index t 1 * 64 + 1 * k.val = k.val; rw [(idx1_5 t).2]; omega

theorem b2rBlk_eq (c : Dev nD) (t : Fin cfg1.N) : b2rBlk m ρ c t = b2rArr m ρ c := by
  funext y
  obtain ⟨p, k, rfl⟩ : ∃ (p : Fin 1) (k : Fin 64), y = ix2 p k := ⟨y 0, y 1, eq_ix2 y⟩
  show iblk1 (V5 m ρ) c 6 t (ix2 p k) = _
  unfold iblk1
  rw [View.read_apply]
  show V5 m ρ c main_v28 _ = V5 m ρ c main_v28 _
  congr 1
  funext a
  apply Fin.ext
  match a with
  | ⟨0, _⟩ => show win1_6.index t 0 * 1 + 1 * p.val = p.val; rw [(idx1_6 t).1]; omega
  | ⟨1, _⟩ => show win1_6.index t 1 * 64 + 1 * k.val = k.val; rw [(idx1_6 t).2]; omega

theorem w3tBlk_eq (c : Dev nD) (t : Fin cfg1.N) : w3tBlk m ρ c t = w3tArr m ρ c := by
  funext y
  obtain ⟨p, k, rfl⟩ : ∃ (p : Fin 64) (k : Fin 16), y = ix2 p k := ⟨y 0, y 1, eq_ix2 y⟩
  show iblk1 (V5 m ρ) c 7 t (ix2 p k) = _
  unfold iblk1
  rw [View.read_apply]
  show V5 m ρ c main_v29 _ = V5 m ρ c main_v29 _
  congr 1
  funext a
  apply Fin.ext
  match a with
  | ⟨0, _⟩ => show win1_7.index t 0 * 64 + 1 * p.val = p.val; rw [(idx1_7 t).1]; omega
  | ⟨1, _⟩ => show win1_7.index t 1 * 16 + 1 * k.val = k.val; rw [(idx1_7 t).2]; omega

theorem b3rBlk_eq (c : Dev nD) (t : Fin cfg1.N) : b3rBlk m ρ c t = b3rArr m ρ c := by
  funext y
  obtain ⟨p, k, rfl⟩ : ∃ (p : Fin 1) (k : Fin 16), y = ix2 p k := ⟨y 0, y 1, eq_ix2 y⟩
  show iblk1 (V5 m ρ) c 8 t (ix2 p k) = _
  unfold iblk1
  rw [View.read_apply]
  show V5 m ρ c main_v30 _ = V5 m ρ c main_v30 _
  congr 1
  funext a
  apply Fin.ext
  match a with
  | ⟨0, _⟩ => show win1_8.index t 0 * 1 + 1 * p.val = p.val; rw [(idx1_8 t).1]; omega
  | ⟨1, _⟩ => show win1_8.index t 1 * 16 + 1 * k.val = k.val; rw [(idx1_8 t).2]; omega

theorem w4tBlk_eq (c : Dev nD) (t : Fin cfg1.N) : w4tBlk m ρ c t = w4tArr m ρ c := by
  funext y
  obtain ⟨p, k, rfl⟩ : ∃ (p : Fin 16) (k : Fin 1), y = ix2 p k := ⟨y 0, y 1, eq_ix2 y⟩
  show iblk1 (V5 m ρ) c 9 t (ix2 p k) = _
  unfold iblk1
  rw [View.read_apply]
  show V5 m ρ c main_v31 _ = V5 m ρ c main_v31 _
  congr 1
  funext a
  apply Fin.ext
  match a with
  | ⟨0, _⟩ => show win1_9.index t 0 * 16 + 1 * p.val = p.val; rw [(idx1_9 t).1]; omega
  | ⟨1, _⟩ => show win1_9.index t 1 * 1 + 1 * k.val = k.val; rw [(idx1_9 t).2]; omega

theorem b4rBlk_eq (c : Dev nD) (t : Fin cfg1.N) : b4rBlk m ρ c t = b4rArr m ρ c := by
  funext y
  obtain ⟨p, k, rfl⟩ : ∃ (p : Fin 1) (k : Fin 1), y = ix2 p k := ⟨y 0, y 1, eq_ix2 y⟩
  show iblk1 (V5 m ρ) c 10 t (ix2 p k) = _
  unfold iblk1
  rw [View.read_apply]
  show V5 m ρ c main_v32 _ = V5 m ρ c main_v32 _
  congr 1
  funext a
  apply Fin.ext
  match a with
  | ⟨0, _⟩ => show win1_10.index t 0 * 1 + 1 * p.val = p.val; rw [(idx1_10 t).1]; omega
  | ⟨1, _⟩ => show win1_10.index t 1 * 1 + 1 * k.val = k.val; rw [(idx1_10 t).2]; omega

end Cert.KernelIdeal.Val

end
-- ==== Proof.KArr0.lean ====
/-
  The three arrays the first launch leaves, read at an entry: the first layer's output at (row, column) is the
  row's features against the weight plus the bias; the two one-row arrays hold the column sums over all 65536 rows
  (of the entries, of their squares).

  The first output is written back block by block: the block of grid point `t` is rows `4096 t … 4096 t + 4095`,
  and what the point writes is the first layer's output on those rows, so every block is the restriction of ONE
  function of the whole arrays (`h1G`); row `r` lies in the block of point `r / 4096`, the sixteen blocks cover the
  array, and the array ends holding that function. The two one-row outputs are written back once, after the last
  point, when their buffers hold the sums over the rows of all sixteen points; a sum over the points of the sums over
  each point's 4096 rows is the sum over all 65536 rows (the rows are cut into consecutive blocks), and the one block
  written is the whole one-row array.
-/
import proofs.«162343_j80882824118683_1_alg».proof.Proof.KNames
import proofs.«162343_j80882824118683_1_alg».proof.Proof.KRegion0
import proofs.«162343_j80882824118683_1_alg».proof.Proof.KPay0
import proofs.«162343_j80882824118683_1_alg».proof.Proof.KBlocks
import proofs.«162343_j80882824118683_1_alg».proof.Proof.LibBlockSum
import proofs.«162343_j80882824118683_1_alg».proof.Proof.LibPartialSum

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

namespace Arr0

/-- The printed index maps over the grid: the row-tiled output moves with the point, the two one-row outputs stay. -/
theorem out_idx_facts : ∀ t : Fin cfg0.N,
    win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Two feature rows agree entrywise when their three pieces do. -/
theorem feat_congr {n n' : ℕ} (s : Fin n → Fin 32 → EReal) (c : Fin n → Fin 16 → EReal) (x : Fin n → Fin 392 → EReal)
    (s' : Fin n' → Fin 32 → EReal) (c' : Fin n' → Fin 16 → EReal) (x' : Fin n' → Fin 392 → EReal) (r : Fin n) (r' : Fin n')
    (hs : ∀ k, s r k = s' r' k) (hc : ∀ k, c r k = c' r' k) (hx : ∀ k, x r k = x' r' k) (k : Fin 440) :
    Cert.Spec.feat s c x r k = Cert.Spec.feat s' c' x' r' k := by
  unfold Cert.Spec.feat
  split_ifs
  · exact hs _
  · exact hc _
  · exact hx _

/-- The first layer on a row of a block is the first layer on the matching row of the whole arrays. -/
theorem lin1Row_blk {n n' : ℕ} (s : Fin n → Fin 32 → EReal) (c : Fin n → Fin 16 → EReal) (x : Fin n → Fin 392 → EReal)
    (s' : Fin n' → Fin 32 → EReal) (c' : Fin n' → Fin 16 → EReal) (x' : Fin n' → Fin 392 → EReal)
    (W W' : Fin 256 → Fin 440 → EReal) (b b' : Fin 256 → EReal) (r : Fin n) (r' : Fin n')
    (hs : ∀ k, s r k = s' r' k) (hc : ∀ k, c r k = c' r' k) (hx : ∀ k, x r k = x' r' k)
    (hW : ∀ j k, W j k = W' j k) (hb : ∀ j, b j = b' j) (j : Fin 256) :
    Cert.Spec.lin1Row (Cert.Spec.feat s c x r) W b j = Cert.Spec.lin1 (Cert.Spec.feat s' c' x') W' b' r' j := by
  obtain rfl : W = W' := funext fun j => funext fun k => hW j k
  obtain rfl : b = b' := funext hb
  unfold Cert.Spec.lin1
  exact congrArg (fun f => Cert.Spec.lin1Row f W b j) (funext (feat_congr s c x s' c' x' r r' hs hc hx))

/-- The first layer's output on every row, as one function of the whole arrays. -/
def h1G (c : Dev nD) : Vec Ideal S65536x256 .f32 := fun i =>
  Cert.Spec.lin1 (Cert.Spec.feat (fun r k => sArr m ρ c (ix2 r k)) (fun r k => cArr m ρ c (ix2 r k)) (fun r k => xArr m ρ c (ix2 r k)))
    (fun j k => w1tArr m ρ c (ix2 k j)) (fun j => b1rArr m ρ c (ix2 0 j)) ⟨(i 0).val, (i 0).isLt⟩ ⟨(i 1).val, (i 1).isLt⟩

/-- The block of point `t` at row `p` is the first layer's output at row `p` of row block `t`. -/
theorem h1Blk_apply (c : Dev nD) (t : Fin cfg0.N) (p : Fin 4096) (j : Fin 256) :
    h1Blk m ρ c t (ix2 p j)
      = Cert.Spec.lin1 (Cert.Spec.feat (fun r k => sArr m ρ c (ix2 r k)) (fun r k => cArr m ρ c (ix2 r k)) (fun r k => xArr m ρ c (ix2 r k)))
          (fun j k => w1tArr m ρ c (ix2 k j)) (fun j => b1rArr m ρ c (ix2 0 j)) (row0 t p) j :=
  (pay3_apply (sBlk m ρ c t) (cBlk m ρ c t) (xBlk m ρ c t) (w1tBlk m ρ c t) (b1rBlk m ρ c t) p j).trans
    (lin1Row_blk (fun p k => sBlk m ρ c t (ix2 p k)) (fun p k => cBlk m ρ c t (ix2 p k)) (fun p k => xBlk m ρ c t (ix2 p k))
      (fun r k => sArr m ρ c (ix2 r k)) (fun r k => cArr m ρ c (ix2 r k)) (fun r k => xArr m ρ c (ix2 r k))
      (fun j k => w1tBlk m ρ c t (ix2 k j)) (fun j k => w1tArr m ρ c (ix2 k j))
      (fun j => b1rBlk m ρ c t (ix2 0 j)) (fun j => b1rArr m ρ c (ix2 0 j)) p (row0 t p)
      (fun k => sBlk_apply m ρ c t p k) (fun k => cBlk_apply m ρ c t p k) (fun k => xBlk_apply m ρ c t p k)
      (fun j k => congrFun (w1tBlk_eq m ρ c t) (ix2 k j)) (fun j => congrFun (b1rBlk_eq m ρ c t) (ix2 0 j)) j)

/-- The first layer read at two equal positions. -/
theorem lin1_idx {n : ℕ} (f : Fin n → Fin 440 → EReal) (W : Fin 256 → Fin 440 → EReal) (b : Fin 256 → EReal)
    (r r' : Fin n) (j j' : Fin 256) (hr : r.val = r'.val) (hj : j.val = j'.val) :
    Cert.Spec.lin1 f W b r j = Cert.Spec.lin1 f W b r' j' := by
  obtain rfl : r = r' := Fin.ext hr
  obtain rfl : j = j' := Fin.ext hj
  rfl

/-- Row `p` of the block of point `t` sits in the whole array at row `4096 t + p`. -/
theorem h1G_at (c : Dev nD) (t : Fin cfg0.N) (p : Fin 4096) (j : Fin 256) (i : S65536x256.Idx)
    (h0 : (i 0).val = t.val * 4096 + p.val) (h1 : (i 1).val = j.val) :
    h1Blk m ρ c t (ix2 p j) = h1G m ρ c i := by
  refine (h1Blk_apply m ρ c t p j).trans ?_
  unfold h1G
  exact lin1_idx _ _ _ _ _ _ _ (by rw [row0_val]; exact h0.symm) h1.symm

/-- What point `t` writes back of the first output is block `t` of the first layer's output on every row. -/
theorem flushed5_eq (c : Dev nD) (t : Fin cfg0.N) :
    (dat0 (V3 m ρ) c).flushed 5 t = ((cfg0.win 5).blk t).view.read (Elt Ideal) (h1G m ρ c) := by
  show (cfg0.win 5).cut (grid0.coords t) ((dat0 (V3 m ρ) c).after 5 t) = _
  rw [after0_5, outs5]
  obtain ⟨e0, e1, -⟩ := out_idx_facts t
  funext y
  rw [View.read_apply]
  show h1Blk m ρ c t ((cfg0.win 5).xinj (grid0.coords t) y) = h1G m ρ c (((cfg0.win 5).blk t).view.emb y)
  rw [eq_ix2 (n0 := 4096) (n1 := 256) ((cfg0.win 5).xinj (grid0.coords t) y)]
  refine h1G_at m ρ c t _ _ _ ?_ ?_
  · show win0_5.index t 0 * 4096 + 1 * (y 0).val = t.val * 4096 + (y 0).val
    rw [e0]; omega
  · show win0_5.index t 1 * 256 + 1 * (y 1).val = (y 1).val
    rw [e1]; omega

/-- An index of the first output's array is in point `t`'s block iff each coordinate is in the block's range. -/
theorem mem_blk5 (t : Fin cfg0.N) (i : S65536x256.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v33_0).slice (win0_5.rect t)).set ↔ _
  rw [View.set_slice_whole, Rect.mem_set_unit]
  exact Iff.rfl

/-- Row `r` lies in the block of point `r / 4096`: the sixteen row blocks cover the array. -/
theorem cover5 (i : S65536x256.Idx) : ∃ t : Fin cfg0.N, (cfg0.win 5).flush t = true ∧ i ∈ ((cfg0.win 5).blk t).view.set := by
  have hN : cfg0.N = 16 := N_0
  have hi0 : (i 0).val < 65536 := (i 0).isLt
  have hi1 : (i 1).val < 256 := (i 1).isLt
  let t : Fin cfg0.N := ⟨(i 0).val / 4096, by rw [hN]; omega⟩
  obtain ⟨e0, e1, -⟩ := out_idx_facts t
  have ht : t.val = (i 0).val / 4096 := rfl
  refine ⟨t, flush0_5 t, ?_⟩
  rw [mem_blk5]
  intro a
  match a with
  | ⟨0, _⟩ => show win0_5.index t 0 * 4096 ≤ (i 0).val ∧ (i 0).val < win0_5.index t 0 * 4096 + 4096; rw [e0, ht]; omega
  | ⟨1, _⟩ => show win0_5.index t 1 * 256 ≤ (i 1).val ∧ (i 1).val < win0_5.index t 1 * 256 + 256; rw [e1]; omega

/-- The first output's array after the launch is the first layer's output on every row. -/
theorem h1Arr_eq (c : Dev nD) : h1Arr m ρ c = h1G m ρ c :=
  (dat0 (V3 m ρ) c).arrAt_eq_of_cover 5 (h1G m ρ c) (fun t _ => flushed5_eq m ρ c t) cover5

/-- The first output's array read at (row, column). -/
theorem h1Arr_at (c : Dev nD) (r : Fin 65536) (j : Fin 256) :
    h1Arr m ρ c (ix2 r j)
      = Cert.Spec.lin1 (Cert.Spec.feat (fun r k => sArr m ρ c (ix2 r k)) (fun r k => cArr m ρ c (ix2 r k)) (fun r k => xArr m ρ c (ix2 r k)))
          (fun j k => w1tArr m ρ c (ix2 k j)) (fun j => b1rArr m ρ c (ix2 0 j)) r j := by
  rw [h1Arr_eq]
  rfl

/-- A sum over the sixteen points of the sums over each point's 4096 rows is the sum over all 65536 rows. -/
theorem sum_points_rows (f : Fin 65536 → EReal) :
    ∑ t : Fin cfg0.N, ∑ p : Fin 4096, f (row0 t p) = ∑ r : Fin 65536, f r := by
  rw [Cert.Lib.BlockSum.sum_fin_blocks (N := 65536) (a := 16) (b := 4096) (by norm_num) f]
  refine Fintype.sum_equiv (finCongr N_0) _ _ fun t => ?_
  refine Finset.sum_congr rfl fun p _ => congrArg f (Fin.ext ?_)
  rw [row0_val, Cert.Lib.BlockSum.blockRow_val]
  rfl

/-- A block's entry is the whole array's entry at the matching row. -/
theorem h1Blk_eq_h1Arr (c : Dev nD) (t : Fin cfg0.N) (p : Fin 4096) (j : Fin 256) :
    h1Blk m ρ c t (ix2 p j) = h1Arr m ρ c (ix2 (row0 t p) j) :=
  (h1Blk_apply m ρ c t p j).trans (h1Arr_at m ρ c (row0 t p) j).symm

/-- After the last point the second output's row holds the column sums over all rows. -/
theorem outs6_last (c : Dev nD) (t : Fin cfg0.N) (h15 : t.val = 15) (q : Fin 1) (j : Fin 256) :
    (outsAt0 (V3 m ρ) c t.val t.isLt).2.1 (ix2 q j) = (∑ r : Fin 65536, h1Arr m ρ c (ix2 r j) : EReal) := by
  obtain rfl : q = 0 := Subsingleton.elim _ _
  have hN : cfg0.N = 16 := N_0
  rw [outs6]
  show ∑ t' ∈ Cert.Lib.PartialSum.upto cfg0.N t.val, _ = _
  rw [Cert.Lib.PartialSum.sum_upto_last t.val (by omega), ← sum_points_rows (fun r => h1Arr m ρ c (ix2 r j))]
  exact Finset.sum_congr rfl fun t' _ => Finset.sum_congr rfl fun p _ => h1Blk_eq_h1Arr m ρ c t' p j

/-- After the last point the third output's row holds the column sums of squares over all rows. -/
theorem outs7_last (c : Dev nD) (t : Fin cfg0.N) (h15 : t.val = 15) (q : Fin 1) (j : Fin 256) :
    (outsAt0 (V3 m ρ) c t.val t.isLt).2.2 (ix2 q j)
      = (∑ r : Fin 65536, h1Arr m ρ c (ix2 r j) * h1Arr m ρ c (ix2 r j) : EReal) := by
  obtain rfl : q = 0 := Subsingleton.elim _ _
  have hN : cfg0.N = 16 := N_0
  rw [outs7]
  show ∑ t' ∈ Cert.Lib.PartialSum.upto cfg0.N t.val, _ = _
  rw [Cert.Lib.PartialSum.sum_upto_last t.val (by omega),
    ← sum_points_rows (fun r => h1Arr m ρ c (ix2 r j) * h1Arr m ρ c (ix2 r j))]
  exact Finset.sum_congr rfl fun t' _ => Finset.sum_congr rfl fun p _ => by rw [h1Blk_eq_h1Arr m ρ c t' p j]

/-- The column sums of the first layer's output over all rows, as a one-row array. -/
def sumG (c : Dev nD) : Vec Ideal S1x256 .f32 := fun i =>
  (∑ r : Fin 65536, h1Arr m ρ c (ix2 r ⟨(i 1).val, (i 1).isLt⟩) : EReal)

/-- The column sums of squares, as a one-row array. -/
def sqG (c : Dev nD) : Vec Ideal S1x256 .f32 := fun i =>
  (∑ r : Fin 65536, h1Arr m ρ c (ix2 r ⟨(i 1).val, (i 1).isLt⟩) * h1Arr m ρ c (ix2 r ⟨(i 1).val, (i 1).isLt⟩) : EReal)

/-- A one-row block `X` that agrees column by column with a one-row array `G`, read through the second output's
    window at a point, is the window's block of `G` (the block is the whole array: its index never moves). -/
theorem cut6_eq (t : Fin cfg0.N) (X G : Vec Ideal S1x256 .f32)
    (h : ∀ (q : Fin 1) (j : Fin 256) (i : S1x256.Idx), (i 1).val = j.val → X (ix2 q j) = G i) :
    (cfg0.win 6).cut (grid0.coords t) X = ((cfg0.win 6).blk t).view.read (Elt Ideal) G := by
  obtain ⟨-, -, -, e1, -⟩ := out_idx_facts t
  funext y
  rw [View.read_apply]
  show X ((cfg0.win 6).xinj (grid0.coords t) y) = G (((cfg0.win 6).blk t).view.emb y)
  rw [eq_ix2 (n0 := 1) (n1 := 256) ((cfg0.win 6).xinj (grid0.coords t) y)]
  refine h _ _ _ ?_
  show win0_6.index t 1 * 256 + 1 * (y 1).val = (y 1).val
  rw [e1]; omega

/-- The same through the third output's window. -/
theorem cut7_eq (t : Fin cfg0.N) (X G : Vec Ideal S1x256 .f32)
    (h : ∀ (q : Fin 1) (j : Fin 256) (i : S1x256.Idx), (i 1).val = j.val → X (ix2 q j) = G i) :
    (cfg0.win 7).cut (grid0.coords t) X = ((cfg0.win 7).blk t).view.read (Elt Ideal) G := by
  obtain ⟨-, -, -, -, -, e1⟩ := out_idx_facts t
  funext y
  rw [View.read_apply]
  show X ((cfg0.win 7).xinj (grid0.coords t) y) = G (((cfg0.win 7).blk t).view.emb y)
  rw [eq_ix2 (n0 := 1) (n1 := 256) ((cfg0.win 7).xinj (grid0.coords t) y)]
  refine h _ _ _ ?_
  show win0_7.index t 1 * 256 + 1 * (y 1).val = (y 1).val
  rw [e1]; omega

/-- The one-row array of column sums read at an index of column `j`. -/
theorem sumG_of_col (c : Dev nD) (j : Fin 256) (i : S1x256.Idx) (hi : (i 1).val = j.val) :
    (∑ r : Fin 65536, h1Arr m ρ c (ix2 r j) : EReal) = sumG m ρ c i := by
  obtain rfl : j = ⟨(i 1).val, (i 1).isLt⟩ := Fin.ext hi.symm
  unfold sumG
  exact Finset.sum_congr rfl fun r _ => rfl

/-- The one-row array of column sums of squares read at an index of column `j`. -/
theorem sqG_of_col (c : Dev nD) (j : Fin 256) (i : S1x256.Idx) (hi : (i 1).val = j.val) :
    (∑ r : Fin 65536, h1Arr m ρ c (ix2 r j) * h1Arr m ρ c (ix2 r j) : EReal) = sqG m ρ c i := by
  obtain rfl : j = ⟨(i 1).val, (i 1).isLt⟩ := Fin.ext hi.symm
  unfold sqG
  exact Finset.sum_congr rfl fun r _ => rfl

/-- The one write-back of the second output, at the last point, writes the column sums. -/
theorem flushed6_eq (c : Dev nD) (t : Fin cfg0.N) (hf : (cfg0.win 6).flush t = true) :
    (dat0 (V3 m ρ) c).flushed 6 t = ((cfg0.win 6).blk t).view.read (Elt Ideal) (sumG m ρ c) := by
  have hN : cfg0.N = 16 := N_0
  have h15 : t.val = 15 := by have := (flush0_6 t).mp hf; have := t.isLt; omega
  show (cfg0.win 6).cut (grid0.coords t) ((dat0 (V3 m ρ) c).after 6 t) = _
  rw [after0_6]
  exact cut6_eq t _ (sumG m ρ c) fun q j i hi => (outs6_last m ρ c t h15 q j).trans (sumG_of_col m ρ c j i hi)

/-- The one write-back of the third output, at the last point, writes the column sums of squares. -/
theorem flushed7_eq (c : Dev nD) (t : Fin cfg0.N) (hf : (cfg0.win 7).flush t = true) :
    (dat0 (V3 m ρ) c).flushed 7 t = ((cfg0.win 7).blk t).view.read (Elt Ideal) (sqG m ρ c) := by
  have hN : cfg0.N = 16 := N_0
  have h15 : t.val = 15 := by have := (flush0_7 t).mp hf; have := t.isLt; omega
  show (cfg0.win 7).cut (grid0.coords t) ((dat0 (V3 m ρ) c).after 7 t) = _
  rw [after0_7]
  exact cut7_eq t _ (sqG m ρ c) fun q j i hi => (outs7_last m ρ c t h15 q j).trans (sqG_of_col m ρ c j i hi)

/-- An index of a one-row output's array is in a point's block iff each coordinate is in the block's range. -/
theorem mem_blk6 (t : Fin cfg0.N) (i : S1x256.Idx) :
    i ∈ ((cfg0.win 6).blk t).view.set ↔ ∀ a : Fin 2, win0_6.index t a * S1x256.size a ≤ (i a).val ∧ (i a).val < win0_6.index t a * S1x256.size a + S1x256.size a := by
  show i ∈ ((View.whole main_v33_1).slice (win0_6.rect t)).set ↔ _
  rw [View.set_slice_whole, Rect.mem_set_unit]
  exact Iff.rfl

theorem mem_blk7 (t : Fin cfg0.N) (i : S1x256.Idx) :
    i ∈ ((cfg0.win 7).blk t).view.set ↔ ∀ a : Fin 2, win0_7.index t a * S1x256.size a ≤ (i a).val ∧ (i a).val < win0_7.index t a * S1x256.size a + S1x256.size a := by
  show i ∈ ((View.whole main_v33_2).slice (win0_7.rect t)).set ↔ _
  rw [View.set_slice_whole, Rect.mem_set_unit]
  exact Iff.rfl

/-- The last point's block is the whole one-row array. -/
theorem cover6 (i : S1x256.Idx) : ∃ t : Fin cfg0.N, (cfg0.win 6).flush t = true ∧ i ∈ ((cfg0.win 6).blk t).view.set := by
  have hi0 : (i 0).val < 1 := (i 0).isLt
  have hi1 : (i 1).val < 256 := (i 1).isLt
  obtain ⟨-, -, e0, e1, -⟩ := out_idx_facts t0_15
  refine ⟨t0_15, (flush0_6 t0_15).mpr rfl, ?_⟩
  rw [mem_blk6]
  intro a
  match a with
  | ⟨0, _⟩ => show win0_6.index t0_15 0 * 1 ≤ (i 0).val ∧ (i 0).val < win0_6.index t0_15 0 * 1 + 1; rw [e0]; omega
  | ⟨1, _⟩ => show win0_6.index t0_15 1 * 256 ≤ (i 1).val ∧ (i 1).val < win0_6.index t0_15 1 * 256 + 256; rw [e1]; omega

theorem cover7 (i : S1x256.Idx) : ∃ t : Fin cfg0.N, (cfg0.win 7).flush t = true ∧ i ∈ ((cfg0.win 7).blk t).view.set := by
  have hi0 : (i 0).val < 1 := (i 0).isLt
  have hi1 : (i 1).val < 256 := (i 1).isLt
  obtain ⟨-, -, -, -, e0, e1⟩ := out_idx_facts t0_15
  refine ⟨t0_15, (flush0_7 t0_15).mpr rfl, ?_⟩
  rw [mem_blk7]
  intro a
  match a with
  | ⟨0, _⟩ => show win0_7.index t0_15 0 * 1 ≤ (i 0).val ∧ (i 0).val < win0_7.index t0_15 0 * 1 + 1; rw [e0]; omega
  | ⟨1, _⟩ => show win0_7.index t0_15 1 * 256 ≤ (i 1).val ∧ (i 1).val < win0_7.index t0_15 1 * 256 + 256; rw [e1]; omega

/-- The second output's array after the launch holds the column sums. -/
theorem sumArr_eq (c : Dev nD) : sumArr m ρ c = sumG m ρ c :=
  (dat0 (V3 m ρ) c).arrAt_eq_of_cover 6 (sumG m ρ c) (flushed6_eq m ρ c) cover6

/-- The third output's array after the launch holds the column sums of squares. -/
theorem sqArr_eq (c : Dev nD) : sqArr m ρ c = sqG m ρ c :=
  (dat0 (V3 m ρ) c).arrAt_eq_of_cover 7 (sqG m ρ c) (flushed7_eq m ρ c) cover7

/-- The second output's array read at a column. -/
theorem sumArr_at (c : Dev nD) (j : Fin 256) :
    sumArr m ρ c (ix2 0 j) = ∑ r : Fin 65536, h1Arr m ρ c (ix2 r j) := by
  rw [sumArr_eq]
  exact (sumG_of_col m ρ c j (ix2 0 j) rfl).symm

/-- The third output's array read at a column. -/
theorem sqArr_at (c : Dev nD) (j : Fin 256) :
    sqArr m ρ c (ix2 0 j) = ∑ r : Fin 65536, h1Arr m ρ c (ix2 r j) * h1Arr m ρ c (ix2 r j) := by
  rw [sqArr_eq]
  exact (sqG_of_col m ρ c j (ix2 0 j) rfl).symm

end Arr0

theorem h1Arr_apply (c : Dev nD) (r : Fin 65536) (j : Fin 256) :
    h1Arr m ρ c (ix2 r j)
      = Cert.Spec.lin1 (Cert.Spec.feat (fun r k => sArr m ρ c (ix2 r k)) (fun r k => cArr m ρ c (ix2 r k)) (fun r k => xArr m ρ c (ix2 r k)))
          (fun j k => w1tArr m ρ c (ix2 k j)) (fun j => b1rArr m ρ c (ix2 0 j)) r j :=
  Arr0.h1Arr_at m ρ c r j

theorem sumArr_apply (c : Dev nD) (j : Fin 256) :
    sumArr m ρ c (ix2 0 j) = ∑ r : Fin 65536, h1Arr m ρ c (ix2 r j) :=
  Arr0.sumArr_at m ρ c j

theorem sqArr_apply (c : Dev nD) (j : Fin 256) :
    sqArr m ρ c (ix2 0 j) = ∑ r : Fin 65536, h1Arr m ρ c (ix2 r j) * h1Arr m ρ c (ix2 r j) :=
  Arr0.sqArr_at m ρ c j

end Cert.KernelIdeal.Val

end
-- ==== Proof.KPay1.lean ====
/-
  The second launch's payload read at a row, over the extended reals: the row of the first layer's output
  normalised with the mean and variance rows, scaled and shifted, then through the three remaining layers.
-/
import proofs.«162343_j80882824118683_1_alg».proof.Proof.Gen.KernelIdeal.Skeleton
import proofs.«162343_j80882824118683_1_alg».proof.Proof.Spec
import proofs.«162343_j80882824118683_1_alg».proof.Proof.LibRowSpread
import proofs.«162343_j80882824118683_1_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.ValueIdx
open Cert.KernelIdeal Cert.KernelIdeal.Gen
open Idealize.ShloMosaic.PlainDot Cert.Lib.RowSpread

namespace Pay1

/-! ## One layer at a time, over variables -/

section Layers

variable {R K N : ℕ}

/-- A matrix product of two narrowed operands into the zero accumulator, read at `(p, q)`: narrowing is the
    identity over the extended reals, so this is the plain sum of products over the contracted index. -/
theorem dot_apply {d : DotDims (⟨2, ![R, K]⟩ : Shape) (⟨2, ![K, N]⟩ : Shape) (⟨2, ![R, N]⟩ : Shape)} (hd : IsPlain d)
    {φ₁ φ₂ : FTy} (l : FVec Ideal (⟨2, ![R, K]⟩ : Shape) φ₁) (r : FVec Ideal (⟨2, ![K, N]⟩ : Shape) φ₂)
    (p : Fin R) (q : Fin N) :
    matmul d none l r (constant (⟨2, ![R, N]⟩ : Shape) .f32 0x00000000#32) (ix2 p q)
      = ∑ k : Fin K, l (ix2 p k) * r (ix2 k q) :=
  (Ideal.matmul_constant_zero_apply d none l r (ix2 p q)).trans (sum_contr hd l r p q)

/-- An affine layer read at `(p, q)`: the product of the narrowed row block `l` with the narrowed weight `w`, plus
    the bias row `b` spread over the rows, is `Σ_k l (p, k) * w (k, q) + b (0, q)`. -/
theorem affine_apply {d : DotDims (⟨2, ![R, K]⟩ : Shape) (⟨2, ![K, N]⟩ : Shape) (⟨2, ![R, N]⟩ : Shape)} (hd : IsPlain d)
    (l : FVec Ideal (⟨2, ![R, K]⟩ : Shape) .f32) (w : FVec Ideal (⟨2, ![K, N]⟩ : Shape) .f32)
    (b : FVec Ideal (⟨2, ![1, N]⟩ : Shape) .f32)
    (hs : (⟨2, ![1, N]⟩ : Shape).Broadcasts (⟨2, ![R, N]⟩ : Shape))
    (ht : FTy.bf16.bits < FTy.f32.bits) (p : Fin R) (q : Fin N) :
    addf (matmul d none (truncf .bf16 l ht) (truncf .bf16 w ht) (constant (⟨2, ![R, N]⟩ : Shape) .f32 0x00000000#32))
         (broadcastTo (⟨2, ![R, N]⟩ : Shape) b hs) (ix2 p q)
      = (∑ k : Fin K, l (ix2 p k) * w (ix2 k q)) + b (ix2 0 q) := by
  rw [addf_apply, spreadRows_apply, dot_apply hd]
  rfl

/-- The same layer clipped below at the zero literal. -/
theorem relu_apply {d : DotDims (⟨2, ![R, K]⟩ : Shape) (⟨2, ![K, N]⟩ : Shape) (⟨2, ![R, N]⟩ : Shape)} (hd : IsPlain d)
    (l : FVec Ideal (⟨2, ![R, K]⟩ : Shape) .f32) (w : FVec Ideal (⟨2, ![K, N]⟩ : Shape) .f32)
    (b : FVec Ideal (⟨2, ![1, N]⟩ : Shape) .f32)
    (hs : (⟨2, ![1, N]⟩ : Shape).Broadcasts (⟨2, ![R, N]⟩ : Shape))
    (ht : FTy.bf16.bits < FTy.f32.bits) (p : Fin R) (q : Fin N) :
    maximumf
        (addf (matmul d none (truncf .bf16 l ht) (truncf .bf16 w ht) (constant (⟨2, ![R, N]⟩ : Shape) .f32 0x00000000#32))
              (broadcastTo (⟨2, ![R, N]⟩ : Shape) b hs))
        (broadcast (⟨2, ![R, N]⟩ : Shape) (Scalar.ofBits (F := Ideal) .f32 0x00000000#32)) (ix2 p q)
      = max ((∑ k : Fin K, l (ix2 p k) * w (ix2 k q)) + b (ix2 0 q)) Cert.Spec.z0 := by
  rw [maximumf_apply, affine_apply hd]
  rfl

/-- The normalised, scaled and shifted block read at `(p, j)`: the mean, reciprocal root, scale and shift rows are
    each spread over the rows. -/
theorem norm_apply (h : FVec Ideal (⟨2, ![R, N]⟩ : Shape) .f32) (mu var g be : FVec Ideal (⟨2, ![1, N]⟩ : Shape) .f32)
    (hs : (⟨2, ![1, N]⟩ : Shape).Broadcasts (⟨2, ![R, N]⟩ : Shape)) (p : Fin R) (j : Fin N) :
    addf (mulf (mulf (subf h (broadcastTo (⟨2, ![R, N]⟩ : Shape) mu hs))
                     (broadcastTo (⟨2, ![R, N]⟩ : Shape)
                        (rsqrt (addf var
                                 (broadcast (⟨2, ![1, N]⟩ : Shape) (Scalar.ofBits (F := Ideal) .f32 0x3727C5AC#32)))) hs))
               (broadcastTo (⟨2, ![R, N]⟩ : Shape) g hs))
         (broadcastTo (⟨2, ![R, N]⟩ : Shape) be hs) (ix2 p j)
      = (h (ix2 p j) - mu (ix2 0 j)) * Ideal.rsqrt (var (ix2 0 j) + Cert.Spec.eps) * g (ix2 0 j) + be (ix2 0 j) := by
  rw [addf_apply, mulf_apply, mulf_apply, subf_apply, spreadRows_apply, spreadRows_apply, spreadRows_apply,
    spreadRows_apply]
  rfl

end Layers

/-! ## The three dimension-number records are the plain ones -/

theorem plain_256_64 : IsPlain dot_S4096x256_S256x64_S4096x64_1_0_0_1_n_n := ⟨rfl, rfl, rfl, rfl, rfl, rfl⟩
theorem plain_64_16 : IsPlain dot_S4096x64_S64x16_S4096x16_1_0_0_1_n_n := ⟨rfl, rfl, rfl, rfl, rfl, rfl⟩
theorem plain_16_1 : IsPlain dot_S4096x16_S16x1_S4096x1_1_0_0_1_n_n := ⟨rfl, rfl, rfl, rfl, rfl, rfl⟩

/-! ## The payloads at an entry -/

/-- The normalised row of `tailRow`, from the arrays. -/
def a1 (x0 : Vec Ideal S4096x256 .f32) (x1 x2 x3 x4 : Vec Ideal S1x256 .f32) (p : Fin 4096) (j : Fin 256) : EReal :=
  (x0 (ix2 p j) - x1 (ix2 0 j)) * Ideal.rsqrt (x2 (ix2 0 j) + Cert.Spec.eps) * x3 (ix2 0 j) + x4 (ix2 0 j)

/-- The second layer's clipped row of `tailRow`, from the arrays. -/
def a2 (x0 : Vec Ideal S4096x256 .f32) (x1 x2 x3 x4 : Vec Ideal S1x256 .f32) (x5 : Vec Ideal S256x64 .f32)
    (x6 : Vec Ideal S1x64 .f32) (p : Fin 4096) (q : Fin 64) : EReal :=
  max ((∑ j : Fin 256, a1 x0 x1 x2 x3 x4 p j * x5 (ix2 j q)) + x6 (ix2 0 q)) Cert.Spec.z0

/-- The inner payload (the third layer's product before its bias) at `(p, q)`. -/
theorem k1_pay2_apply (x0 : Vec Ideal S4096x256 .f32) (x1 x2 x3 x4 : Vec Ideal S1x256 .f32) (x5 : Vec Ideal S256x64 .f32)
    (x6 : Vec Ideal S1x64 .f32) (x7 : Vec Ideal S64x16 .f32) (p : Fin 4096) (q : Fin 16) :
    k1_pay2 x0 x1 x2 x3 x4 x5 x6 x7 (ix2 p q) = ∑ j : Fin 64, a2 x0 x1 x2 x3 x4 x5 x6 p j * x7 (ix2 j q) := by
  unfold k1_pay2
  simp only [shapeCast_self]
  refine (dot_apply plain_64_16 _ _ p q).trans ?_
  refine Finset.sum_congr rfl fun j _ => ?_
  rw [truncf_apply, truncf_apply, relu_apply plain_256_64]
  refine congrArg (· * x7 (ix2 j q)) ?_
  unfold a2
  refine congrArg (fun s => max (s + x6 (ix2 0 j)) Cert.Spec.z0) ?_
  refine Finset.sum_congr rfl fun k _ => ?_
  exact congrArg (· * x5 (ix2 k j)) (norm_apply x0 x1 x2 x3 x4 _ p k)

end Pay1

open Pay1 in
theorem k1_apply (x0 : Vec Ideal S4096x256 .f32) (x1 x2 x3 x4 : Vec Ideal S1x256 .f32) (x5 : Vec Ideal S256x64 .f32)
    (x6 : Vec Ideal S1x64 .f32) (x7 : Vec Ideal S64x16 .f32) (x8 : Vec Ideal S1x16 .f32) (x9 : Vec Ideal S16x1 .f32)
    (x10 : Vec Ideal S1x1 .f32) (p : Fin 4096) :
    k1_pay1 (k1_pay2 x0 x1 x2 x3 x4 x5 x6 x7) x8 x9 x10 (ix2 p 0)
      = Cert.Spec.tailRow (fun j => x0 (ix2 p j)) (fun j => x1 (ix2 0 j)) (fun j => x2 (ix2 0 j)) (fun j => x3 (ix2 0 j))
          (fun j => x4 (ix2 0 j)) (fun q j => x5 (ix2 j q)) (fun q => x6 (ix2 0 q)) (fun q j => x7 (ix2 j q))
          (fun q => x8 (ix2 0 q)) (fun j => x9 (ix2 j 0)) (x10 (ix2 0 0)) := by
  unfold k1_pay1
  simp only [shapeCast_self]
  refine (affine_apply plain_16_1 _ x9 x10 _ _ p 0).trans ?_
  unfold Cert.Spec.tailRow
  dsimp only
  refine congrArg (· + x10 (ix2 0 0)) ?_
  refine Finset.sum_congr rfl fun j _ => ?_
  refine congrArg (· * x9 (ix2 j 0)) ?_
  rw [maximumf_apply, addf_apply, spreadRows_apply, k1_pay2_apply]
  unfold a2 a1
  rfl

end Cert.KernelIdeal.Val

end
-- ==== Proof.KArr1.lean ====
/-
  The array the second launch leaves, read at a row: that row of the first layer's output through the
  normalisation (with the mean and variance rows the launch finds) and the three remaining layers.

  Every grid point writes back one block of 4096 rows; what it writes is the block, at that point, of ONE function
  of the whole arrays the launch finds (`tailAll`): the rows of the first layer's output move with the output's
  rows, and every other array is read whole at every point.  The sixteen blocks tile the 65536 rows, so the array
  ends holding that function.
-/
import proofs.«162343_j80882824118683_1_alg».proof.Proof.KNames
import proofs.«162343_j80882824118683_1_alg».proof.Proof.KPieces
import proofs.«162343_j80882824118683_1_alg».proof.Proof.KPay1
import proofs.«162343_j80882824118683_1_alg».proof.Proof.KBlocks
import Idealize.ShloMosaic.Lib.Pipeline.Value
import Idealize.ShloMosaic.Lib.ValueIdx

noncomputable section

open scoped BigOperators

namespace Cert.KernelIdeal.Val

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The result's block index over the sixteen points: along the rows it is the point itself, along the one column 0. -/
private theorem idx1_out : ∀ t : Fin cfg1.N, win1_11.index t (0 : Fin 2) = t.val ∧ win1_11.index t (1 : Fin 2) = 0 ∧ t.val < 16 :=
  (by decide +kernel : ∀ t : Fin grid1.N, _)

/-- Every one of the sixteen row blocks of the result is some point's. -/
private theorem idx1_onto : ∀ q : Fin 16, ∃ t : Fin cfg1.N, t.val = q.val :=
  (by decide +kernel : ∀ q : Fin 16, ∃ t : Fin grid1.N, t.val = q.val)

/-- What the result array holds, row by row: the row of the first layer's output the launch finds, normalised with the
    mean and variance rows it finds and taken through the three remaining layers. -/
private def tailAll (c : Dev nD) : S65536x1.Idx → EReal := fun i =>
  Cert.Spec.tailRow (fun j => h1In m ρ c (ix2 ⟨(i 0).val, idx2_lt0 i⟩ j)) (fun j => meanArr m ρ c (ix2 0 j)) (fun j => varArr m ρ c (ix2 0 j))
    (fun j => gamArr m ρ c (ix2 0 j)) (fun j => betArr m ρ c (ix2 0 j)) (fun q j => w2tArr m ρ c (ix2 j q))
    (fun q => b2rArr m ρ c (ix2 0 q)) (fun q j => w3tArr m ρ c (ix2 j q)) (fun q => b3rArr m ρ c (ix2 0 q))
    (fun j => w4tArr m ρ c (ix2 j 0)) (b4rArr m ρ c (ix2 0 0))

/-- What point `t` writes back is block `t` of `tailAll`. -/
private theorem outFlushed_eq (c : Dev nD) (t : Fin cfg1.N) :
    (dat1 (V5 m ρ) c).flushed 11 t = ((cfg1.win 11).blk t).view.read (Elt Ideal) (tailAll m ρ c) := by
  show (cfg1.win 11).cut (grid1.coords t) ((dat1 (V5 m ρ) c).after 11 t) = _
  rw [after1_11, out1_11_eq (F := Ideal) (iblk1 (V5 m ρ) c 0 t) (iblk1 (V5 m ρ) c 1 t) (iblk1 (V5 m ρ) c 2 t) (iblk1 (V5 m ρ) c 3 t)
    (iblk1 (V5 m ρ) c 4 t) (iblk1 (V5 m ρ) c 5 t) (iblk1 (V5 m ρ) c 6 t) (iblk1 (V5 m ρ) c 7 t) (iblk1 (V5 m ρ) c 8 t)
    (iblk1 (V5 m ρ) c 9 t) (iblk1 (V5 m ρ) c 10 t)]
  funext y
  obtain ⟨p, q, rfl⟩ : ∃ (p : Fin 4096) (q : Fin 1), y = ix2 p q := ⟨y 0, y 1, eq_ix2 y⟩
  obtain rfl : q = 0 := Subsingleton.elim _ _
  obtain ⟨e0, e1, e2⟩ := idx1_out t
  show k1_pay1 (k1_pay2 (iblk1 (V5 m ρ) c 0 t) (iblk1 (V5 m ρ) c 1 t) (iblk1 (V5 m ρ) c 2 t) (iblk1 (V5 m ρ) c 3 t)
      (iblk1 (V5 m ρ) c 4 t) (iblk1 (V5 m ρ) c 5 t) (iblk1 (V5 m ρ) c 6 t) (iblk1 (V5 m ρ) c 7 t)) (iblk1 (V5 m ρ) c 8 t)
      (iblk1 (V5 m ρ) c 9 t) (iblk1 (V5 m ρ) c 10 t) (ix2 p 0)
    = tailAll m ρ c (((cfg1.win 11).blk t).view.emb (ix2 p 0))
  refine (k1_apply (iblk1 (V5 m ρ) c 0 t) (iblk1 (V5 m ρ) c 1 t) (iblk1 (V5 m ρ) c 2 t) (iblk1 (V5 m ρ) c 3 t)
    (iblk1 (V5 m ρ) c 4 t) (iblk1 (V5 m ρ) c 5 t) (iblk1 (V5 m ρ) c 6 t) (iblk1 (V5 m ρ) c 7 t) (iblk1 (V5 m ρ) c 8 t)
    (iblk1 (V5 m ρ) c 9 t) (iblk1 (V5 m ρ) c 10 t) p).trans ?_
  unfold tailAll
  have hrow : row1 t p = ⟨((((cfg1.win 11).blk t).view.emb (ix2 p 0)) 0).val, idx2_lt0 _⟩ := by
    apply Fin.ext
    rw [row1_val]
    show t.val * 4096 + p.val = win1_11.index t (0 : Fin 2) * 4096 + 1 * p.val
    omega
  have h0 : (fun j => iblk1 (V5 m ρ) c 0 t (ix2 p j))
      = fun j => h1In m ρ c (ix2 ⟨((((cfg1.win 11).blk t).view.emb (ix2 p 0)) 0).val, idx2_lt0 _⟩ j) :=
    funext fun j => by rw [← hrow]; exact h1InBlk_apply m ρ c t p j
  have h1 : iblk1 (V5 m ρ) c 1 t = meanArr m ρ c := meanBlk_eq m ρ c t
  have h2 : iblk1 (V5 m ρ) c 2 t = varArr m ρ c := varBlk_eq m ρ c t
  have h3 : iblk1 (V5 m ρ) c 3 t = gamArr m ρ c := gamBlk_eq m ρ c t
  have h4 : iblk1 (V5 m ρ) c 4 t = betArr m ρ c := betBlk_eq m ρ c t
  have h5 : iblk1 (V5 m ρ) c 5 t = w2tArr m ρ c := w2tBlk_eq m ρ c t
  have h6 : iblk1 (V5 m ρ) c 6 t = b2rArr m ρ c := b2rBlk_eq m ρ c t
  have h7 : iblk1 (V5 m ρ) c 7 t = w3tArr m ρ c := w3tBlk_eq m ρ c t
  have h8 : iblk1 (V5 m ρ) c 8 t = b3rArr m ρ c := b3rBlk_eq m ρ c t
  have h9 : iblk1 (V5 m ρ) c 9 t = w4tArr m ρ c := w4tBlk_eq m ρ c t
  have h10 : iblk1 (V5 m ρ) c 10 t = b4rArr m ρ c := b4rBlk_eq m ρ c t
  rw [h0, h1, h2, h3, h4, h5, h6, h7, h8, h9, h10]

/-- An index of the result array is in point `t`'s block iff each coordinate is in the block's range on its axis. -/
private theorem mem_outBlk (t : Fin cfg1.N) (i : S65536x1.Idx) :
    i ∈ ((cfg1.win 11).blk t).view.set ↔ ∀ a : Fin 2, win1_11.index t a * S4096x1.size a ≤ (i a).val ∧ (i a).val < win1_11.index t a * S4096x1.size a + S4096x1.size a := by
  show i ∈ ((View.whole main_v40).slice (win1_11.rect t)).set ↔ _
  rw [View.set_slice_whole, Rect.mem_set_unit]
  exact Iff.rfl

/-- The sixteen blocks of 4096 rows tile the 65536 rows: row `r` is in the block of point `r / 4096`. -/
private theorem out_cover (i : S65536x1.Idx) : ∃ t : Fin cfg1.N, (cfg1.win 11).flush t = true ∧ i ∈ ((cfg1.win 11).blk t).view.set := by
  have hi0 : (i 0).val < 65536 := idx2_lt0 i
  have hi1 : (i 1).val < 1 := idx2_lt1 i
  obtain ⟨t, ht⟩ := idx1_onto ⟨(i 0).val / 4096, by omega⟩
  have ht' : t.val = (i 0).val / 4096 := ht
  obtain ⟨e0, e1, e2⟩ := idx1_out t
  refine ⟨t, flush1_11 t, ?_⟩
  rw [mem_outBlk]
  intro a
  match a with
  | ⟨0, _⟩ => show win1_11.index t (0 : Fin 2) * 4096 ≤ (i 0).val ∧ (i 0).val < win1_11.index t (0 : Fin 2) * 4096 + 4096; omega
  | ⟨1, _⟩ => show win1_11.index t (1 : Fin 2) * 1 ≤ (i 1).val ∧ (i 1).val < win1_11.index t (1 : Fin 2) * 1 + 1; omega

/-- So the result array ends holding `tailAll`. -/
private theorem outArr_eq (c : Dev nD) : outArr m ρ c = tailAll m ρ c :=
  (dat1 (V5 m ρ) c).arrAt_eq_of_cover 11 (tailAll m ρ c) (fun t _ => outFlushed_eq m ρ c t) out_cover

theorem outArr_apply (c : Dev nD) (r : Fin 65536) :
    outArr m ρ c (ix2 r 0)
      = Cert.Spec.tailRow (fun j => h1In m ρ c (ix2 r j)) (fun j => meanArr m ρ c (ix2 0 j)) (fun j => varArr m ρ c (ix2 0 j))
          (fun j => gamArr m ρ c (ix2 0 j)) (fun j => betArr m ρ c (ix2 0 j)) (fun q j => w2tArr m ρ c (ix2 j q))
          (fun q => b2rArr m ρ c (ix2 0 q)) (fun q j => w3tArr m ρ c (ix2 j q)) (fun q => b3rArr m ρ c (ix2 0 q))
          (fun j => w4tArr m ρ c (ix2 j 0)) (b4rArr m ρ c (ix2 0 0)) := by
  rw [outArr_eq]
  rfl

end Cert.KernelIdeal.Val

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.KValue.lean ====
/-
  The idealized kernel program's result at a batch row, as the common formula (Spec.lean) of the three gathered
  pieces and the argument arrays — the variance as mean of squares minus squared mean.

  The result vector is the second launch's one-column array recast; that array at a row is the tail of the network on
  the row of the first layer's output, with the mean and variance rows the host computed between the launches.  Each
  ingredient is then read back to the argument arrays: the weights the launches find are the stored weights
  transposed, the bias and scale rows are the stored vectors as one-row matrices, the mean row is the column sums over
  the batch size and the variance row the column sums of squares over the batch size minus the squared mean.
-/
import proofs.«162343_j80882824118683_1_alg».proof.Proof.KNames
import proofs.«162343_j80882824118683_1_alg».proof.Proof.KEntry
import proofs.«162343_j80882824118683_1_alg».proof.Proof.KArr0
import proofs.«162343_j80882824118683_1_alg».proof.Proof.KArr1
import proofs.«162343_j80882824118683_1_alg».proof.Proof.LibColumn
import proofs.«162343_j80882824118683_1_alg».proof.Proof.LibRowSpread
import Idealize.ShloMosaic.Lib.IdealHost

noncomputable section

open scoped BigOperators

namespace Cert.KernelIdeal.Val

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- The tail of the network depends on its eleven ingredients only through their values. -/
private theorem tailRow_congr {h h' mu mu' var var' gamma gamma' beta beta' : Fin 256 → EReal} {W2 W2' : Fin 64 → Fin 256 → EReal}
    {b2 b2' : Fin 64 → EReal} {W3 W3' : Fin 16 → Fin 64 → EReal} {b3 b3' : Fin 16 → EReal} {W4 W4' : Fin 16 → EReal} {b4 b4' : EReal}
    (e0 : h = h') (e1 : mu = mu') (e2 : var = var') (e3 : gamma = gamma') (e4 : beta = beta') (e5 : W2 = W2') (e6 : b2 = b2')
    (e7 : W3 = W3') (e8 : b3 = b3') (e9 : W4 = W4') (e10 : b4 = b4') :
    Cert.Spec.tailRow h mu var gamma beta W2 b2 W3 b3 W4 b4 = Cert.Spec.tailRow h' mu' var' gamma' beta' W2' b2' W3' b3' W4' b4' := by
  subst e0 e1 e2 e3 e4 e5 e6 e7 e8 e9 e10; rfl

/-! ## The weights and rows the launches find, read back to the argument arrays -/

/-- The first layer's weight as the first launch finds it is the stored weight transposed. -/
private theorem w1t_apply (c : Dev nD) (k : Fin 440) (j : Fin 256) : w1tArr m ρ c (ix2 k j) = ka6 m c (ix2 j k) := by
  rw [w1tArr_eq]
  refine transpose_apply _ _ _ _ _ (fun b => ?_)
  match b with
  | ⟨0, _⟩ => rfl
  | ⟨1, _⟩ => rfl

/-- The second layer's weight as the second launch finds it is the stored weight transposed. -/
private theorem w2t_apply (c : Dev nD) (j : Fin 256) (q : Fin 64) : w2tArr m ρ c (ix2 j q) = ka10 m c (ix2 q j) := by
  rw [w2tArr_eq]
  refine transpose_apply _ _ _ _ _ (fun b => ?_)
  match b with
  | ⟨0, _⟩ => rfl
  | ⟨1, _⟩ => rfl

/-- The third layer's weight as the second launch finds it is the stored weight transposed. -/
private theorem w3t_apply (c : Dev nD) (j : Fin 64) (q : Fin 16) : w3tArr m ρ c (ix2 j q) = ka12 m c (ix2 q j) := by
  rw [w3tArr_eq]
  refine transpose_apply _ _ _ _ _ (fun b => ?_)
  match b with
  | ⟨0, _⟩ => rfl
  | ⟨1, _⟩ => rfl

/-- The last layer's weight as the second launch finds it is the stored one-row weight transposed. -/
private theorem w4t_apply (c : Dev nD) (j : Fin 16) : w4tArr m ρ c (ix2 j 0) = ka14 m c (ix2 0 j) := by
  rw [w4tArr_eq]
  refine transpose_apply _ _ _ _ _ (fun b => ?_)
  match b with
  | ⟨0, _⟩ => rfl
  | ⟨1, _⟩ => rfl

/-- The first layer's bias row is the stored bias. -/
private theorem b1r_apply (c : Dev nD) (j : Fin 256) : b1rArr m ρ c (ix2 0 j) = ka7 m c (ix1 j) := by
  rw [b1rArr_eq]; exact Cert.Lib.RowSpread.asRow_apply _ _ 0 j
/-- The scale row is the stored scale. -/
private theorem gam_apply (c : Dev nD) (j : Fin 256) : gamArr m ρ c (ix2 0 j) = ka8 m c (ix1 j) := by
  rw [gamArr_eq]; exact Cert.Lib.RowSpread.asRow_apply _ _ 0 j
/-- The shift row is the stored shift. -/
private theorem bet_apply (c : Dev nD) (j : Fin 256) : betArr m ρ c (ix2 0 j) = ka9 m c (ix1 j) := by
  rw [betArr_eq]; exact Cert.Lib.RowSpread.asRow_apply _ _ 0 j
/-- The second layer's bias row is the stored bias. -/
private theorem b2r_apply (c : Dev nD) (q : Fin 64) : b2rArr m ρ c (ix2 0 q) = ka11 m c (ix1 q) := by
  rw [b2rArr_eq]; exact Cert.Lib.RowSpread.asRow_apply _ _ 0 q
/-- The third layer's bias row is the stored bias. -/
private theorem b3r_apply (c : Dev nD) (q : Fin 16) : b3rArr m ρ c (ix2 0 q) = ka13 m c (ix1 q) := by
  rw [b3rArr_eq]; exact Cert.Lib.RowSpread.asRow_apply _ _ 0 q
/-- The last layer's bias is the stored bias. -/
private theorem b4r_apply (c : Dev nD) : b4rArr m ρ c (ix2 0 0) = ka15 m c (ix1 0) := by
  rw [b4rArr_eq]; exact Cert.Lib.RowSpread.asRow_apply _ _ 0 0

/-! ## The first layer's output and the batch statistics -/

/-- The first layer's output as the first launch leaves it, in the stored weight and bias. -/
private theorem h1_apply (c : Dev nD) (r : Fin 65536) (j : Fin 256) :
    h1Arr m ρ c (ix2 r j)
      = Cert.Spec.lin1 (Cert.Spec.feat (fun r k => sArr m ρ c (ix2 r k)) (fun r k => cArr m ρ c (ix2 r k)) (fun r k => xArr m ρ c (ix2 r k)))
          (fun j k => ka6 m c (ix2 j k)) (fun j => ka7 m c (ix1 j)) r j := by
  rw [h1Arr_apply]
  have eW : (fun (j : Fin 256) (k : Fin 440) => w1tArr m ρ c (ix2 k j)) = fun j k => ka6 m c (ix2 j k) :=
    funext fun j => funext fun k => w1t_apply m ρ c k j
  have eB : (fun (j : Fin 256) => b1rArr m ρ c (ix2 0 j)) = fun j => ka7 m c (ix1 j) := funext fun j => b1r_apply m ρ c j
  rw [eW, eB]

/-- The batch size, spread over a row by the host, reads the batch size at every column. -/
private theorem cN_apply (j : Fin 256) :
    broadcastInDim S1x256 ![] Facts₀.bcast_S_S1x256 (constant (F := Ideal) S_ .f32 0x47800000#32) (ix2 0 j) = Cert.Spec.cN :=
  broadcastInDim_scalar_apply _ _ _

/-- The mean row the second launch finds is the batch mean of the first layer's output. -/
private theorem mean_apply (c : Dev nD) (j : Fin 256) :
    meanArr m ρ c (ix2 0 j)
      = Cert.Spec.mean (Cert.Spec.lin1 (Cert.Spec.feat (fun r k => sArr m ρ c (ix2 r k)) (fun r k => cArr m ρ c (ix2 r k)) (fun r k => xArr m ρ c (ix2 r k)))
          (fun j k => ka6 m c (ix2 j k)) (fun j => ka7 m c (ix1 j))) j := by
  rw [meanArr_eq, hostDivf_apply, cN_apply, sumArr_apply]
  unfold Cert.Spec.mean
  exact congrArg (fun s => Ideal.div s Cert.Spec.cN) (Finset.sum_congr rfl fun r _ => h1_apply m ρ c r j)

/-- The variance row the second launch finds is the batch mean of squares minus the squared batch mean. -/
private theorem var_apply (c : Dev nD) (j : Fin 256) :
    varArr m ρ c (ix2 0 j)
      = Cert.Spec.varK (Cert.Spec.lin1 (Cert.Spec.feat (fun r k => sArr m ρ c (ix2 r k)) (fun r k => cArr m ρ c (ix2 r k)) (fun r k => xArr m ρ c (ix2 r k)))
          (fun j k => ka6 m c (ix2 j k)) (fun j => ka7 m c (ix1 j))) j := by
  rw [varArr_eq, subf_apply, mulf_apply, hostDivf_apply, cN_apply, sqArr_apply, mean_apply]
  unfold Cert.Spec.varK
  have hs : (∑ r : Fin 65536, h1Arr m ρ c (ix2 r j) * h1Arr m ρ c (ix2 r j))
      = ∑ r : Fin 65536, Cert.Spec.lin1 (Cert.Spec.feat (fun r k => sArr m ρ c (ix2 r k)) (fun r k => cArr m ρ c (ix2 r k)) (fun r k => xArr m ρ c (ix2 r k)))
            (fun j k => ka6 m c (ix2 j k)) (fun j => ka7 m c (ix1 j)) r j
          * Cert.Spec.lin1 (Cert.Spec.feat (fun r k => sArr m ρ c (ix2 r k)) (fun r k => cArr m ρ c (ix2 r k)) (fun r k => xArr m ρ c (ix2 r k)))
            (fun j k => ka6 m c (ix2 j k)) (fun j => ka7 m c (ix1 j)) r j :=
    Finset.sum_congr rfl fun r _ => by rw [h1_apply]
  rw [hs]

theorem kernel_value (c : Dev nD) (r : Fin 65536) :
    resArr m ρ c (ix1 r)
      = Cert.Spec.outK
          (Cert.Spec.feat (fun r k => sArr m ρ c (ix2 r k)) (fun r k => cArr m ρ c (ix2 r k)) (fun r k => xArr m ρ c (ix2 r k)))
          (fun j k => ka6 m c (ix2 j k)) (fun j => ka7 m c (ix1 j)) (fun j => ka8 m c (ix1 j)) (fun j => ka9 m c (ix1 j))
          (fun q j => ka10 m c (ix2 q j)) (fun q => ka11 m c (ix1 q)) (fun q j => ka12 m c (ix2 q j)) (fun q => ka13 m c (ix1 q))
          (fun j => ka14 m c (ix2 0 j)) (ka15 m c (ix1 0)) r := by
  rw [resArr_eq]
  refine (ValueLayout.shapeCast_a1_a_apply (outArr m ρ c) _ r).trans ?_
  rw [outArr_apply]
  unfold Cert.Spec.outK
  refine tailRow_congr (funext fun j => ?_) (funext fun j => mean_apply m ρ c j) (funext fun j => var_apply m ρ c j)
    (funext fun j => gam_apply m ρ c j) (funext fun j => bet_apply m ρ c j)
    (funext fun q => funext fun j => w2t_apply m ρ c j q) (funext fun q => b2r_apply m ρ c q)
    (funext fun q => funext fun j => w3t_apply m ρ c j q) (funext fun q => b3r_apply m ρ c q)
    (funext fun j => w4t_apply m ρ c j) (b4r_apply m ρ c)
  rw [h1In_eq]
  exact h1_apply m ρ c r j

end Cert.KernelIdeal.Val

end
-- ==== Proof.RefTerm.lean ====
/-
  The reference's result as ONE array term of its sixteen argument arrays: the three gathered pieces
  (Stages.lean), then the operations of its straight line from the concatenation on, in order.
-/
import proofs.«162343_j80882824118683_1_alg».proof.Proof.Gen.ReferenceIdeal
import proofs.«162343_j80882824118683_1_alg».proof.Proof.Stages

noncomputable section

namespace Cert.ReferenceIdeal.RefValue

open Idealize.ShloMosaic Cert.ReferenceIdeal Cert.ReferenceIdeal.Facts₀

variable {F : FTy → Type} [FloatOps F]

/-- The three gathered pieces of the reference, from its index arrays and tables. -/
def sR (a0 : IVec S65536 32) (a4 : FVec F S4x32 .f32) : FVec F S65536x32 .f32 :=
  Cert.Stages.gS gather_S4x32_S65536x1_S65536x32_1_0_n_n_0_1_132 bcast_S_S65536 bcast_S65536_S65536x1_0 a0 a4
def cR (a1 : IVec S65536 32) (a5 : FVec F S200x16 .f32) : FVec F S65536x16 .f32 :=
  Cert.Stages.gC gather_S200x16_S65536x1_S65536x16_1_0_n_n_0_1_116 bcast_S_S65536 bcast_S65536_S65536x1_0 a1 a5
def xR (a2 : IVec S65536x7x7 32) (a3 : FVec F S16777216x8 .f32) : FVec F S65536x392 .f32 :=
  Cert.Stages.gX gather_S16777216x8_S65536x7x7x1_S65536x7x7x8_3_0_n_n_0_3_18 bcast_S_S65536x7x7
    bcast_S65536x7x7_S65536x7x7x1_0_1_2 shapeCasts_S65536x7x7x8_S65536x392 a2 a3

/-- The first layer's output over the whole batch (the reference's value `%28`). -/
def h1R (s : FVec F S65536x32 .f32) (c : FVec F S65536x16 .f32) (x : FVec F S65536x392 .f32)
    (a6 : FVec F S256x440 .f32) (a7 : FVec F S256 .f32) : FVec F S65536x256 .f32 :=
  addf
    (Host.dotGeneral dot_S65536x440_S440x256_S65536x256_1_0_0_1_n_n none
      (concatenate S65536x440 1 [⟨S65536x32, s⟩, ⟨S65536x16, c⟩, ⟨S65536x392, x⟩] concatenates_S65536x32_S65536x16_S65536x392_S65536x440_d1)
      (transpose S440x256 [1, 0] a6 transposes_S256x440_S440x256_1_0))
    (broadcastInDim S65536x256 ![0, 1] bcast_S1x256_S65536x256_0_1 (broadcastInDim S1x256 ![1] bcast_S256_S1x256_1 a7))

/-- A [256] vector spread over the batch rows. -/
def rows256 (v : FVec F S256 .f32) : FVec F S65536x256 .f32 :=
  broadcastInDim S65536x256 ![0, 1] bcast_S1x256_S65536x256_0_1 (broadcastInDim S1x256 ![1] bcast_S256_S1x256_1 v)

/-- The batch mean (`%31`). -/
def muR (h : FVec F S65536x256 .f32) : FVec F S256 .f32 :=
  Host.divf (Host.reduceAdd h (constant S_ .f32 0x00000000#32) reducesTo_S65536x256_S256_d0 h_S_)
    (broadcastInDim S256 ![] bcast_S_S256 (constant S_ .f32 0x47800000#32))

/-- The batch variance as the mean of squared deviations (`%38`). -/
def varR (h : FVec F S65536x256 .f32) : FVec F S256 .f32 :=
  Host.divf (Host.reduceAdd (mulf (subf h (rows256 (muR h))) (subf h (rows256 (muR h)))) (constant S_ .f32 0x00000000#32) reducesTo_S65536x256_S256_d0 h_S_)
    (broadcastInDim S256 ![] bcast_S_S256 (constant S_ .f32 0x47800000#32))

/-- Everything after the first layer (`%41` … `%71`). -/
def tailR (h : FVec F S65536x256 .f32) (a8 a9 : FVec F S256 .f32) (a10 : FVec F S64x256 .f32) (a11 : FVec F S64 .f32)
    (a12 : FVec F S16x64 .f32) (a13 : FVec F S16 .f32) (a14 : FVec F S1x16 .f32) (a15 : FVec F S1 .f32) : FVec F S65536 .f32 :=
  let v44 : FVec F S256 .f32 := Host.rsqrt (addf (varR h) (broadcastInDim S256 ![] bcast_S_S256 (constant S_ .f32 0x3727C5AC#32)))
  let v53 : FVec F S65536x256 .f32 :=
    addf (mulf (mulf (subf h (rows256 (muR h))) (rows256 v44)) (rows256 a8)) (rows256 a9)
  let v58 : FVec F S65536x64 .f32 :=
    addf (Host.dotGeneral dot_S65536x256_S256x64_S65536x64_1_0_0_1_n_n none v53 (transpose S256x64 [1, 0] a10 transposes_S64x256_S256x64_1_0))
      (broadcastInDim S65536x64 ![0, 1] bcast_S1x64_S65536x64_0_1 (broadcastInDim S1x64 ![1] bcast_S64_S1x64_1 a11))
  let v59 : FVec F S65536x64 .f32 := maximumf v58 (broadcastInDim S65536x64 ![] bcast_S_S65536x64 (constant S_ .f32 0x00000000#32))
  let v64 : FVec F S65536x16 .f32 :=
    addf (Host.dotGeneral dot_S65536x64_S64x16_S65536x16_1_0_0_1_n_n none v59 (transpose S64x16 [1, 0] a12 transposes_S16x64_S64x16_1_0))
      (broadcastInDim S65536x16 ![0, 1] bcast_S1x16_S65536x16_0_1 (broadcastInDim S1x16 ![1] bcast_S16_S1x16_1 a13))
  let v65 : FVec F S65536x16 .f32 := maximumf v64 (broadcastInDim S65536x16 ![] bcast_S_S65536x16 (constant S_ .f32 0x00000000#32))
  let v70 : FVec F S65536x1 .f32 :=
    addf (Host.dotGeneral dot_S65536x16_S16x1_S65536x1_1_0_0_1_n_n none v65 (transpose S16x1 [1, 0] a14 transposes_S1x16_S16x1_1_0))
      (broadcastInDim S65536x1 ![0, 1] bcast_S1x1_S65536x1_0_1 (broadcastInDim S1x1 ![1] bcast_S1_S1x1_1 a15))
  shapeCast S65536 v70 shapeCasts_S65536x1_S65536

/-- The reference's result array of its arguments. -/
def refOut (a0 a1 : IVec S65536 32) (a2 : IVec S65536x7x7 32) (a3 : FVec F S16777216x8 .f32) (a4 : FVec F S4x32 .f32)
    (a5 : FVec F S200x16 .f32) (a6 : FVec F S256x440 .f32) (a7 a8 a9 : FVec F S256 .f32) (a10 : FVec F S64x256 .f32)
    (a11 : FVec F S64 .f32) (a12 : FVec F S16x64 .f32) (a13 : FVec F S16 .f32) (a14 : FVec F S1x16 .f32)
    (a15 : FVec F S1 .f32) : FVec F S65536 .f32 :=
  tailR (h1R (sR a0 a4) (cR a1 a5) (xR a2 a3) a6 a7) a8 a9 a10 a11 a12 a13 a14 a15

end Cert.ReferenceIdeal.RefValue

end
-- ==== Proof.ROps.lean ====
/-
  The reference's @main as a list of its host operations (the outlined helper functions' operations listed at their
  calls, over the calls' buffer records), cut into four consecutive stretches: the index arithmetic and the three
  gathers (the feature pieces), the concatenation and the first layer, the batch statistics and the normalisation,
  and the three small layers.  For each stretch: every operation touches TensorCore buffers only; the list of the
  buffers it writes; and a buffer outside that list keeps its contents through the stretch.
-/
import proofs.«162343_j80882824118683_1_alg».proof.Proof.RefTerm
import Idealize.ShloMosaic.Lib.StableHlo.Run

noncomputable section

namespace Cert.ReferenceIdeal.RefValue

open Idealize.ShloMosaic Idealize.ShloMosaic.TcCoe Idealize.ShloMosaic.StableHlo Idealize.SL.Sem
open Cert.ReferenceIdeal Cert.ReferenceIdeal.Facts₀

variable {F : FTy → Type} [FloatOps F]

/-- One operation of a literal line writes a buffer of the given list: the operation's written set is the singleton
    of its result buffer, which is found in the list by computation. -/
local macro "writes_one" : tactic =>
  `(tactic| (simp only [nullary_writes, unary_writes, binary_writes, ternary_writes, reshape_writes, nary_writes,
      Finset.singleton_subset_iff, List.mem_toFinset]; exact List.mem_map_of_mem (by decide)))

/-- The fold of two lines run one after the other is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The first stretch: the index arithmetic (the remainder helper's operations at its call, then the wrap of negative indices) and the three gathers, fifty operations up to the 16-wide piece. -/
abbrev opsA : List (HloOp τ sig (Elt F)) :=
  [ StableHlo.nullary main_c (constantI S_ 32 16777216#32),
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S65536x7x7 ![] bcast_S_S65536x7x7),
    StableHlo.TRef.binary (.of main_arg2 : StableHlo.TRef sig ⟨S65536x7x7, .i32⟩) main_call0.v3 main_call0.v4 Host.remsi,
    StableHlo.TRef.nullary main_call0.c_1 (constantI S_ 32 0#32),
    StableHlo.TRef.unary main_call0.c_1 main_call0.v5 (broadcastInDim S65536x7x7 ![] bcast_S_S65536x7x7),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S65536x7x7 ![] bcast_S_S65536x7x7),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S65536x7x7 ![] bcast_S_S65536x7x7),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S65536x7x7 ![] bcast_S_S65536x7x7),
    StableHlo.TRef.binary main_call0.v4 main_call0.v13 main_call0.v14 addi,
    StableHlo.TRef.ternary main_call0.v12 main_call0.v14 main_call0.v4 main_call0.v15 select,
    StableHlo.nullary main_c_0 (constantI S_ 32 0#32),
    StableHlo.unary main_c_0 main_v1 (broadcastInDim S65536x7x7 ![] bcast_S_S65536x7x7 : (⟨S_, .i32⟩ : BufTy).Contents (Elt F) → (⟨S65536x7x7, .i32⟩ : BufTy).Contents (Elt F)),
    StableHlo.binary main_v0 main_v1 main_v2 (cmpi .slt : (⟨S65536x7x7, .i32⟩ : BufTy).Contents (Elt F) → (⟨S65536x7x7, .i32⟩ : BufTy).Contents (Elt F) → (⟨S65536x7x7, .i1⟩ : BufTy).Contents (Elt F)),
    StableHlo.nullary main_c_1 (constantI S_ 32 16777216#32),
    StableHlo.unary main_c_1 main_v3 (broadcastInDim S65536x7x7 ![] bcast_S_S65536x7x7 : (⟨S_, .i32⟩ : BufTy).Contents (Elt F) → (⟨S65536x7x7, .i32⟩ : BufTy).Contents (Elt F)),
    StableHlo.binary main_v0 main_v3 main_v4 (addi : (⟨S65536x7x7, .i32⟩ : BufTy).Contents (Elt F) → (⟨S65536x7x7, .i32⟩ : BufTy).Contents (Elt F) → (⟨S65536x7x7, .i32⟩ : BufTy).Contents (Elt F)),
    StableHlo.ternary main_v2 main_v4 main_v0 main_v5 (select : (⟨S65536x7x7, .i1⟩ : BufTy).Contents (Elt F) → (⟨S65536x7x7, .i32⟩ : BufTy).Contents (Elt F) → (⟨S65536x7x7, .i32⟩ : BufTy).Contents (Elt F) → (⟨S65536x7x7, .i32⟩ : BufTy).Contents (Elt F)),
    StableHlo.unary main_v5 main_v6 (broadcastInDim S65536x7x7x1 ![0, 1, 2] bcast_S65536x7x7_S65536x7x7x1_0_1_2 : (⟨S65536x7x7, .i32⟩ : BufTy).Contents (Elt F) → (⟨S65536x7x7x1, .i32⟩ : BufTy).Contents (Elt F)),
    StableHlo.binary main_arg3 main_v6 main_v7 ((fun x i => Host.gather gather_S16777216x8_S65536x7x7x1_S65536x7x7x8_3_0_n_n_0_3_18 x i) : (⟨S16777216x8, .f32⟩ : BufTy).Contents (Elt F) → (⟨S65536x7x7x1, .i32⟩ : BufTy).Contents (Elt F) → (⟨S65536x7x7x8, .f32⟩ : BufTy).Contents (Elt F)),
    StableHlo.reshape main_v7 main_v8 rfl shapeCasts_S65536x7x7x8_S65536x392,
    StableHlo.nullary main_c_2 (constantI S_ 32 0#32),
    StableHlo.unary main_c_2 main_v9 (broadcastInDim S65536 ![] bcast_S_S65536 : (⟨S_, .i32⟩ : BufTy).Contents (Elt F) → (⟨S65536, .i32⟩ : BufTy).Contents (Elt F)),
    StableHlo.binary main_arg0 main_v9 main_v10 (cmpi .slt : (⟨S65536, .i32⟩ : BufTy).Contents (Elt F) → (⟨S65536, .i32⟩ : BufTy).Contents (Elt F) → (⟨S65536, .i1⟩ : BufTy).Contents (Elt F)),
    StableHlo.nullary main_c_3 (constantI S_ 32 4#32),
    StableHlo.unary main_c_3 main_v11 (broadcastInDim S65536 ![] bcast_S_S65536 : (⟨S_, .i32⟩ : BufTy).Contents (Elt F) → (⟨S65536, .i32⟩ : BufTy).Contents (Elt F)),
    StableHlo.binary main_arg0 main_v11 main_v12 (addi : (⟨S65536, .i32⟩ : BufTy).Contents (Elt F) → (⟨S65536, .i32⟩ : BufTy).Contents (Elt F) → (⟨S65536, .i32⟩ : BufTy).Contents (Elt F)),
    StableHlo.ternary main_v10 main_v12 main_arg0 main_v13 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v13 main_v14 (broadcastInDim S65536x1 ![0] bcast_S65536_S65536x1_0 : (⟨S65536, .i32⟩ : BufTy).Contents (Elt F) → (⟨S65536x1, .i32⟩ : BufTy).Contents (Elt F)),
    StableHlo.binary main_arg4 main_v14 main_v15 ((fun x i => Host.gather gather_S4x32_S65536x1_S65536x32_1_0_n_n_0_1_132 x i) : (⟨S4x32, .f32⟩ : BufTy).Contents (Elt F) → (⟨S65536x1, .i32⟩ : BufTy).Contents (Elt F) → (⟨S65536x32, .f32⟩ : BufTy).Contents (Elt F)),
    StableHlo.nullary main_c_4 (constantI S_ 32 0#32),
    StableHlo.unary main_c_4 main_v16 (broadcastInDim S65536 ![] bcast_S_S65536 : (⟨S_, .i32⟩ : BufTy).Contents (Elt F) → (⟨S65536, .i32⟩ : BufTy).Contents (Elt F)),
    StableHlo.binary main_arg1 main_v16 main_v17 (cmpi .slt : (⟨S65536, .i32⟩ : BufTy).Contents (Elt F) → (⟨S65536, .i32⟩ : BufTy).Contents (Elt F) → (⟨S65536, .i1⟩ : BufTy).Contents (Elt F)),
    StableHlo.nullary main_c_5 (constantI S_ 32 200#32),
    StableHlo.unary main_c_5 main_v18 (broadcastInDim S65536 ![] bcast_S_S65536 : (⟨S_, .i32⟩ : BufTy).Contents (Elt F) → (⟨S65536, .i32⟩ : BufTy).Contents (Elt F)),
    StableHlo.binary main_arg1 main_v18 main_v19 (addi : (⟨S65536, .i32⟩ : BufTy).Contents (Elt F) → (⟨S65536, .i32⟩ : BufTy).Contents (Elt F) → (⟨S65536, .i32⟩ : BufTy).Contents (Elt F)),
    StableHlo.ternary main_v17 main_v19 main_arg1 main_v20 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v20 main_v21 (broadcastInDim S65536x1 ![0] bcast_S65536_S65536x1_0 : (⟨S65536, .i32⟩ : BufTy).Contents (Elt F) → (⟨S65536x1, .i32⟩ : BufTy).Contents (Elt F)),
    StableHlo.binary main_arg5 main_v21 main_v22 ((fun x i => Host.gather gather_S200x16_S65536x1_S65536x16_1_0_n_n_0_1_116 x i) : (⟨S200x16, .f32⟩ : BufTy).Contents (Elt F) → (⟨S65536x1, .i32⟩ : BufTy).Contents (Elt F) → (⟨S65536x16, .f32⟩ : BufTy).Contents (Elt F)) ]

set_option maxRecDepth 8192 in
theorem opsA_sub : (opsA : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The buffers this stretch writes. -/
abbrev WA : List (Ref sig .tc) := [main_c, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v0, main_c_0, main_v1, main_v2, main_c_1, main_v3, main_v4, main_v5, main_v6, main_v7, main_v8, main_c_2, main_v9, main_v10, main_c_3, main_v11, main_v12, main_v13, main_v14, main_v15, main_c_4, main_v16, main_v17, main_c_5, main_v18, main_v19, main_v20, main_v21, main_v22]

set_option maxRecDepth 8192 in
theorem opsA_writes : (opsA : List (HloOp τ sig (Elt F))).Forall fun op =>
    op.writes ⊆ (WA.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer this stretch does not write keeps its contents through it. -/
theorem keepA (V : Valuation τ sig (Elt F)) (r : Ref sig .tc) (h : r ∉ WA) :
    after (opsA (F := F)) V (Proc.devRef .tc r) = V (Proc.devRef .tc r) :=
  after_of_writes_sub opsA V opsA_writes h

/-- The second stretch: the concatenation of the three pieces and the first layer, six operations. -/
abbrev opsB : List (HloOp τ sig (Elt F)) :=
  [ StableHlo.nary ![main_v15, main_v22, main_v8] main_v23 (fun u => concatenate S65536x440 1 [⟨S65536x32, u 0⟩, ⟨S65536x16, u 1⟩, ⟨S65536x392, u 2⟩] concatenates_S65536x32_S65536x16_S65536x392_S65536x440_d1),
    StableHlo.unary main_arg6 main_v24 ((transpose S440x256 [1, 0] · transposes_S256x440_S440x256_1_0) : (⟨S256x440, .f32⟩ : BufTy).Contents (Elt F) → (⟨S440x256, .f32⟩ : BufTy).Contents (Elt F)),
    StableHlo.binary main_v23 main_v24 main_v25 ((fun l r => Host.dotGeneral dot_S65536x440_S440x256_S65536x256_1_0_0_1_n_n none l r) : (⟨S65536x440, .f32⟩ : BufTy).Contents (Elt F) → (⟨S440x256, .f32⟩ : BufTy).Contents (Elt F) → (⟨S65536x256, .f32⟩ : BufTy).Contents (Elt F)),
    StableHlo.unary main_arg7 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S65536x256 ![0, 1] bcast_S1x256_S65536x256_0_1 : (⟨S1x256, .f32⟩ : BufTy).Contents (Elt F) → (⟨S65536x256, .f32⟩ : BufTy).Contents (Elt F)),
    StableHlo.binary main_v25 main_v27 main_v28 (addf : (⟨S65536x256, .f32⟩ : BufTy).Contents (Elt F) → (⟨S65536x256, .f32⟩ : BufTy).Contents (Elt F) → (⟨S65536x256, .f32⟩ : BufTy).Contents (Elt F)) ]

set_option maxRecDepth 8192 in
theorem opsB_sub : (opsB : List (HloOp τ sig (Elt F))).Forall fun op => op.bufs ⊆ tcRefs τ sig :=
  ⟨nary_bufs_sub .., unary_bufs_sub .., binary_bufs_sub .., unary_bufs_sub .., unary_bufs_sub .., binary_bufs_sub ..⟩

/-- The buffers this stretch writes. -/
abbrev WB : List (Ref sig .tc) := [main_v23, main_v24, main_v25, main_v26, main_v27, main_v28]

set_option maxRecDepth 8192 in
theorem opsB_writes : (opsB : List (HloOp τ sig (Elt F))).Forall fun op =>
    op.writes ⊆ (WB.map (Proc.devRef (τ := τ) .tc)).toFinset := by
  simp only [List.Forall]; exact ⟨by writes_one, by writes_one, by writes_one, by writes_one, by writes_one, by writes_one⟩

/-- A buffer this stretch does not write keeps its contents through it. -/
theorem keepB (V : Valuation τ sig (Elt F)) (r : Ref sig .tc) (h : r ∉ WB) :
    after (opsB (F := F)) V (Proc.devRef .tc r) = V (Proc.devRef .tc r) :=
  after_of_writes_sub opsB V opsB_writes h

/-- The third stretch: the batch mean, the variance as the mean of squared deviations, and the normalisation, twenty-four operations up to the end of @main's first window. -/
abbrev opsC : List (HloOp τ sig (Elt F)) :=
  [ StableHlo.nullary main_cst (constant S_ .f32 0x00000000#32),
    StableHlo.binary main_v28 main_cst main_v29 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_6 (constant S_ .f32 0x47800000#32),
    StableHlo.unary main_cst_6 main_v30 (broadcastInDim S256 ![] bcast_S_S256 : (⟨S_, .f32⟩ : BufTy).Contents (Elt F) → (⟨S256, .f32⟩ : BufTy).Contents (Elt F)),
    StableHlo.binary main_v29 main_v30 main_v31 (Host.divf : (⟨S256, .f32⟩ : BufTy).Contents (Elt F) → (⟨S256, .f32⟩ : BufTy).Contents (Elt F) → (⟨S256, .f32⟩ : BufTy).Contents (Elt F)),
    StableHlo.unary main_v31 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S65536x256 ![0, 1] bcast_S1x256_S65536x256_0_1 : (⟨S1x256, .f32⟩ : BufTy).Contents (Elt F) → (⟨S65536x256, .f32⟩ : BufTy).Contents (Elt F)),
    StableHlo.binary main_v28 main_v33 main_v34 (subf : (⟨S65536x256, .f32⟩ : BufTy).Contents (Elt F) → (⟨S65536x256, .f32⟩ : BufTy).Contents (Elt F) → (⟨S65536x256, .f32⟩ : BufTy).Contents (Elt F)),
    StableHlo.binary main_v34 main_v34 main_v35 (mulf : (⟨S65536x256, .f32⟩ : BufTy).Contents (Elt F) → (⟨S65536x256, .f32⟩ : BufTy).Contents (Elt F) → (⟨S65536x256, .f32⟩ : BufTy).Contents (Elt F)),
    StableHlo.nullary main_cst_7 (constant S_ .f32 0x00000000#32),
    StableHlo.binary main_v35 main_cst_7 main_v36 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_8 (constant S_ .f32 0x47800000#32),
    StableHlo.unary main_cst_8 main_v37 (broadcastInDim S256 ![] bcast_S_S256 : (⟨S_, .f32⟩ : BufTy).Contents (Elt F) → (⟨S256, .f32⟩ : BufTy).Contents (Elt F)),
    StableHlo.binary main_v36 main_v37 main_v38 (Host.divf : (⟨S256, .f32⟩ : BufTy).Contents (Elt F) → (⟨S256, .f32⟩ : BufTy).Contents (Elt F) → (⟨S256, .f32⟩ : BufTy).Contents (Elt F)),
    StableHlo.unary main_v31 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S65536x256 ![0, 1] bcast_S1x256_S65536x256_0_1 : (⟨S1x256, .f32⟩ : BufTy).Contents (Elt F) → (⟨S65536x256, .f32⟩ : BufTy).Contents (Elt F)),
    StableHlo.binary main_v28 main_v40 main_v41 (subf : (⟨S65536x256, .f32⟩ : BufTy).Contents (Elt F) → (⟨S65536x256, .f32⟩ : BufTy).Contents (Elt F) → (⟨S65536x256, .f32⟩ : BufTy).Contents (Elt F)),
    StableHlo.nullary main_cst_9 (constant S_ .f32 0x3727C5AC#32),
    StableHlo.unary main_cst_9 main_v42 (broadcastInDim S256 ![] bcast_S_S256 : (⟨S_, .f32⟩ : BufTy).Contents (Elt F) → (⟨S256, .f32⟩ : BufTy).Contents (Elt F)),
    StableHlo.binary main_v38 main_v42 main_v43 (addf : (⟨S256, .f32⟩ : BufTy).Contents (Elt F) → (⟨S256, .f32⟩ : BufTy).Contents (Elt F) → (⟨S256, .f32⟩ : BufTy).Contents (Elt F)),
    StableHlo.unary main_v43 main_v44 (Host.rsqrt : (⟨S256, .f32⟩ : BufTy).Contents (Elt F) → (⟨S256, .f32⟩ : BufTy).Contents (Elt F)),
    StableHlo.unary main_v44 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S65536x256 ![0, 1] bcast_S1x256_S65536x256_0_1 : (⟨S1x256, .f32⟩ : BufTy).Contents (Elt F) → (⟨S65536x256, .f32⟩ : BufTy).Contents (Elt F)),
    StableHlo.binary main_v41 main_v46 main_v47 (mulf : (⟨S65536x256, .f32⟩ : BufTy).Contents (Elt F) → (⟨S65536x256, .f32⟩ : BufTy).Contents (Elt F) → (⟨S65536x256, .f32⟩ : BufTy).Contents (Elt F)) ]

set_option maxRecDepth 8192 in
theorem opsC_sub : (opsC : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

/-- The buffers this stretch writes. -/
abbrev WC : List (Ref sig .tc) := [main_cst, main_v29, main_cst_6, main_v30, main_v31, main_v32, main_v33, main_v34, main_v35, main_cst_7, main_v36, main_cst_8, main_v37, main_v38, main_v39, main_v40, main_v41, main_cst_9, main_v42, main_v43, main_v44, main_v45, main_v46, main_v47]

set_option maxRecDepth 8192 in
theorem opsC_writes : (opsC : List (HloOp τ sig (Elt F))).Forall fun op =>
    op.writes ⊆ (WC.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer this stretch does not write keeps its contents through it. -/
theorem keepC (V : Valuation τ sig (Elt F)) (r : Ref sig .tc) (h : r ∉ WC) :
    after (opsC (F := F)) V (Proc.devRef .tc r) = V (Proc.devRef .tc r) :=
  after_of_writes_sub opsC V opsC_writes h

/-- The last stretch (@main's second window): the affine map of the normalised rows and the three small layers, the two rectifier helpers' operations at their calls, twenty-eight operations. -/
abbrev opsD : List (HloOp τ sig (Elt F)) :=
  [ StableHlo.unary main_arg8 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S65536x256 ![0, 1] bcast_S1x256_S65536x256_0_1 : (⟨S1x256, .f32⟩ : BufTy).Contents (Elt F) → (⟨S65536x256, .f32⟩ : BufTy).Contents (Elt F)),
    StableHlo.binary main_v47 main_v49 main_v50 (mulf : (⟨S65536x256, .f32⟩ : BufTy).Contents (Elt F) → (⟨S65536x256, .f32⟩ : BufTy).Contents (Elt F) → (⟨S65536x256, .f32⟩ : BufTy).Contents (Elt F)),
    StableHlo.unary main_arg9 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S65536x256 ![0, 1] bcast_S1x256_S65536x256_0_1 : (⟨S1x256, .f32⟩ : BufTy).Contents (Elt F) → (⟨S65536x256, .f32⟩ : BufTy).Contents (Elt F)),
    StableHlo.binary main_v50 main_v52 main_v53 (addf : (⟨S65536x256, .f32⟩ : BufTy).Contents (Elt F) → (⟨S65536x256, .f32⟩ : BufTy).Contents (Elt F) → (⟨S65536x256, .f32⟩ : BufTy).Contents (Elt F)),
    StableHlo.unary main_arg10 main_v54 ((transpose S256x64 [1, 0] · transposes_S64x256_S256x64_1_0) : (⟨S64x256, .f32⟩ : BufTy).Contents (Elt F) → (⟨S256x64, .f32⟩ : BufTy).Contents (Elt F)),
    StableHlo.binary main_v53 main_v54 main_v55 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    StableHlo.unary main_arg11 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S65536x64 ![0, 1] bcast_S1x64_S65536x64_0_1 : (⟨S1x64, .f32⟩ : BufTy).Contents (Elt F) → (⟨S65536x64, .f32⟩ : BufTy).Contents (Elt F)),
    StableHlo.binary main_v55 main_v57 main_v58 (addf : (⟨S65536x64, .f32⟩ : BufTy).Contents (Elt F) → (⟨S65536x64, .f32⟩ : BufTy).Contents (Elt F) → (⟨S65536x64, .f32⟩ : BufTy).Contents (Elt F)),
    StableHlo.TRef.nullary main_call1.cst (constant S_ .f32 0x00000000#32),
    StableHlo.TRef.unary main_call1.cst main_call1.v0 (broadcastInDim S65536x64 ![] bcast_S_S65536x64),
    StableHlo.TRef.binary (.of main_v58 : StableHlo.TRef sig ⟨S65536x64, .f32⟩) main_call1.v0 main_call1.v1 maximumf,
    StableHlo.unary main_arg12 main_v60 ((transpose S64x16 [1, 0] · transposes_S16x64_S64x16_1_0) : (⟨S16x64, .f32⟩ : BufTy).Contents (Elt F) → (⟨S64x16, .f32⟩ : BufTy).Contents (Elt F)),
    StableHlo.binary main_v59 main_v60 main_v61 ((fun l r => Host.dotGeneral dot_S65536x64_S64x16_S65536x16_1_0_0_1_n_n none l r) : (⟨S65536x64, .f32⟩ : BufTy).Contents (Elt F) → (⟨S64x16, .f32⟩ : BufTy).Contents (Elt F) → (⟨S65536x16, .f32⟩ : BufTy).Contents (Elt F)),
    StableHlo.unary main_arg13 main_v62 (broadcastInDim S1x16 ![1] bcast_S16_S1x16_1 : (⟨S16, .f32⟩ : BufTy).Contents (Elt F) → (⟨S1x16, .f32⟩ : BufTy).Contents (Elt F)),
    StableHlo.unary main_v62 main_v63 (broadcastInDim S65536x16 ![0, 1] bcast_S1x16_S65536x16_0_1 : (⟨S1x16, .f32⟩ : BufTy).Contents (Elt F) → (⟨S65536x16, .f32⟩ : BufTy).Contents (Elt F)),
    StableHlo.binary main_v61 main_v63 main_v64 (addf : (⟨S65536x16, .f32⟩ : BufTy).Contents (Elt F) → (⟨S65536x16, .f32⟩ : BufTy).Contents (Elt F) → (⟨S65536x16, .f32⟩ : BufTy).Contents (Elt F)),
    StableHlo.TRef.nullary main_call2.cst (constant S_ .f32 0x00000000#32),
    StableHlo.TRef.unary main_call2.cst main_call2.v0 (broadcastInDim S65536x16 ![] bcast_S_S65536x16),
    StableHlo.TRef.binary (.of main_v64 : StableHlo.TRef sig ⟨S65536x16, .f32⟩) main_call2.v0 main_call2.v1 maximumf,
    StableHlo.unary main_arg14 main_v66 ((transpose S16x1 [1, 0] · transposes_S1x16_S16x1_1_0) : (⟨S1x16, .f32⟩ : BufTy).Contents (Elt F) → (⟨S16x1, .f32⟩ : BufTy).Contents (Elt F)),
    StableHlo.binary main_v65 main_v66 main_v67 ((fun l r => Host.dotGeneral dot_S65536x16_S16x1_S65536x1_1_0_0_1_n_n none l r) : (⟨S65536x16, .f32⟩ : BufTy).Contents (Elt F) → (⟨S16x1, .f32⟩ : BufTy).Contents (Elt F) → (⟨S65536x1, .f32⟩ : BufTy).Contents (Elt F)),
    StableHlo.unary main_arg15 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S65536x1 ![0, 1] bcast_S1x1_S65536x1_0_1 : (⟨S1x1, .f32⟩ : BufTy).Contents (Elt F) → (⟨S65536x1, .f32⟩ : BufTy).Contents (Elt F)),
    StableHlo.binary main_v67 main_v69 main_v70 (addf : (⟨S65536x1, .f32⟩ : BufTy).Contents (Elt F) → (⟨S65536x1, .f32⟩ : BufTy).Contents (Elt F) → (⟨S65536x1, .f32⟩ : BufTy).Contents (Elt F)),
    StableHlo.reshape main_v70 main_v71 rfl shapeCasts_S65536x1_S65536 ]

set_option maxRecDepth 8192 in
theorem opsD_sub : (opsD : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub ..⟩

/-- The buffers this stretch writes. -/
abbrev WD : List (Ref sig .tc) := [main_v48, main_v49, main_v50, main_v51, main_v52, main_v53, main_v54, main_v55, main_v56, main_v57, main_v58, main_call1_cst, main_call1_v0, main_v59, main_v60, main_v61, main_v62, main_v63, main_v64, main_call2_cst, main_call2_v0, main_v65, main_v66, main_v67, main_v68, main_v69, main_v70, main_v71]

set_option maxRecDepth 8192 in
theorem opsD_writes : (opsD : List (HloOp τ sig (Elt F))).Forall fun op =>
    op.writes ⊆ (WD.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer this stretch does not write keeps its contents through it. -/
theorem keepD (V : Valuation τ sig (Elt F)) (r : Ref sig .tc) (h : r ∉ WD) :
    after (opsD (F := F)) V (Proc.devRef .tc r) = V (Proc.devRef .tc r) :=
  after_of_writes_sub opsD V opsD_writes h

/-! ## The whole line -/

/-- @main's first window: the first three stretches. -/
abbrev ops0 : List (HloOp τ sig (Elt F)) := opsA ++ (opsB ++ opsC)

/-- @main's operations, in order. -/
abbrev ops : List (HloOp τ sig (Elt F)) := ops0 ++ opsD

theorem ops_sub : (ops : List (HloOp τ sig (Elt F))).Forall fun op => op.bufs ⊆ tcRefs τ sig :=
  List.forall_append.mpr ⟨List.forall_append.mpr ⟨opsA_sub, List.forall_append.mpr ⟨opsB_sub, opsC_sub⟩⟩, opsD_sub⟩

/-- The fold of the whole line is the four stretches' folds, one over the other. -/
theorem after_ops (V : Valuation τ sig (Elt F)) :
    after (ops (F := F)) V = after opsD (after opsC (after opsB (after opsA V))) := by
  show after ((opsA ++ (opsB ++ opsC)) ++ opsD) V = _
  rw [after_app, after_app, after_app]

/-- A buffer none of the first three stretches writes keeps its contents through them. -/
theorem keep3 (V : Valuation τ sig (Elt F)) (r : Ref sig .tc) (hA : r ∉ WA) (hB : r ∉ WB) (hC : r ∉ WC) :
    after (opsC (F := F)) (after opsB (after opsA V)) (Proc.devRef .tc r) = V (Proc.devRef .tc r) :=
  (keepC _ r hC).trans ((keepB _ r hB).trans (keepA _ r hA))

/-- A buffer no operation writes keeps its contents through the whole line. -/
theorem keep_all (V : Valuation τ sig (Elt F)) (r : Ref sig .tc) (hA : r ∉ WA) (hB : r ∉ WB) (hC : r ∉ WC) (hD : r ∉ WD) :
    after (ops (F := F)) V (Proc.devRef .tc r) = V (Proc.devRef .tc r) := by
  rw [after_ops]; exact (keepD _ r hD).trans (keep3 V r hA hB hC)

/-! ## The later stretches' terms

The reference's tail, cut where its two windows meet: the normalised first-layer output (the value `%47`), and
everything after it as a term of that value. Together they are `tailR`. -/

/-- The first layer's output centred at the batch mean and scaled by the inverse root of the variance plus the
    small constant (the reference's value `%47`). -/
def normR (h : FVec F S65536x256 .f32) : FVec F S65536x256 .f32 :=
  mulf (subf h (rows256 (muR h)))
    (rows256 (Host.rsqrt (addf (varR h) (broadcastInDim S256 ![] bcast_S_S256 (constant S_ .f32 0x3727C5AC#32)))))

/-- Everything after the normalisation (`%48` … `%71`): the affine map of the normalised rows and the three
    small layers. -/
def tailD (n : FVec F S65536x256 .f32) (a8 a9 : FVec F S256 .f32) (a10 : FVec F S64x256 .f32) (a11 : FVec F S64 .f32)
    (a12 : FVec F S16x64 .f32) (a13 : FVec F S16 .f32) (a14 : FVec F S1x16 .f32) (a15 : FVec F S1 .f32) : FVec F S65536 .f32 :=
  let v53 : FVec F S65536x256 .f32 := addf (mulf n (rows256 a8)) (rows256 a9)
  let v58 : FVec F S65536x64 .f32 :=
    addf (Host.dotGeneral dot_S65536x256_S256x64_S65536x64_1_0_0_1_n_n none v53 (transpose S256x64 [1, 0] a10 transposes_S64x256_S256x64_1_0))
      (broadcastInDim S65536x64 ![0, 1] bcast_S1x64_S65536x64_0_1 (broadcastInDim S1x64 ![1] bcast_S64_S1x64_1 a11))
  let v59 : FVec F S65536x64 .f32 := maximumf v58 (broadcastInDim S65536x64 ![] bcast_S_S65536x64 (constant S_ .f32 0x00000000#32))
  let v64 : FVec F S65536x16 .f32 :=
    addf (Host.dotGeneral dot_S65536x64_S64x16_S65536x16_1_0_0_1_n_n none v59 (transpose S64x16 [1, 0] a12 transposes_S16x64_S64x16_1_0))
      (broadcastInDim S65536x16 ![0, 1] bcast_S1x16_S65536x16_0_1 (broadcastInDim S1x16 ![1] bcast_S16_S1x16_1 a13))
  let v65 : FVec F S65536x16 .f32 := maximumf v64 (broadcastInDim S65536x16 ![] bcast_S_S65536x16 (constant S_ .f32 0x00000000#32))
  let v70 : FVec F S65536x1 .f32 :=
    addf (Host.dotGeneral dot_S65536x16_S16x1_S65536x1_1_0_0_1_n_n none v65 (transpose S16x1 [1, 0] a14 transposes_S1x16_S16x1_1_0))
      (broadcastInDim S65536x1 ![0, 1] bcast_S1x1_S65536x1_0_1 (broadcastInDim S1x1 ![1] bcast_S1_S1x1_1 a15))
  shapeCast S65536 v70 shapeCasts_S65536x1_S65536

/-- The tail is the later part applied to the normalised value: both sides are the same nest of operations. -/
theorem tailR_eq (h : FVec F S65536x256 .f32) (a8 a9 : FVec F S256 .f32) (a10 : FVec F S64x256 .f32) (a11 : FVec F S64 .f32)
    (a12 : FVec F S16x64 .f32) (a13 : FVec F S16 .f32) (a14 : FVec F S1x16 .f32) (a15 : FVec F S1 .f32) :
    tailR h a8 a9 a10 a11 a12 a13 a14 a15 = tailD (normR h) a8 a9 a10 a11 a12 a13 a14 a15 := rfl

end Cert.ReferenceIdeal.RefValue

end
-- ==== Proof.LibNary3.lean ====
/-
  A host concatenation of THREE operands, printed as one n-ary operation over a literal family of three references:
  its result with each operand's contents at its own reference (in the shape of the library's four-reference lemma),
  so that the fold of a line of host operations can go on being evaluated through the three operands.
  nary3_result is the plain form, nary3_result' the form for one simp pass beside the library's primed lemmas.
  Generic in the topology, the signature and the value family.
-/
import Idealize.ShloMosaic.Lib.StableHlo.Run

noncomputable section

namespace Cert.Lib.Nary3

open Idealize.ShloMosaic Idealize.ShloMosaic.StableHlo

variable {τ : Topo} {sig : RefSig} {Val : EltTy → Type} {x a b y : Ref sig .tc}

/-- The result of a three-operand n-ary operation at its own result buffer: the function applied to the three
    operands' contents, each read at its own reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result reference un-indexed, for use in a simp set. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

end Cert.Lib.Nary3

end
-- ==== Proof.RRun.lean ====
/-
  The reference's run: its @main is one straight line of host operations (the outlined helper functions unfolded at
  their calls), so every weakly fair execution terminates with each buffer at the operations' fold over the launch
  contents; the result buffer's fold is the term `refOut` of the argument arrays, and no operation writes an argument.

  The line is read in four consecutive stretches (the lists `opsA` … `opsD`): the index arithmetic and the three
  gathers, the concatenation and the first layer, the batch statistics and the normalisation, and the three small
  layers.  Each stretch's fold is read at the one buffer the next stretch needs, as a term of the buffers it starts
  from; a buffer a stretch does not write is carried through it unchanged.
-/
import proofs.«162343_j80882824118683_1_alg».proof.Proof.RefTerm
import proofs.«162343_j80882824118683_1_alg».proof.Proof.ROps
import proofs.«162343_j80882824118683_1_alg».proof.Proof.LibNary3
import Idealize.ShloMosaic.Lib.StableHlo.Run

noncomputable section

namespace Cert.ReferenceIdeal.RefValue

open Idealize.ShloMosaic Idealize.ShloMosaic.TcCoe Idealize.ShloMosaic.StableHlo Idealize.SL.Sem
open Cert.ReferenceIdeal Cert.ReferenceIdeal.Facts₀

variable {F : FTy → Type} [FloatOps F]

/-! ## @main is the line -/

set_option maxRecDepth 8192 in
set_option maxHeartbeats 4000000 in
/-- @main's first window is its first three stretches run in order: the helper functions' definitions unfold at their
    calls, and both sides are one chain of operation steps. -/
theorem part0_eq (c : Dev nD) : main_part0 (F := F) c = seq ops0 := rfl

set_option maxRecDepth 8192 in
set_option maxHeartbeats 4000000 in
/-- @main's second window is the last stretch. -/
theorem part1_eq (c : Dev nD) : main_part1 (F := F) c = seq opsD := rfl

/-- @main is the whole line: its two windows in order are the two lists' concatenation run as one. -/
theorem main_eq (c : Dev nD) : main (F := F) c = seq ops := by
  show main_part0 c >>= (fun _ => main_part1 c) = seq (ops0 ++ opsD)
  rw [part0_eq, part1_eq]
  exact (seq_append ops0 opsD).symm

theorem scopedRefs_eq : (Finset.univ.filter fun b : Ref sig .tc => b.isScoped) = ∅ := by decide
theorem scopedSems_eq : (Finset.univ.filter fun sm : SemLoc sig => sm.isScoped .tc) = ∅ := by decide

/-! ## Each stretch's fold at the buffer the next one reads -/

set_option maxRecDepth 8192 in
set_option maxHeartbeats 4000000 in
/-- After the first stretch the 32-wide piece is the small table's rows at the wrapped first index array. -/
theorem A_s (V : Valuation τ sig (Elt F)) :
    after (opsA (F := F)) V (Proc.devRef .tc main_v15) = sR (V (Proc.devRef .tc main_arg0)) (V (Proc.devRef .tc main_arg4)) := by
  simp only [opsA]
  after_results_simp
  rfl

set_option maxRecDepth 8192 in
set_option maxHeartbeats 4000000 in
/-- After the first stretch the 16-wide piece is the 200-row table's rows at the wrapped second index array. -/
theorem A_c (V : Valuation τ sig (Elt F)) :
    after (opsA (F := F)) V (Proc.devRef .tc main_v22) = cR (V (Proc.devRef .tc main_arg1)) (V (Proc.devRef .tc main_arg5)) := by
  simp only [opsA]
  after_results_simp
  rfl

set_option maxRecDepth 8192 in
set_option maxHeartbeats 4000000 in
/-- After the first stretch the 392-wide piece is the large table's rows at the reduced third index array, laid
    side by side. -/
theorem A_x (V : Valuation τ sig (Elt F)) :
    after (opsA (F := F)) V (Proc.devRef .tc main_v8) = xR (V (Proc.devRef .tc main_arg2)) (V (Proc.devRef .tc main_arg3)) := by
  simp only [opsA]
  after_results_simp
  rfl

/-- After the second stretch the first layer's output is the product of the concatenated pieces with the
    transposed weights, plus the bias spread over the rows. -/
theorem B_out (V : Valuation τ sig (Elt F)) :
    after (opsB (F := F)) V (Proc.devRef .tc main_v28)
      = h1R (V (Proc.devRef .tc main_v15)) (V (Proc.devRef .tc main_v22)) (V (Proc.devRef .tc main_v8)) (V (Proc.devRef .tc main_arg6)) (V (Proc.devRef .tc main_arg7)) := by
  simp only [opsB]
  after_results_simp
  rfl

set_option maxRecDepth 8192 in
set_option maxHeartbeats 4000000 in
/-- After the third stretch the normalised value is `normR` of the first layer's output. -/
theorem C_out (V : Valuation τ sig (Elt F)) :
    after (opsC (F := F)) V (Proc.devRef .tc main_v47) = normR (V (Proc.devRef .tc main_v28)) := by
  simp only [opsC]
  after_results_simp
  rfl

set_option maxRecDepth 8192 in
set_option maxHeartbeats 4000000 in
/-- After the last stretch the result buffer is `tailD` of the normalised value and the last eight arguments. -/
theorem D_out (V : Valuation τ sig (Elt F)) :
    after (opsD (F := F)) V (Proc.devRef .tc main_v71)
      = tailD (V (Proc.devRef .tc main_v47)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp only [opsD]
  after_results_simp
  rfl

/-! ## The result buffer and the arguments after the whole line -/

/-- The result buffer after the whole line is `refOut` of the arguments: the four stretches' folds composed, the
    arguments each later stretch reads carried unchanged through the earlier ones. -/
theorem out_eq (V : Valuation τ sig (Elt F)) :
    after (ops (F := F)) V (Proc.devRef .tc main_v71)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [after_ops, D_out, C_out, B_out, A_s, A_c, A_x,
    keepA V main_arg6 (by decide), keepA V main_arg7 (by decide),
    keep3 V main_arg8 (by decide) (by decide) (by decide),
    keep3 V main_arg9 (by decide) (by decide) (by decide),
    keep3 V main_arg10 (by decide) (by decide) (by decide),
    keep3 V main_arg11 (by decide) (by decide) (by decide),
    keep3 V main_arg12 (by decide) (by decide) (by decide),
    keep3 V main_arg13 (by decide) (by decide) (by decide),
    keep3 V main_arg14 (by decide) (by decide) (by decide),
    keep3 V main_arg15 (by decide) (by decide) (by decide)]
  exact (tailR_eq _ _ _ _ _ _ _ _ _).symm

/-- On every device, for any float values, from any memory with zero counters: every weakly fair execution of @main
    terminates with the result buffer at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v71) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := F)) _ _).mono (fun _ h c => ⟨(h c main_v71).trans (out_eq (launchContents m c)),
      (h c main_arg0).trans (keep_all (launchContents m c) main_arg0 (by decide) (by decide) (by decide) (by decide)),
      (h c main_arg1).trans (keep_all (launchContents m c) main_arg1 (by decide) (by decide) (by decide) (by decide)),
      (h c main_arg2).trans (keep_all (launchContents m c) main_arg2 (by decide) (by decide) (by decide) (by decide)),
      (h c main_arg3).trans (keep_all (launchContents m c) main_arg3 (by decide) (by decide) (by decide) (by decide)),
      (h c main_arg4).trans (keep_all (launchContents m c) main_arg4 (by decide) (by decide) (by decide) (by decide)),
      (h c main_arg5).trans (keep_all (launchContents m c) main_arg5 (by decide) (by decide) (by decide) (by decide)),
      (h c main_arg6).trans (keep_all (launchContents m c) main_arg6 (by decide) (by decide) (by decide) (by decide)),
      (h c main_arg7).trans (keep_all (launchContents m c) main_arg7 (by decide) (by decide) (by decide) (by decide)),
      (h c main_arg8).trans (keep_all (launchContents m c) main_arg8 (by decide) (by decide) (by decide) (by decide)),
      (h c main_arg9).trans (keep_all (launchContents m c) main_arg9 (by decide) (by decide) (by decide) (by decide)),
      (h c main_arg10).trans (keep_all (launchContents m c) main_arg10 (by decide) (by decide) (by decide) (by decide)),
      (h c main_arg11).trans (keep_all (launchContents m c) main_arg11 (by decide) (by decide) (by decide) (by decide)),
      (h c main_arg12).trans (keep_all (launchContents m c) main_arg12 (by decide) (by decide) (by decide) (by decide)),
      (h c main_arg13).trans (keep_all (launchContents m c) main_arg13 (by decide) (by decide) (by decide) (by decide)),
      (h c main_arg14).trans (keep_all (launchContents m c) main_arg14 (by decide) (by decide) (by decide) (by decide)),
      (h c main_arg15).trans (keep_all (launchContents m c) main_arg15 (by decide) (by decide) (by decide) (by decide))⟩)
    (run_seq scopedRefs_eq scopedSems_eq defs main (fun _ => ops) main_eq (fun _ => ops_sub) m ρ)

end Cert.ReferenceIdeal.RefValue

end
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.RTail.lean ====
/-
  Everything the reference does after the first layer, read at a batch row: the row of the first layer's output
  normalised with the batch mean and variance, scaled and shifted, then through the three remaining layers.
-/
import proofs.«162343_j80882824118683_1_alg».proof.Proof.RefTerm
import proofs.«162343_j80882824118683_1_alg».proof.Proof.Spec
import proofs.«162343_j80882824118683_1_alg».proof.Proof.LibPlainDot
import proofs.«162343_j80882824118683_1_alg».proof.Proof.LibBroadcastInDim
import proofs.«162343_j80882824118683_1_alg».proof.Proof.LibColumn
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Facts₀

open Idealize.ShloMosaic.ValueLayout Idealize.ShloMosaic.PlainDot

/-! ### The layout pieces, read at an entry (general in the sizes) -/

/-- A vector laid as one row and spread over all rows reads, at `(p, i)`, the vector at `i`. -/
theorem rowsOf_apply {α : Type} {R n : ℕ} (hb1 : (⟨1, ![n]⟩ : Shape).BroadcastsInDim ⟨2, ![1, n]⟩ (![1] : Fin 1 → Fin 2))
    (hb2 : (⟨2, ![1, n]⟩ : Shape).BroadcastsInDim ⟨2, ![R, n]⟩ (![0, 1] : Fin 2 → Fin 2))
    (v : (⟨1, ![n]⟩ : Shape).Idx → α) (p : Fin R) (i : Fin n) :
    broadcastInDim ⟨2, ![R, n]⟩ ![0, 1] hb2 (broadcastInDim ⟨2, ![1, n]⟩ ![1] hb1 v) (ix2 p i) = v (ix1 i) :=
  (bcast_1n_rn_apply hb2 _ p i).trans (bcast_n_1n_apply hb1 v 0 i)

/-- A scalar spread over any shape reads the scalar everywhere. -/
theorem scalarOf_apply {α : Type} {t : Shape} (hb : (⟨0, ![]⟩ : Shape).BroadcastsInDim t (![] : Fin 0 → Fin t.rank))
    (x : (⟨0, ![]⟩ : Shape).Idx → α) (j : t.Idx) : broadcastInDim t ![] hb x j = x ix0 :=
  broadcastInDim_apply _ hb x j ix0 (fun a => a.elim0)

/-- An affine layer with its weight stored `[out, in]`: the product with the transposed weight plus the bias spread
    over the rows reads, at `(p, q)`, the sum over the inputs of `X (p, k) * W (q, k)`, plus `b q`. -/
theorem affine_apply {R K N : ℕ} (d : DotDims (⟨2, ![R, K]⟩ : Shape) (⟨2, ![K, N]⟩ : Shape) (⟨2, ![R, N]⟩ : Shape))
    (hd : IsPlain d) (ht : (⟨2, ![N, K]⟩ : Shape).Transposes [1, 0] ⟨2, ![K, N]⟩)
    (hb1 : (⟨1, ![N]⟩ : Shape).BroadcastsInDim ⟨2, ![1, N]⟩ (![1] : Fin 1 → Fin 2))
    (hb2 : (⟨2, ![1, N]⟩ : Shape).BroadcastsInDim ⟨2, ![R, N]⟩ (![0, 1] : Fin 2 → Fin 2))
    (X : FVec Ideal (⟨2, ![R, K]⟩ : Shape) .f32) (W : FVec Ideal (⟨2, ![N, K]⟩ : Shape) .f32)
    (b : FVec Ideal (⟨1, ![N]⟩ : Shape) .f32) (p : Fin R) (q : Fin N) :
    addf (Host.dotGeneral d none X (transpose ⟨2, ![K, N]⟩ [1, 0] W ht))
        (broadcastInDim ⟨2, ![R, N]⟩ ![0, 1] hb2 (broadcastInDim ⟨2, ![1, N]⟩ ![1] hb1 b)) (ix2 p q)
      = (∑ k : Fin K, X (ix2 p k) * W (ix2 q k)) + b (ix1 q) := by
  rw [addf_apply, rowsOf_apply hb1 hb2 b p q]
  refine congrArg (· + b (ix1 q)) ?_
  refine (dotGeneral_apply hd none .single X _ p q).trans ?_
  refine Finset.sum_congr rfl fun k _ => congrArg (X (ix2 p k) * ·) ?_
  exact transpose_apply _ W ht _ _ fun c => match c with | ⟨0, _⟩ => rfl | ⟨1, _⟩ => rfl

/-- A clip below at the literal zero spread over the whole array reads, at any entry, the maximum with that literal. -/
theorem clip_apply {t : Shape} (hb : (⟨0, ![]⟩ : Shape).BroadcastsInDim t (![] : Fin 0 → Fin t.rank))
    (x : FVec Ideal t .f32) (j : t.Idx) :
    maximumf x (broadcastInDim t ![] hb (constant (F := Ideal) ⟨0, ![]⟩ .f32 0x00000000#32)) j = max (x j) Cert.Spec.z0 := by
  rw [maximumf_apply, scalarOf_apply hb _ j]
  rfl

/-! ### The reference's pieces -/

/-- A `[256]` vector spread over the batch rows reads, at `(r, j)`, the vector at `j`. -/
theorem rows256_apply (v : FVec Ideal S256 .f32) (r : Fin 65536) (j : Fin 256) : rows256 v (ix2 r j) = v (ix1 j) :=
  rowsOf_apply bcast_S256_S1x256_1 bcast_S1x256_S65536x256_0_1 v r j

/-- The normalised, scaled and shifted row: `(h - μ) · (σ² + ε)^(-1/2) · γ + β` at column `j` of row `r`. -/
theorem norm_apply (h : FVec Ideal S65536x256 .f32) (a8 a9 : FVec Ideal S256 .f32) (mu var : Fin 256 → EReal)
    (hmu : ∀ j : Fin 256, muR h (ix1 j) = mu j) (hvar : ∀ j : Fin 256, varR h (ix1 j) = var j) (r : Fin 65536) (j : Fin 256) :
    addf (mulf (mulf (subf h (rows256 (muR h)))
        (rows256 (Host.rsqrt (addf (varR h) (broadcastInDim S256 ![] bcast_S_S256 (constant S_ .f32 0x3727C5AC#32))))))
        (rows256 a8)) (rows256 a9) (ix2 r j)
      = (h (ix2 r j) - mu j) * Ideal.rsqrt (var j + Cert.Spec.eps) * a8 (ix1 j) + a9 (ix1 j) := by
  rw [addf_apply, mulf_apply, mulf_apply, subf_apply, rows256_apply, rows256_apply, rows256_apply, rows256_apply, hmu]
  refine congrArg (fun z => (h (ix2 r j) - mu j) * z * a8 (ix1 j) + a9 (ix1 j)) ?_
  show Ideal.rsqrt (varR h (ix1 j) + broadcastInDim S256 ![] bcast_S_S256 (constant (F := Ideal) S_ .f32 0x3727C5AC#32) (ix1 j)) = _
  rw [hvar, scalarOf_apply bcast_S_S256 _ (ix1 j)]
  rfl

/-- The three remaining layers' dimension numbers are the plain ones. -/
theorem plain2 : IsPlain dot_S65536x256_S256x64_S65536x64_1_0_0_1_n_n := ⟨rfl, rfl, rfl, rfl, rfl, rfl⟩
theorem plain3 : IsPlain dot_S65536x64_S64x16_S65536x16_1_0_0_1_n_n := ⟨rfl, rfl, rfl, rfl, rfl, rfl⟩
theorem plain4 : IsPlain dot_S65536x16_S16x1_S65536x1_1_0_0_1_n_n := ⟨rfl, rfl, rfl, rfl, rfl, rfl⟩

/-- Everything after the first layer, at a row, over ANY mean and variance vectors' readings `mu`, `var`. -/
theorem tailR_apply_of (h : FVec Ideal S65536x256 .f32) (a8 a9 : FVec Ideal S256 .f32) (a10 : FVec Ideal S64x256 .f32)
    (a11 : FVec Ideal S64 .f32) (a12 : FVec Ideal S16x64 .f32) (a13 : FVec Ideal S16 .f32) (a14 : FVec Ideal S1x16 .f32)
    (a15 : FVec Ideal S1 .f32) (mu var : Fin 256 → EReal)
    (hmu : ∀ j : Fin 256, muR h (ix1 j) = mu j) (hvar : ∀ j : Fin 256, varR h (ix1 j) = var j) (r : Fin 65536) :
    tailR h a8 a9 a10 a11 a12 a13 a14 a15 (ix1 r)
      = Cert.Spec.tailRow (fun j => h (ix2 r j)) mu var
          (fun j => a8 (ix1 j)) (fun j => a9 (ix1 j)) (fun q j => a10 (ix2 q j)) (fun q => a11 (ix1 q))
          (fun q j => a12 (ix2 q j)) (fun q => a13 (ix1 q)) (fun j => a14 (ix2 0 j)) (a15 (ix1 0)) := by
  unfold tailR Cert.Spec.tailRow
  dsimp only
  -- The final reshape reads the one column; the last layer is affine in the clipped third layer.
  refine (shapeCast_a1_a_apply _ shapeCasts_S65536x1_S65536 r).trans ?_
  refine (affine_apply _ plain4 transposes_S1x16_S16x1_1_0 bcast_S1_S1x1_1 bcast_S1x1_S65536x1_0_1 _ a14 a15 r 0).trans ?_
  refine congrArg (· + a15 (ix1 0)) (Finset.sum_congr rfl fun k3 _ => congrArg (· * a14 (ix2 0 k3)) ?_)
  -- The third layer, clipped, is affine in the clipped second layer.
  refine (clip_apply bcast_S_S65536x16 _ (ix2 r k3)).trans (congrArg (max · Cert.Spec.z0) ?_)
  refine (affine_apply _ plain3 transposes_S16x64_S64x16_1_0 bcast_S16_S1x16_1 bcast_S1x16_S65536x16_0_1 _ a12 a13 r k3).trans ?_
  refine congrArg (· + a13 (ix1 k3)) (Finset.sum_congr rfl fun k2 _ => congrArg (· * a12 (ix2 k3 k2)) ?_)
  -- The second layer, clipped, is affine in the normalised row.
  refine (clip_apply bcast_S_S65536x64 _ (ix2 r k2)).trans (congrArg (max · Cert.Spec.z0) ?_)
  refine (affine_apply _ plain2 transposes_S64x256_S256x64_1_0 bcast_S64_S1x64_1 bcast_S1x64_S65536x64_0_1 _ a10 a11 r k2).trans ?_
  refine congrArg (· + a11 (ix1 k2)) (Finset.sum_congr rfl fun k1 _ => congrArg (· * a10 (ix2 k2 k1)) ?_)
  exact norm_apply h a8 a9 mu var hmu hvar r k1

end Cert.ReferenceIdeal.RefValue

end
-- ==== Proof.RValue.lean ====
/-
  The reference's result term read at a batch row, over the extended reals: the common formula (Spec.lean) of the
  three gathered pieces and the argument arrays — the variance as the mean of squared deviations.
-/
import proofs.«162343_j80882824118683_1_alg».proof.Proof.RefTerm
import proofs.«162343_j80882824118683_1_alg».proof.Proof.Spec
import proofs.«162343_j80882824118683_1_alg».proof.Proof.LibPlainDot
import proofs.«162343_j80882824118683_1_alg».proof.Proof.LibBroadcastInDim
import proofs.«162343_j80882824118683_1_alg».proof.Proof.LibColumn
import proofs.«162343_j80882824118683_1_alg».proof.Proof.RTail
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Facts₀

/-! ## Layout operations at an entry, general in the sizes -/

namespace FirstLayer

section General
variable {α : Type}

/-- A vector laid as a one-row matrix and then spread over `R` rows reads, at `(r, j)`, the vector at `j`. -/
theorem spread_apply {R n : ℕ}
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2))
    (v : (⟨1, ![n]⟩ : Shape).Idx → α) (r : Fin R) (j : Fin n) :
    broadcastInDim ⟨2, ![R, n]⟩ ![0, 1] h2 (broadcastInDim ⟨2, ![1, n]⟩ ![1] h1 v) (ix2 r j) = v (ix1 j) :=
  (ValueLayout.bcast_1n_rn_apply h2 _ r j).trans (ValueLayout.bcast_n_1n_apply h1 v 0 j)

/-- A scalar literal spread over any shape reads the literal's value everywhere. -/
theorem scalar_apply {t : Shape} (h : (⟨0, ![]⟩ : Shape).BroadcastsInDim t (![] : Fin 0 → Fin t.rank)) (c : BitVec 32)
    (j : t.Idx) : broadcastInDim t ![] h (constant (F := Ideal) ⟨0, ![]⟩ .f32 c) j = Ideal.ofBits .f32 c :=
  broadcastInDim_apply _ h _ j ix0 (fun a => a.elim0)

/-- A matrix transposed reads, at `(i, j)`, the matrix at `(j, i)`. -/
theorem transpose2_apply {m n : ℕ} (h : (⟨2, ![m, n]⟩ : Shape).Transposes [1, 0] ⟨2, ![n, m]⟩)
    (x : (⟨2, ![m, n]⟩ : Shape).Idx → α) (i : Fin n) (j : Fin m) :
    transpose ⟨2, ![n, m]⟩ [1, 0] x h (ix2 i j) = x (ix2 j i) :=
  transpose_apply _ x h _ _ (fun b => by match b with | ⟨0, _⟩ => rfl | ⟨1, _⟩ => rfl)

/-- An affine layer `v · Wᵀ + b` with the weights stored `[out, in]`, at `(r, q)`. -/
theorem affine_apply {R K N : ℕ}
    (d : DotDims (⟨2, ![R, K]⟩ : Shape) (⟨2, ![K, N]⟩ : Shape) (⟨2, ![R, N]⟩ : Shape)) (hd : PlainDot.IsPlain d)
    (ht : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (v : FVec Ideal (⟨2, ![R, K]⟩ : Shape) .f32) (W : FVec Ideal (⟨2, ![N, K]⟩ : Shape) .f32)
    (b : FVec Ideal (⟨1, ![N]⟩ : Shape) .f32) (r : Fin R) (q : Fin N) :
    addf (Host.dotGeneral d none v (transpose ⟨2, ![K, N]⟩ [1, 0] W ht))
        (broadcastInDim ⟨2, ![R, N]⟩ ![0, 1] h2 (broadcastInDim ⟨2, ![1, N]⟩ ![1] h1 b)) (ix2 r q)
      = (∑ k : Fin K, v (ix2 r k) * W (ix2 q k)) + b (ix1 q) := by
  refine congrArg₂ (· + ·) ?_ (spread_apply h1 h2 b r q)
  refine (PlainDot.dotGeneral_apply hd none .single v _ r q).trans ?_
  exact Finset.sum_congr rfl fun k _ => congrArg (v (ix2 r k) * ·) (transpose2_apply ht W k q)

end General

/-! ## The reference's own operations -/

/-- The dimension numbers of the reference's first product are the plain ones. -/
theorem plain_lin1 : PlainDot.IsPlain (R := 65536) (K := 440) (N := 256) dot_S65536x440_S440x256_S65536x256_1_0_0_1_n_n :=
  ⟨rfl, rfl, rfl, rfl, rfl, rfl⟩

/-- The three pieces side by side, at (row, column): the column decides the piece. -/
theorem concat_apply (s : FVec Ideal S65536x32 .f32) (c : FVec Ideal S65536x16 .f32) (x : FVec Ideal S65536x392 .f32)
    (r : Fin 65536) (k : Fin 440) :
    concatenate S65536x440 1 [⟨S65536x32, s⟩, ⟨S65536x16, c⟩, ⟨S65536x392, x⟩]
        concatenates_S65536x32_S65536x16_S65536x392_S65536x440_d1 (ix2 r k)
      = Cert.Spec.feat (fun r k => s (ix2 r k)) (fun r k => c (ix2 r k)) (fun r k => x (ix2 r k)) r k := by
  unfold Cert.Spec.feat
  split_ifs with h1 h2
  · exact concatenate_apply_piece (t := S65536x440) (1 : Fin 2) [⟨S65536x32, s⟩, ⟨S65536x16, c⟩, ⟨S65536x392, x⟩] concatenates_S65536x32_S65536x16_S65536x392_S65536x440_d1 (ix2 r k)
      0 (by show (0 : ℕ) < 3; omega) S65536x32 s rfl rfl 0 rfl (ix2 r ⟨k.val, h1⟩)
      (fun b => by match b with | ⟨0, _⟩ => exact fun _ => rfl | ⟨1, _⟩ => exact fun hne => absurd rfl hne)
      (Nat.zero_add _)
  · exact concatenate_apply_piece (t := S65536x440) (1 : Fin 2) [⟨S65536x32, s⟩, ⟨S65536x16, c⟩, ⟨S65536x392, x⟩] concatenates_S65536x32_S65536x16_S65536x392_S65536x440_d1 (ix2 r k)
      1 (by show (1 : ℕ) < 3; omega) S65536x16 c rfl rfl 32 rfl (ix2 r ⟨k.val - 32, by omega⟩)
      (fun b => by match b with | ⟨0, _⟩ => exact fun _ => rfl | ⟨1, _⟩ => exact fun hne => absurd rfl hne)
      (by show 32 + (k.val - 32) = k.val; omega)
  · exact concatenate_apply_piece (t := S65536x440) (1 : Fin 2) [⟨S65536x32, s⟩, ⟨S65536x16, c⟩, ⟨S65536x392, x⟩] concatenates_S65536x32_S65536x16_S65536x392_S65536x440_d1 (ix2 r k)
      2 (by show (2 : ℕ) < 3; omega) S65536x392 x rfl rfl 48 rfl (ix2 r ⟨k.val - 48, by have := k.isLt; omega⟩)
      (fun b => by match b with | ⟨0, _⟩ => exact fun _ => rfl | ⟨1, _⟩ => exact fun hne => absurd rfl hne)
      (by show 48 + (k.val - 48) = k.val; omega)

/-- The batch axis summed away, as the library's single-axis reduction wants it. -/
theorem reduces_batch : S65536x256.Reduces [0] S256 := by decide

/-- The sum over the batch axis from the zero literal, at a column. -/
theorem colsum_apply (v : FVec Ideal S65536x256 .f32) (j : Fin 256) :
    Host.reduceAdd v (constant S_ .f32 0x00000000#32) reducesTo_S65536x256_S256_d0 h_S_ (ix1 j)
      = ∑ r : Fin 65536, v (ix2 r j) := by
  unfold Host.reduceAdd
  refine (Ideal.hostReduceAdd_single reducesTo_S65536x256_S256_d0 reduces_batch v _ (ix1 j)).trans ?_
  refine (congrArg (· + _) Ideal.ofBits_zero_f32).trans ?_
  refine (zero_add _).trans ?_
  refine Finset.sum_congr rfl fun r _ => congrArg v ?_
  funext a
  match a with
  | ⟨0, _⟩ => rfl
  | ⟨1, _⟩ => rfl

/-- A host quotient at an index is the quotient of the entries. -/
theorem hostDivf_apply {s : Shape} (a b : FVec Ideal s .f32) (i : s.Idx) : Host.divf a b i = Ideal.div (a i) (b i) := rfl

/-- A vector spread over the batch rows, at (row, column). -/
theorem rows_apply (v : FVec Ideal S256 .f32) (r : Fin 65536) (j : Fin 256) : rows256 v (ix2 r j) = v (ix1 j) :=
  spread_apply bcast_S256_S1x256_1 bcast_S1x256_S65536x256_0_1 v r j

end FirstLayer

/-- The first layer's output at (row, column). -/
theorem h1R_apply (s : FVec Ideal S65536x32 .f32) (c : FVec Ideal S65536x16 .f32) (x : FVec Ideal S65536x392 .f32)
    (a6 : FVec Ideal S256x440 .f32) (a7 : FVec Ideal S256 .f32) (r : Fin 65536) (j : Fin 256) :
    h1R s c x a6 a7 (ix2 r j)
      = Cert.Spec.lin1 (Cert.Spec.feat (fun r k => s (ix2 r k)) (fun r k => c (ix2 r k)) (fun r k => x (ix2 r k)))
          (fun j k => a6 (ix2 j k)) (fun j => a7 (ix1 j)) r j := by
  unfold h1R Cert.Spec.lin1 Cert.Spec.lin1Row
  refine (FirstLayer.affine_apply (R := 65536) (K := 440) (N := 256) _ FirstLayer.plain_lin1 _ _ _ _ a6 a7 r j).trans ?_
  exact congrArg (· + a7 (ix1 j))
    (Finset.sum_congr rfl fun k _ => congrArg (· * a6 (ix2 j k)) (FirstLayer.concat_apply s c x r k))

/-- The batch mean at a column. -/
theorem muR_apply (h : FVec Ideal S65536x256 .f32) (j : Fin 256) :
    muR h (ix1 j) = Cert.Spec.mean (fun r j => h (ix2 r j)) j := by
  unfold muR Cert.Spec.mean Cert.Spec.cN
  refine (FirstLayer.hostDivf_apply _ _ _).trans ?_
  exact congrArg₂ Ideal.div (FirstLayer.colsum_apply h j) (FirstLayer.scalar_apply bcast_S_S256 _ _)

/-- The batch variance at a column. -/
theorem varR_apply (h : FVec Ideal S65536x256 .f32) (j : Fin 256) :
    varR h (ix1 j) = Cert.Spec.varR (fun r j => h (ix2 r j)) j := by
  unfold varR Cert.Spec.varR Cert.Spec.cN
  refine (FirstLayer.hostDivf_apply _ _ _).trans ?_
  refine congrArg₂ Ideal.div ((FirstLayer.colsum_apply _ j).trans ?_) (FirstLayer.scalar_apply bcast_S_S256 _ _)
  refine Finset.sum_congr rfl fun r _ => ?_
  have e : subf h (rows256 (muR h)) (ix2 r j) = h (ix2 r j) - Cert.Spec.mean (fun r j => h (ix2 r j)) j :=
    congrArg (h (ix2 r j) - ·) ((FirstLayer.rows_apply _ r j).trans (muR_apply h j))
  exact congrArg₂ (· * ·) e e

/-- Everything after the first layer, at a row. -/
theorem tailR_apply (h : FVec Ideal S65536x256 .f32) (a8 a9 : FVec Ideal S256 .f32) (a10 : FVec Ideal S64x256 .f32)
    (a11 : FVec Ideal S64 .f32) (a12 : FVec Ideal S16x64 .f32) (a13 : FVec Ideal S16 .f32) (a14 : FVec Ideal S1x16 .f32)
    (a15 : FVec Ideal S1 .f32) (r : Fin 65536) :
    tailR h a8 a9 a10 a11 a12 a13 a14 a15 (ix1 r)
      = Cert.Spec.tailRow (fun j => h (ix2 r j)) (Cert.Spec.mean (fun r j => h (ix2 r j))) (Cert.Spec.varR (fun r j => h (ix2 r j)))
          (fun j => a8 (ix1 j)) (fun j => a9 (ix1 j)) (fun q j => a10 (ix2 q j)) (fun q => a11 (ix1 q))
          (fun q j => a12 (ix2 q j)) (fun q => a13 (ix1 q)) (fun j => a14 (ix2 0 j)) (a15 (ix1 0)) := by
  exact tailR_apply_of h a8 a9 a10 a11 a12 a13 a14 a15 _ _ (muR_apply h) (varR_apply h) r

theorem refOut_apply (a0 a1 : IVec S65536 32) (a2 : IVec S65536x7x7 32) (a3 : FVec Ideal S16777216x8 .f32) (a4 : FVec Ideal S4x32 .f32) (a5 : FVec Ideal S200x16 .f32) (a6 : FVec Ideal S256x440 .f32) (a7 a8 a9 : FVec Ideal S256 .f32) (a10 : FVec Ideal S64x256 .f32) (a11 : FVec Ideal S64 .f32) (a12 : FVec Ideal S16x64 .f32) (a13 : FVec Ideal S16 .f32) (a14 : FVec Ideal S1x16 .f32) (a15 : FVec Ideal S1 .f32) (r : Fin 65536) :
    refOut (F := Ideal) a0 a1 a2 a3 a4 a5 a6 a7 a8 a9 a10 a11 a12 a13 a14 a15 (ix1 r)
      = Cert.Spec.outR
          (Cert.Spec.feat (fun r k => sR a0 a4 (ix2 r k)) (fun r k => cR a1 a5 (ix2 r k)) (fun r k => xR a2 a3 (ix2 r k)))
          (fun j k => a6 (ix2 j k)) (fun j => a7 (ix1 j)) (fun j => a8 (ix1 j)) (fun j => a9 (ix1 j))
          (fun q j => a10 (ix2 q j)) (fun q => a11 (ix1 q)) (fun q j => a12 (ix2 q j)) (fun q => a13 (ix1 q))
          (fun j => a14 (ix2 0 j)) (a15 (ix1 0)) r := by
  unfold refOut Cert.Spec.outR
  refine (tailR_apply _ a8 a9 a10 a11 a12 a13 a14 a15 r).trans ?_
  have e : (fun r j => h1R (sR a0 a4) (cR a1 a5) (xR a2 a3) a6 a7 (ix2 r j))
      = Cert.Spec.lin1
          (Cert.Spec.feat (fun r k => sR a0 a4 (ix2 r k)) (fun r k => cR a1 a5 (ix2 r k)) (fun r k => xR a2 a3 (ix2 r k)))
          (fun j k => a6 (ix2 j k)) (fun j => a7 (ix1 j)) :=
    funext fun r => funext fun j => h1R_apply _ _ _ a6 a7 r j
  have key := congrArg
    (fun G : Fin 65536 → Fin 256 → EReal =>
      Cert.Spec.tailRow (G r) (Cert.Spec.mean G) (Cert.Spec.varR G) (fun j => a8 (ix1 j)) (fun j => a9 (ix1 j))
        (fun q j => a10 (ix2 q j)) (fun q => a11 (ix1 q)) (fun q j => a12 (ix2 q j)) (fun q => a13 (ix1 q))
        (fun j => a14 (ix2 0 j)) (a15 (ix1 0))) e
  exact key

end Cert.ReferenceIdeal.RefValue

end
-- ==== Proof.Finite.lean ====
/-
  From the precondition (every float input finite: |x| < +inf entry by entry, all the tests and-ed) to what the
  bridge uses: every entry of the three tables, of the first layer's weight and of its bias is a real number.
-/
import proofs.«162343_j80882824118683_1_alg».proof.Proof.Gen.Pre_finite_inputs
import proofs.«162343_j80882824118683_1_alg».proof.Proof.LibRealArr
import Idealize.ShloMosaic.Lib.ReduceAll
import Idealize.ShloMosaic.Lib.ValueIdx

noncomputable section

namespace Cert.Finite

open Idealize.ShloMosaic Cert.Val

/-- The rank-0 shape has exactly one index. -/
instance subsingleton_scalar_idx : Subsingleton Cert.Pre_finite_inputs.S_.Idx :=
  ⟨fun a b => funext fun d => d.elim0⟩

/-- The pattern `0x7F800000` of the 32-bit format is `+∞`. -/
theorem ofBits_inf : Ideal.ofBits .f32 0x7F800000#32 = (⊤ : EReal) := by
  simp [Ideal.ofBits, Ideal.ieee]

/-- One value: `|x| < +∞` (with `|x| = max x (-x)`) says `x` is neither infinity, that is, a real number.
    At `⊥` the absolute value is `max ⊥ ⊤ = ⊤`, at `⊤` it is `⊤`: neither is below `⊤`. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- One test of the precondition, for an array of any shape: if the conjunction over ALL entries of
    `|x| < +∞` is 1, every entry of `x` is a real number. -/
theorem isRealArr_of_all {S : Shape} {axes : List (Fin S.rank)} (x : FVec Ideal S .f32)
    (hb : Cert.Pre_finite_inputs.S_.BroadcastsInDim S (![] : Fin 0 → Fin S.rank))
    (hred : S.ReducesTo axes Cert.Pre_finite_inputs.S_) (hS : 0 < Cert.Pre_finite_inputs.S_.numel)
    (h : Host.reduce IntOp.andi
          (cmpf .olt (Host.absf x)
            (broadcastInDim S ![] hb (constant (F := Ideal) Cert.Pre_finite_inputs.S_ .f32 0x7F800000#32)))
          (constantI Cert.Pre_finite_inputs.S_ 1 1#1) hred hS ValueIdx.ix0 = 1#1) :
    IsRealArr x := by
  intro i
  have hi := Host.reduce_andi_all _ _ hred hS _ h i
  exact real_of_abs_lt_inf (x i) hi

/-- The conjunction of two rank-0 bits is 1 only if both are. -/
theorem andi_scalar_eq_one {x y : IVec Cert.Pre_finite_inputs.S_ 1} (h : andi x y ValueIdx.ix0 = 1#1) :
    x ValueIdx.ix0 = 1#1 ∧ y ValueIdx.ix0 = 1#1 :=
  IntOp.andi_eq_one.1 h

theorem real_of_pre (a0 a1 : IVec Cert.Pre_finite_inputs.S65536 32) (a2 : IVec Cert.Pre_finite_inputs.S65536x7x7 32) (a3 : FVec Ideal Cert.Pre_finite_inputs.S16777216x8 .f32) (a4 : FVec Ideal Cert.Pre_finite_inputs.S4x32 .f32) (a5 : FVec Ideal Cert.Pre_finite_inputs.S200x16 .f32) (a6 : FVec Ideal Cert.Pre_finite_inputs.S256x440 .f32) (a7 a8 a9 : FVec Ideal Cert.Pre_finite_inputs.S256 .f32) (a10 : FVec Ideal Cert.Pre_finite_inputs.S64x256 .f32) (a11 : FVec Ideal Cert.Pre_finite_inputs.S64 .f32) (a12 : FVec Ideal Cert.Pre_finite_inputs.S16x64 .f32) (a13 : FVec Ideal Cert.Pre_finite_inputs.S16 .f32) (a14 : FVec Ideal Cert.Pre_finite_inputs.S1x16 .f32) (a15 : FVec Ideal Cert.Pre_finite_inputs.S1 .f32)
    (h : Cert.Pre_finite_inputs.fn (F := Ideal) a0 a1 a2 a3 a4 a5 a6 a7 a8 a9 a10 a11 a12 a13 a14 a15 = fun _ => 1#1) :
    IsRealArr a3 ∧ IsRealArr a4 ∧ IsRealArr a5 ∧ IsRealArr a6 ∧ IsRealArr a7 := by
  have h0 := congrFun h ValueIdx.ix0
  dsimp only [Cert.Pre_finite_inputs.fn, Cert.Pre_finite_inputs.fn_part1, Cert.Pre_finite_inputs.fn_part2,
    Cert.Pre_finite_inputs.fn_part3] at h0
  -- the outermost conjunct is the LAST test; peel the eight tests that are not needed
  obtain ⟨h0, -⟩ := andi_scalar_eq_one h0   -- a15
  obtain ⟨h0, -⟩ := andi_scalar_eq_one h0   -- a14
  obtain ⟨h0, -⟩ := andi_scalar_eq_one h0   -- a13
  obtain ⟨h0, -⟩ := andi_scalar_eq_one h0   -- a12
  obtain ⟨h0, -⟩ := andi_scalar_eq_one h0   -- a11
  obtain ⟨h0, -⟩ := andi_scalar_eq_one h0   -- a10
  obtain ⟨h0, -⟩ := andi_scalar_eq_one h0   -- a9
  obtain ⟨h0, -⟩ := andi_scalar_eq_one h0   -- a8
  obtain ⟨h0, h7⟩ := andi_scalar_eq_one h0
  obtain ⟨h0, h6⟩ := andi_scalar_eq_one h0
  obtain ⟨h0, h5⟩ := andi_scalar_eq_one h0
  obtain ⟨h3, h4⟩ := andi_scalar_eq_one h0
  exact ⟨isRealArr_of_all a3 _ _ _ h3, isRealArr_of_all a4 _ _ _ h4, isRealArr_of_all a5 _ _ _ h5,
    isRealArr_of_all a6 _ _ _ h6, isRealArr_of_all a7 _ _ _ h7⟩

end Cert.Finite

end
-- ==== Proof.lean ====
/-
  The certificate: the two programs compute, at every batch row, the same extended real.

  Both gather the same three feature pieces (rows of a small state table, of a small counts table, and 49 rows of a
  large embedding table per batch row, the indices brought into range the same way), lay them side by side, and
  apply an affine layer 440 -> 256.  The kernel program does this block by block over sixteen grid points and keeps
  running column sums of the outputs and of their squares; the reference sums whole columns.  A sum over 65536 rows
  taken sixteen blocks of 4096 at a time is the same sum.  The batch mean is the column sum over 65536 on both
  sides.  The batch variance is where they differ in form: mean of squares minus squared mean against mean of squared
  deviations.  On real numbers these agree, and every first-layer output IS a real number because the inputs are
  finite (the precondition): gathered table rows are table entries, and finite sums of products of reals are real.
  After the statistics both sides normalise, scale, shift and apply the same three layers (two of them clipped at
  zero); a change of float format is the identity over the extended reals, and a product accumulated into a zero
  accumulator is the plain product.

  The frames of the two kernel programs are the generated ones; the reference's frame is its run with the result
  dropped; nothing was rewritten by the idealisation, so there is nothing to preserve.
-/
import proofs.«162343_j80882824118683_1_alg».proof.Defs
import proofs.«162343_j80882824118683_1_alg».proof.Proof.Gen.Kernel
import proofs.«162343_j80882824118683_1_alg».proof.Proof.Gen.Kernel.Skeleton
import proofs.«162343_j80882824118683_1_alg».proof.Proof.Gen.Kernel.Launch
import proofs.«162343_j80882824118683_1_alg».proof.Proof.Gen.Kernel.Points
import proofs.«162343_j80882824118683_1_alg».proof.Proof.Gen.Kernel.Frame
import proofs.«162343_j80882824118683_1_alg».proof.Proof.Gen.KernelIdeal
import proofs.«162343_j80882824118683_1_alg».proof.Proof.Gen.KernelIdeal.Skeleton
import proofs.«162343_j80882824118683_1_alg».proof.Proof.Gen.KernelIdeal.Launch
import proofs.«162343_j80882824118683_1_alg».proof.Proof.Gen.KernelIdeal.Points
import proofs.«162343_j80882824118683_1_alg».proof.Proof.Gen.KernelIdeal.Frame
import proofs.«162343_j80882824118683_1_alg».proof.Proof.Gen.ReferenceIdeal
import proofs.«162343_j80882824118683_1_alg».proof.Proof.Gen.Pre_finite_inputs
import proofs.«162343_j80882824118683_1_alg».proof.Proof.Spec
import proofs.«162343_j80882824118683_1_alg».proof.Proof.KNames
import proofs.«162343_j80882824118683_1_alg».proof.Proof.KRun
import proofs.«162343_j80882824118683_1_alg».proof.Proof.KEntry
import proofs.«162343_j80882824118683_1_alg».proof.Proof.KValue
import proofs.«162343_j80882824118683_1_alg».proof.Proof.RefTerm
import proofs.«162343_j80882824118683_1_alg».proof.Proof.RRun
import proofs.«162343_j80882824118683_1_alg».proof.Proof.RValue
import proofs.«162343_j80882824118683_1_alg».proof.Proof.Finite
import proofs.«162343_j80882824118683_1_alg».proof.Proof.LibRealArr
import Idealize.ShloMosaic.Adequacy
import Idealize.ShloMosaic.Init

noncomputable section

namespace Cert.Proof

open Idealize.ShloMosaic Idealize.ShloMosaic.ValueIdx Idealize.SL.Sem Cert.Val
open Cert.KernelIdeal.Val Cert.ReferenceIdeal.RefValue

section Bridge

open Cert.KernelIdeal Cert.KernelIdeal.Gen

variable (m : (ℓ : Loc nD τ sig) → Buf (Elt Ideal) ℓ) (ρ : Dev nD → PrngReg)

/-- The kernel program's three gathered pieces are the reference's terms of the same arrays (the two programs'
    dimension-number records are one record). -/
theorem pieces_eq (c : Dev nD) :
    sR (ka0 m c) (ka4 m c) = sArr m ρ c ∧ cR (ka1 m c) (ka5 m c) = cArr m ρ c ∧ xR (ka2 m c) (ka3 m c) = xArr m ρ c :=
  ⟨(sArr_eq m ρ c).symm, (cArr_eq m ρ c).symm, (xArr_eq m ρ c).symm⟩

/-- Under the precondition the reference's result term of the kernel program's argument arrays IS the kernel
    program's result array. -/
theorem bridge (c : Dev nD)
    (hp : Cert.Pre_finite_inputs.fn (F := Ideal) (ka0 m c) (ka1 m c) (ka2 m c) (ka3 m c) (ka4 m c) (ka5 m c) (ka6 m c) (ka7 m c) (ka8 m c) (ka9 m c) (ka10 m c) (ka11 m c) (ka12 m c) (ka13 m c) (ka14 m c) (ka15 m c) = fun _ => 1#1) :
    refOut (F := Ideal) (ka0 m c) (ka1 m c) (ka2 m c) (ka3 m c) (ka4 m c) (ka5 m c) (ka6 m c) (ka7 m c) (ka8 m c) (ka9 m c) (ka10 m c) (ka11 m c) (ka12 m c) (ka13 m c) (ka14 m c) (ka15 m c) = resArr m ρ c := by
  funext i
  obtain ⟨r, rfl⟩ : ∃ r : Fin 65536, i = ix1 r := ⟨i 0, eq_ix1 i⟩
  refine (refOut_apply (ka0 m c) (ka1 m c) (ka2 m c) (ka3 m c) (ka4 m c) (ka5 m c) (ka6 m c) (ka7 m c) (ka8 m c) (ka9 m c) (ka10 m c) (ka11 m c) (ka12 m c) (ka13 m c) (ka14 m c) (ka15 m c) r).trans ?_
  refine Eq.trans ?_ (kernel_value m ρ c r).symm
  obtain ⟨r3, r4, r5, r6, r7⟩ := Cert.Finite.real_of_pre (ka0 m c) (ka1 m c) (ka2 m c) (ka3 m c) (ka4 m c) (ka5 m c) (ka6 m c) (ka7 m c) (ka8 m c) (ka9 m c) (ka10 m c) (ka11 m c) (ka12 m c) (ka13 m c) (ka14 m c) (ka15 m c) hp
  obtain ⟨es, ec, ex⟩ := pieces_eq m ρ c
  rw [es, ec, ex]
  refine (Cert.Spec.outK_eq_outR _ _ _ _ _ _ _ _ _ _ _ (Cert.Spec.feat_real _ _ _ ?_ ?_ ?_) (fun j k => r6 _) (fun j => r7 _) r).symm
  · intro r k
    rw [sArr_eq]
    exact isRealArr_gather _ _ r4 _
  · intro r k
    rw [cArr_eq]
    exact isRealArr_gather _ _ r5 _
  · intro r k
    rw [xArr_eq]
    exact isRealArr_shapeCast _ (isRealArr_gather _ _ r3) _

end Bridge

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run (Cert.ReferenceIdeal.defs (F := Ideal)) _ _).mono (fun _ h c => (h c).2) (Cert.ReferenceIdeal.RefValue.run (F := Ideal) m ρ)

/-- Both programs run, and from memories agreeing on the arguments they end with the same result array. -/
theorem algebraic : Cert.algebraic_KernelIdeal_ReferenceIdeal := by
  intro m ρ m' ρ' hpre hagree
  refine ⟨fun c => resArr m ρ c, Cert.KernelIdeal.Gen.run_value m ρ, ?_⟩
  refine (θ_run (Cert.ReferenceIdeal.defs (F := Ideal)) _ _).mono (fun _ h c => ⟨(h c).1.trans ?_, (h c).2⟩)
    (Cert.ReferenceIdeal.RefValue.run (F := Ideal) m' ρ')
  obtain ⟨h0, h1, h2, h3, h4, h5, h6, h7, h8, h9, h10, h11, h12, h13, h14, h15⟩ := hagree c
  rw [h0, h1, h2, h3, h4, h5, h6, h7, h8, h9, h10, h11, h12, h13, h14, h15]
  exact bridge m ρ c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
